-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 256]⟩ ⟨3, ![32, 256, 256]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x256x256 : Shape := ⟨3, ![1, 256, 256]⟩
abbrev S_ : Shape := ⟨0, ![]⟩

class Facts : Prop where
  bcast_S_S1x256x256 : S_.BroadcastsInDim S1x256x256 (![] : Fin 0 → Fin S1x256x256.rank)
  reducesTo_S1x256x256_S_d0_1_2 : S1x256x256.ReducesTo [0, 1, 2] S_
  h_S_ : 0 < S_.numel

variable [Facts]

def fn {F : FTy → Type} [FloatOps F] (main_arg0 : FVec F S1x256x256 .f32) : IVec S_ 1 :=
  let main_v0 : FVec F S1x256x256 .f32 := Host.absf main_arg0
  let main_cst : FVec F S_ .f32 := constant S_ .f32 0x7F800000#32
  let main_v1 : FVec F S1x256x256 .f32 := broadcastInDim S1x256x256 ![] bcast_S_S1x256x256 main_cst
  let main_v2 : IVec S1x256x256 1 := cmpf .olt main_v0 main_v1
  let main_c : IVec S_ 1 := constantI S_ 1 1#1
  let main_v3 : IVec S_ 1 := (fun x v => Host.reduce IntOp.andi x v reducesTo_S1x256x256_S_d0_1_2 h_S_) main_v2 main_c
  main_v3
-- ==== Pre_finite_inputs_ReferenceIdeal.lean ====
abbrev S32x256x256 : Shape := ⟨3, ![32, 256, 256]⟩
abbrev S_ : Shape := ⟨0, ![]⟩

class Facts : Prop where
  bcast_S_S32x256x256 : S_.BroadcastsInDim S32x256x256 (![] : Fin 0 → Fin S32x256x256.rank)
  reducesTo_S32x256x256_S_d0_1_2 : S32x256x256.ReducesTo [0, 1, 2] S_
  h_S_ : 0 < S_.numel

variable [Facts]

def fn {F : FTy → Type} [FloatOps F] (main_arg0 : FVec F S32x256x256 .f32) : IVec S_ 1 :=
  let main_v0 : FVec F S32x256x256 .f32 := Host.absf main_arg0
  let main_cst : FVec F S_ .f32 := constant S_ .f32 0x7F800000#32
  let main_v1 : FVec F S32x256x256 .f32 := broadcastInDim S32x256x256 ![] bcast_S_S32x256x256 main_cst
  let main_v2 : IVec S32x256x256 1 := cmpf .olt main_v0 main_v1
  let main_c : IVec S_ 1 := constantI S_ 1 1#1
  let main_v3 : IVec S_ 1 := (fun x v => Host.reduce IntOp.andi x v reducesTo_S32x256x256_S_d0_1_2 h_S_) main_v2 main_c
  main_v3
-- ==== Kernel.lean ====
abbrev S1x256x256 : Shape := ⟨3, ![1, 256, 256]⟩
abbrev S256x256 : Shape := ⟨2, ![256, 256]⟩
abbrev S31x8x256 : Shape := ⟨3, ![31, 8, 256]⟩
abbrev S31 : Shape := ⟨1, ![31]⟩
abbrev S_ : Shape := ⟨0, ![]⟩
abbrev S1 : Shape := ⟨1, ![1]⟩
abbrev S1x8x256 : Shape := ⟨3, ![1, 8, 256]⟩
abbrev S8x256 : Shape := ⟨2, ![8, 256]⟩

abbrev nBuf : Space → Nat
  | .hbm => 2
  | .vmem => 3
  | .smem => 0
  | _ => 0

abbrev bufTy : (tb : Table) → Fin (tcTables nBuf tb) → BufTy
  | .hbm, ⟨0, _⟩ => ⟨S1x256x256, .f32⟩
  | .hbm, ⟨1, _⟩ => ⟨S256x256, .f32⟩
  | .local _ .vmem, ⟨0, _⟩ => ⟨S1x256x256, .f32⟩
  | .local _ .vmem, ⟨1, _⟩ => ⟨S256x256, .f32⟩
  | .local _ .vmem, ⟨2, _⟩ => ⟨S31x8x256, .f32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  (ofTc nBuf bufTy 1 126 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) (c1_i32_125 : BitVec 32) : Fin 3 → Nat :=
  let c0_i32_128 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v128 : BitVec 32 := Scalar.addi v2 c1_i32_125
  let c32_i32_126 : BitVec 32 := 32#32
  let v129 : BitVec 32 := Scalar.remsi v128 c32_i32_126
  let c8_i32_127 : BitVec 32 := 8#32
  let v130 : BitVec 32 := Scalar.muli v129 c8_i32_127
  let c0_i32_136 : BitVec 32 := 0#32
  ![0, v130.toNat, 0]
def k0_dev32 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_125 : BitVec 32 := 1#32
  let v128 : BitVec 32 := Scalar.addi v2 c1_i32_125
  let c32_i32_126 : BitVec 32 := 32#32
  let v129 : BitVec 32 := Scalar.remsi v128 c32_i32_126
  let c1_i32_132 : BitVec 32 := 1#32
  let v131 : BitVec 32 := Scalar.muli v129 c1_i32_132
  let v132 : BitVec 32 := Scalar.addi c0_i32_133 v131
  v132.toNat
def k0_dev33 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_137 : BitVec 32 := 2#32
  let v141 : BitVec 32 := Scalar.addi v2 c2_i32_137
  let c32_i32_138 : BitVec 32 := 32#32
  let v142 : BitVec 32 := Scalar.remsi v141 c32_i32_138
  let c1_i32_144 : BitVec 32 := 1#32
  let v144 : BitVec 32 := Scalar.muli v142 c1_i32_144
  let v145 : BitVec 32 := Scalar.addi c0_i32_145 v144
  v145.toNat
def k0_dev34 (d0 : Dev nD) : Nat :=
  let c0_i32_157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_149 : BitVec 32 := 3#32
  let v154 : BitVec 32 := Scalar.addi v2 c3_i32_149
  let c32_i32_150 : BitVec 32 := 32#32
  let v155 : BitVec 32 := Scalar.remsi v154 c32_i32_150
  let c1_i32_156 : BitVec 32 := 1#32
  let v157 : BitVec 32 := Scalar.muli v155 c1_i32_156
  let v158 : BitVec 32 := Scalar.addi c0_i32_157 v157
  v158.toNat
def k0_dev35 (d0 : Dev nD) : Nat :=
  let c0_i32_169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_161 : BitVec 32 := 4#32
  let v167 : BitVec 32 := Scalar.addi v2 c4_i32_161
  let c32_i32_162 : BitVec 32 := 32#32
  let v168 : BitVec 32 := Scalar.remsi v167 c32_i32_162
  let c1_i32_168 : BitVec 32 := 1#32
  let v170 : BitVec 32 := Scalar.muli v168 c1_i32_168
  let v171 : BitVec 32 := Scalar.addi c0_i32_169 v170
  v171.toNat
def k0_dev36 (d0 : Dev nD) : Nat :=
  let c0_i32_181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_173 : BitVec 32 := 5#32
  let v180 : BitVec 32 := Scalar.addi v2 c5_i32_173
  let c32_i32_174 : BitVec 32 := 32#32
  let v181 : BitVec 32 := Scalar.remsi v180 c32_i32_174
  let c1_i32_180 : BitVec 32 := 1#32
  let v183 : BitVec 32 := Scalar.muli v181 c1_i32_180
  let v184 : BitVec 32 := Scalar.addi c0_i32_181 v183
  v184.toNat
def k0_dev37 (d0 : Dev nD) : Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_185 : BitVec 32 := 6#32
  let v193 : BitVec 32 := Scalar.addi v2 c6_i32_185
  let c32_i32_186 : BitVec 32 := 32#32
  let v194 : BitVec 32 := Scalar.remsi v193 c32_i32_186
  let c1_i32_192 : BitVec 32 := 1#32
  let v196 : BitVec 32 := Scalar.muli v194 c1_i32_192
  let v197 : BitVec 32 := Scalar.addi c0_i32_193 v196
  v197.toNat
def k0_dev38 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_197 : BitVec 32 := 7#32
  let v206 : BitVec 32 := Scalar.addi v2 c7_i32_197
  let c32_i32_198 : BitVec 32 := 32#32
  let v207 : BitVec 32 := Scalar.remsi v206 c32_i32_198
  let c1_i32_204 : BitVec 32 := 1#32
  let v209 : BitVec 32 := Scalar.muli v207 c1_i32_204
  let v210 : BitVec 32 := Scalar.addi c0_i32_205 v209
  v210.toNat
def k0_dev39 (d0 : Dev nD) : Nat :=
  let c0_i32_217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_209 : BitVec 32 := 8#32
  let v219 : BitVec 32 := Scalar.addi v2 c8_i32_209
  let c32_i32_210 : BitVec 32 := 32#32
  let v220 : BitVec 32 := Scalar.remsi v219 c32_i32_210
  let c1_i32_216 : BitVec 32 := 1#32
  let v222 : BitVec 32 := Scalar.muli v220 c1_i32_216
  let v223 : BitVec 32 := Scalar.addi c0_i32_217 v222
  v223.toNat
def k0_dev40 (d0 : Dev nD) : Nat :=
  let c0_i32_229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_221 : BitVec 32 := 9#32
  let v232 : BitVec 32 := Scalar.addi v2 c9_i32_221
  let c32_i32_222 : BitVec 32 := 32#32
  let v233 : BitVec 32 := Scalar.remsi v232 c32_i32_222
  let c1_i32_228 : BitVec 32 := 1#32
  let v235 : BitVec 32 := Scalar.muli v233 c1_i32_228
  let v236 : BitVec 32 := Scalar.addi c0_i32_229 v235
  v236.toNat
def k0_dev41 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_233 : BitVec 32 := 10#32
  let v245 : BitVec 32 := Scalar.addi v2 c10_i32_233
  let c32_i32_234 : BitVec 32 := 32#32
  let v246 : BitVec 32 := Scalar.remsi v245 c32_i32_234
  let c1_i32_240 : BitVec 32 := 1#32
  let v248 : BitVec 32 := Scalar.muli v246 c1_i32_240
  let v249 : BitVec 32 := Scalar.addi c0_i32_241 v248
  v249.toNat
def k0_dev42 (d0 : Dev nD) : Nat :=
  let c0_i32_253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_245 : BitVec 32 := 11#32
  let v258 : BitVec 32 := Scalar.addi v2 c11_i32_245
  let c32_i32_246 : BitVec 32 := 32#32
  let v259 : BitVec 32 := Scalar.remsi v258 c32_i32_246
  let c1_i32_252 : BitVec 32 := 1#32
  let v261 : BitVec 32 := Scalar.muli v259 c1_i32_252
  let v262 : BitVec 32 := Scalar.addi c0_i32_253 v261
  v262.toNat
def k0_dev43 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_257 : BitVec 32 := 12#32
  let v271 : BitVec 32 := Scalar.addi v2 c12_i32_257
  let c32_i32_258 : BitVec 32 := 32#32
  let v272 : BitVec 32 := Scalar.remsi v271 c32_i32_258
  let c1_i32_264 : BitVec 32 := 1#32
  let v274 : BitVec 32 := Scalar.muli v272 c1_i32_264
  let v275 : BitVec 32 := Scalar.addi c0_i32_265 v274
  v275.toNat
def k0_dev44 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_269 : BitVec 32 := 13#32
  let v284 : BitVec 32 := Scalar.addi v2 c13_i32_269
  let c32_i32_270 : BitVec 32 := 32#32
  let v285 : BitVec 32 := Scalar.remsi v284 c32_i32_270
  let c1_i32_276 : BitVec 32 := 1#32
  let v287 : BitVec 32 := Scalar.muli v285 c1_i32_276
  let v288 : BitVec 32 := Scalar.addi c0_i32_277 v287
  v288.toNat
def k0_dev45 (d0 : Dev nD) : Nat :=
  let c0_i32_289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_281 : BitVec 32 := 14#32
  let v297 : BitVec 32 := Scalar.addi v2 c14_i32_281
  let c32_i32_282 : BitVec 32 := 32#32
  let v298 : BitVec 32 := Scalar.remsi v297 c32_i32_282
  let c1_i32_288 : BitVec 32 := 1#32
  let v300 : BitVec 32 := Scalar.muli v298 c1_i32_288
  let v301 : BitVec 32 := Scalar.addi c0_i32_289 v300
  v301.toNat
def k0_dev46 (d0 : Dev nD) : Nat :=
  let c0_i32_301 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_293 : BitVec 32 := 15#32
  let v310 : BitVec 32 := Scalar.addi v2 c15_i32_293
  let c32_i32_294 : BitVec 32 := 32#32
  let v311 : BitVec 32 := Scalar.remsi v310 c32_i32_294
  let c1_i32_300 : BitVec 32 := 1#32
  let v313 : BitVec 32 := Scalar.muli v311 c1_i32_300
  let v314 : BitVec 32 := Scalar.addi c0_i32_301 v313
  v314.toNat
def k0_dev47 (d0 : Dev nD) : Nat :=
  let c0_i32_313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_305 : BitVec 32 := 16#32
  let v323 : BitVec 32 := Scalar.addi v2 c16_i32_305
  let c32_i32_306 : BitVec 32 := 32#32
  let v324 : BitVec 32 := Scalar.remsi v323 c32_i32_306
  let c1_i32_312 : BitVec 32 := 1#32
  let v326 : BitVec 32 := Scalar.muli v324 c1_i32_312
  let v327 : BitVec 32 := Scalar.addi c0_i32_313 v326
  v327.toNat
def k0_dev48 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_317 : BitVec 32 := 17#32
  let v336 : BitVec 32 := Scalar.addi v2 c17_i32_317
  let c32_i32_318 : BitVec 32 := 32#32
  let v337 : BitVec 32 := Scalar.remsi v336 c32_i32_318
  let c1_i32_324 : BitVec 32 := 1#32
  let v339 : BitVec 32 := Scalar.muli v337 c1_i32_324
  let v340 : BitVec 32 := Scalar.addi c0_i32_325 v339
  v340.toNat
def k0_dev49 (d0 : Dev nD) : Nat :=
  let c0_i32_337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_329 : BitVec 32 := 18#32
  let v349 : BitVec 32 := Scalar.addi v2 c18_i32_329
  let c32_i32_330 : BitVec 32 := 32#32
  let v350 : BitVec 32 := Scalar.remsi v349 c32_i32_330
  let c1_i32_336 : BitVec 32 := 1#32
  let v352 : BitVec 32 := Scalar.muli v350 c1_i32_336
  let v353 : BitVec 32 := Scalar.addi c0_i32_337 v352
  v353.toNat
def k0_dev50 (d0 : Dev nD) : Nat :=
  let c0_i32_349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_341 : BitVec 32 := 19#32
  let v362 : BitVec 32 := Scalar.addi v2 c19_i32_341
  let c32_i32_342 : BitVec 32 := 32#32
  let v363 : BitVec 32 := Scalar.remsi v362 c32_i32_342
  let c1_i32_348 : BitVec 32 := 1#32
  let v365 : BitVec 32 := Scalar.muli v363 c1_i32_348
  let v366 : BitVec 32 := Scalar.addi c0_i32_349 v365
  v366.toNat
def k0_dev51 (d0 : Dev nD) : Nat :=
  let c0_i32_361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_353 : BitVec 32 := 20#32
  let v375 : BitVec 32 := Scalar.addi v2 c20_i32_353
  let c32_i32_354 : BitVec 32 := 32#32
  let v376 : BitVec 32 := Scalar.remsi v375 c32_i32_354
  let c1_i32_360 : BitVec 32 := 1#32
  let v378 : BitVec 32 := Scalar.muli v376 c1_i32_360
  let v379 : BitVec 32 := Scalar.addi c0_i32_361 v378
  v379.toNat
def k0_dev52 (d0 : Dev nD) : Nat :=
  let c0_i32_373 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_365 : BitVec 32 := 21#32
  let v388 : BitVec 32 := Scalar.addi v2 c21_i32_365
  let c32_i32_366 : BitVec 32 := 32#32
  let v389 : BitVec 32 := Scalar.remsi v388 c32_i32_366
  let c1_i32_372 : BitVec 32 := 1#32
  let v391 : BitVec 32 := Scalar.muli v389 c1_i32_372
  let v392 : BitVec 32 := Scalar.addi c0_i32_373 v391
  v392.toNat
def k0_dev53 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_377 : BitVec 32 := 22#32
  let v401 : BitVec 32 := Scalar.addi v2 c22_i32_377
  let c32_i32_378 : BitVec 32 := 32#32
  let v402 : BitVec 32 := Scalar.remsi v401 c32_i32_378
  let c1_i32_384 : BitVec 32 := 1#32
  let v404 : BitVec 32 := Scalar.muli v402 c1_i32_384
  let v405 : BitVec 32 := Scalar.addi c0_i32_385 v404
  v405.toNat
def k0_dev54 (d0 : Dev nD) : Nat :=
  let c0_i32_397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_389 : BitVec 32 := 23#32
  let v414 : BitVec 32 := Scalar.addi v2 c23_i32_389
  let c32_i32_390 : BitVec 32 := 32#32
  let v415 : BitVec 32 := Scalar.remsi v414 c32_i32_390
  let c1_i32_396 : BitVec 32 := 1#32
  let v417 : BitVec 32 := Scalar.muli v415 c1_i32_396
  let v418 : BitVec 32 := Scalar.addi c0_i32_397 v417
  v418.toNat
def k0_dev55 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_401 : BitVec 32 := 24#32
  let v427 : BitVec 32 := Scalar.addi v2 c24_i32_401
  let c32_i32_402 : BitVec 32 := 32#32
  let v428 : BitVec 32 := Scalar.remsi v427 c32_i32_402
  let c1_i32_408 : BitVec 32 := 1#32
  let v430 : BitVec 32 := Scalar.muli v428 c1_i32_408
  let v431 : BitVec 32 := Scalar.addi c0_i32_409 v430
  v431.toNat
def k0_dev56 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_413 : BitVec 32 := 25#32
  let v440 : BitVec 32 := Scalar.addi v2 c25_i32_413
  let c32_i32_414 : BitVec 32 := 32#32
  let v441 : BitVec 32 := Scalar.remsi v440 c32_i32_414
  let c1_i32_420 : BitVec 32 := 1#32
  let v443 : BitVec 32 := Scalar.muli v441 c1_i32_420
  let v444 : BitVec 32 := Scalar.addi c0_i32_421 v443
  v444.toNat
def k0_dev57 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_425 : BitVec 32 := 26#32
  let v453 : BitVec 32 := Scalar.addi v2 c26_i32_425
  let c32_i32_426 : BitVec 32 := 32#32
  let v454 : BitVec 32 := Scalar.remsi v453 c32_i32_426
  let c1_i32_432 : BitVec 32 := 1#32
  let v456 : BitVec 32 := Scalar.muli v454 c1_i32_432
  let v457 : BitVec 32 := Scalar.addi c0_i32_433 v456
  v457.toNat
def k0_dev58 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_437 : BitVec 32 := 27#32
  let v466 : BitVec 32 := Scalar.addi v2 c27_i32_437
  let c32_i32_438 : BitVec 32 := 32#32
  let v467 : BitVec 32 := Scalar.remsi v466 c32_i32_438
  let c1_i32_444 : BitVec 32 := 1#32
  let v469 : BitVec 32 := Scalar.muli v467 c1_i32_444
  let v470 : BitVec 32 := Scalar.addi c0_i32_445 v469
  v470.toNat
def k0_dev59 (d0 : Dev nD) : Nat :=
  let c0_i32_457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_449 : BitVec 32 := 28#32
  let v479 : BitVec 32 := Scalar.addi v2 c28_i32_449
  let c32_i32_450 : BitVec 32 := 32#32
  let v480 : BitVec 32 := Scalar.remsi v479 c32_i32_450
  let c1_i32_456 : BitVec 32 := 1#32
  let v482 : BitVec 32 := Scalar.muli v480 c1_i32_456
  let v483 : BitVec 32 := Scalar.addi c0_i32_457 v482
  v483.toNat
def k0_dev60 (d0 : Dev nD) : Nat :=
  let c0_i32_469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_461 : BitVec 32 := 29#32
  let v492 : BitVec 32 := Scalar.addi v2 c29_i32_461
  let c32_i32_462 : BitVec 32 := 32#32
  let v493 : BitVec 32 := Scalar.remsi v492 c32_i32_462
  let c1_i32_468 : BitVec 32 := 1#32
  let v495 : BitVec 32 := Scalar.muli v493 c1_i32_468
  let v496 : BitVec 32 := Scalar.addi c0_i32_469 v495
  v496.toNat
def k0_dev61 (d0 : Dev nD) : Nat :=
  let c0_i32_481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_473 : BitVec 32 := 30#32
  let v505 : BitVec 32 := Scalar.addi v2 c30_i32_473
  let c32_i32_474 : BitVec 32 := 32#32
  let v506 : BitVec 32 := Scalar.remsi v505 c32_i32_474
  let c1_i32_480 : BitVec 32 := 1#32
  let v508 : BitVec 32 := Scalar.muli v506 c1_i32_480
  let v509 : BitVec 32 := Scalar.addi c0_i32_481 v508
  v509.toNat
def k0_dev62 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_485 : BitVec 32 := 31#32
  let v518 : BitVec 32 := Scalar.addi v2 c31_i32_485
  let c32_i32_486 : BitVec 32 := 32#32
  let v519 : BitVec 32 := Scalar.remsi v518 c32_i32_486
  let c1_i32_492 : BitVec 32 := 1#32
  let v521 : BitVec 32 := Scalar.muli v519 c1_i32_492
  let v522 : BitVec 32 := Scalar.addi c0_i32_493 v521
  v522.toNat
def k0_off2 (d0 : Dev nD) : Fin 3 → Nat :=
  let c0 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_776 : BitVec 32 := 8#32
  let v779 : BitVec 32 := Scalar.muli v2 c8_i32_776
  let v780 : Index := Scalar.indexCast v779
  let c0_777 : Index := 0#32
  ![0, v780.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_781 : BitVec 32 := 8#32
  let v786 : BitVec 32 := Scalar.muli v2 c8_i32_781
  let v787 : Index := Scalar.indexCast v786
  let c0_782 : Index := 0#32
  ![v787.toNat, 0]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_786 : BitVec 32 := 8#32
  let v792 : BitVec 32 := Scalar.muli v2 c8_i32_786
  let c0_i32_791 : BitVec 32 := 0#32
  ![v792.toNat, 0]
def k0_dev63 (d0 : Dev nD) : Nat :=
  let c0_i32_790 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_783 : BitVec 32 := 1#32
  let v789 : BitVec 32 := Scalar.addi v2 c1_i32_783
  let c32_i32_784 : BitVec 32 := 32#32
  let v790 : BitVec 32 := Scalar.remsi v789 c32_i32_784
  let c1_i32_789 : BitVec 32 := 1#32
  let v793 : BitVec 32 := Scalar.muli v790 c1_i32_789
  let v794 : BitVec 32 := Scalar.addi c0_i32_790 v793
  v794.toNat
def k0_dev64 (d0 : Dev nD) : Nat :=
  let c0_i32_800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_793 : BitVec 32 := 2#32
  let v801 : BitVec 32 := Scalar.addi v2 c2_i32_793
  let c32_i32_794 : BitVec 32 := 32#32
  let v802 : BitVec 32 := Scalar.remsi v801 c32_i32_794
  let c1_i32_799 : BitVec 32 := 1#32
  let v805 : BitVec 32 := Scalar.muli v802 c1_i32_799
  let v806 : BitVec 32 := Scalar.addi c0_i32_800 v805
  v806.toNat
def k0_dev65 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_803 : BitVec 32 := 3#32
  let v813 : BitVec 32 := Scalar.addi v2 c3_i32_803
  let c32_i32_804 : BitVec 32 := 32#32
  let v814 : BitVec 32 := Scalar.remsi v813 c32_i32_804
  let c1_i32_809 : BitVec 32 := 1#32
  let v817 : BitVec 32 := Scalar.muli v814 c1_i32_809
  let v818 : BitVec 32 := Scalar.addi c0_i32_810 v817
  v818.toNat
def k0_dev66 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_813 : BitVec 32 := 4#32
  let v825 : BitVec 32 := Scalar.addi v2 c4_i32_813
  let c32_i32_814 : BitVec 32 := 32#32
  let v826 : BitVec 32 := Scalar.remsi v825 c32_i32_814
  let c1_i32_819 : BitVec 32 := 1#32
  let v829 : BitVec 32 := Scalar.muli v826 c1_i32_819
  let v830 : BitVec 32 := Scalar.addi c0_i32_820 v829
  v830.toNat
def k0_dev67 (d0 : Dev nD) : Nat :=
  let c0_i32_830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_823 : BitVec 32 := 5#32
  let v837 : BitVec 32 := Scalar.addi v2 c5_i32_823
  let c32_i32_824 : BitVec 32 := 32#32
  let v838 : BitVec 32 := Scalar.remsi v837 c32_i32_824
  let c1_i32_829 : BitVec 32 := 1#32
  let v841 : BitVec 32 := Scalar.muli v838 c1_i32_829
  let v842 : BitVec 32 := Scalar.addi c0_i32_830 v841
  v842.toNat
def k0_dev68 (d0 : Dev nD) : Nat :=
  let c0_i32_840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_833 : BitVec 32 := 6#32
  let v849 : BitVec 32 := Scalar.addi v2 c6_i32_833
  let c32_i32_834 : BitVec 32 := 32#32
  let v850 : BitVec 32 := Scalar.remsi v849 c32_i32_834
  let c1_i32_839 : BitVec 32 := 1#32
  let v853 : BitVec 32 := Scalar.muli v850 c1_i32_839
  let v854 : BitVec 32 := Scalar.addi c0_i32_840 v853
  v854.toNat
def k0_dev69 (d0 : Dev nD) : Nat :=
  let c0_i32_850 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_843 : BitVec 32 := 7#32
  let v861 : BitVec 32 := Scalar.addi v2 c7_i32_843
  let c32_i32_844 : BitVec 32 := 32#32
  let v862 : BitVec 32 := Scalar.remsi v861 c32_i32_844
  let c1_i32_849 : BitVec 32 := 1#32
  let v865 : BitVec 32 := Scalar.muli v862 c1_i32_849
  let v866 : BitVec 32 := Scalar.addi c0_i32_850 v865
  v866.toNat
def k0_dev70 (d0 : Dev nD) : Nat :=
  let c0_i32_860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_853 : BitVec 32 := 8#32
  let v873 : BitVec 32 := Scalar.addi v2 c8_i32_853
  let c32_i32_854 : BitVec 32 := 32#32
  let v874 : BitVec 32 := Scalar.remsi v873 c32_i32_854
  let c1_i32_859 : BitVec 32 := 1#32
  let v877 : BitVec 32 := Scalar.muli v874 c1_i32_859
  let v878 : BitVec 32 := Scalar.addi c0_i32_860 v877
  v878.toNat
def k0_dev71 (d0 : Dev nD) : Nat :=
  let c0_i32_870 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_863 : BitVec 32 := 9#32
  let v885 : BitVec 32 := Scalar.addi v2 c9_i32_863
  let c32_i32_864 : BitVec 32 := 32#32
  let v886 : BitVec 32 := Scalar.remsi v885 c32_i32_864
  let c1_i32_869 : BitVec 32 := 1#32
  let v889 : BitVec 32 := Scalar.muli v886 c1_i32_869
  let v890 : BitVec 32 := Scalar.addi c0_i32_870 v889
  v890.toNat
def k0_dev72 (d0 : Dev nD) : Nat :=
  let c0_i32_880 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_873 : BitVec 32 := 10#32
  let v897 : BitVec 32 := Scalar.addi v2 c10_i32_873
  let c32_i32_874 : BitVec 32 := 32#32
  let v898 : BitVec 32 := Scalar.remsi v897 c32_i32_874
  let c1_i32_879 : BitVec 32 := 1#32
  let v901 : BitVec 32 := Scalar.muli v898 c1_i32_879
  let v902 : BitVec 32 := Scalar.addi c0_i32_880 v901
  v902.toNat
def k0_dev73 (d0 : Dev nD) : Nat :=
  let c0_i32_890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_883 : BitVec 32 := 11#32
  let v909 : BitVec 32 := Scalar.addi v2 c11_i32_883
  let c32_i32_884 : BitVec 32 := 32#32
  let v910 : BitVec 32 := Scalar.remsi v909 c32_i32_884
  let c1_i32_889 : BitVec 32 := 1#32
  let v913 : BitVec 32 := Scalar.muli v910 c1_i32_889
  let v914 : BitVec 32 := Scalar.addi c0_i32_890 v913
  v914.toNat
def k0_dev74 (d0 : Dev nD) : Nat :=
  let c0_i32_900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_893 : BitVec 32 := 12#32
  let v921 : BitVec 32 := Scalar.addi v2 c12_i32_893
  let c32_i32_894 : BitVec 32 := 32#32
  let v922 : BitVec 32 := Scalar.remsi v921 c32_i32_894
  let c1_i32_899 : BitVec 32 := 1#32
  let v925 : BitVec 32 := Scalar.muli v922 c1_i32_899
  let v926 : BitVec 32 := Scalar.addi c0_i32_900 v925
  v926.toNat
def k0_dev75 (d0 : Dev nD) : Nat :=
  let c0_i32_910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_903 : BitVec 32 := 13#32
  let v933 : BitVec 32 := Scalar.addi v2 c13_i32_903
  let c32_i32_904 : BitVec 32 := 32#32
  let v934 : BitVec 32 := Scalar.remsi v933 c32_i32_904
  let c1_i32_909 : BitVec 32 := 1#32
  let v937 : BitVec 32 := Scalar.muli v934 c1_i32_909
  let v938 : BitVec 32 := Scalar.addi c0_i32_910 v937
  v938.toNat
def k0_dev76 (d0 : Dev nD) : Nat :=
  let c0_i32_920 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_913 : BitVec 32 := 14#32
  let v945 : BitVec 32 := Scalar.addi v2 c14_i32_913
  let c32_i32_914 : BitVec 32 := 32#32
  let v946 : BitVec 32 := Scalar.remsi v945 c32_i32_914
  let c1_i32_919 : BitVec 32 := 1#32
  let v949 : BitVec 32 := Scalar.muli v946 c1_i32_919
  let v950 : BitVec 32 := Scalar.addi c0_i32_920 v949
  v950.toNat
def k0_dev77 (d0 : Dev nD) : Nat :=
  let c0_i32_930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_923 : BitVec 32 := 15#32
  let v957 : BitVec 32 := Scalar.addi v2 c15_i32_923
  let c32_i32_924 : BitVec 32 := 32#32
  let v958 : BitVec 32 := Scalar.remsi v957 c32_i32_924
  let c1_i32_929 : BitVec 32 := 1#32
  let v961 : BitVec 32 := Scalar.muli v958 c1_i32_929
  let v962 : BitVec 32 := Scalar.addi c0_i32_930 v961
  v962.toNat
def k0_dev78 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_933 : BitVec 32 := 16#32
  let v969 : BitVec 32 := Scalar.addi v2 c16_i32_933
  let c32_i32_934 : BitVec 32 := 32#32
  let v970 : BitVec 32 := Scalar.remsi v969 c32_i32_934
  let c1_i32_939 : BitVec 32 := 1#32
  let v973 : BitVec 32 := Scalar.muli v970 c1_i32_939
  let v974 : BitVec 32 := Scalar.addi c0_i32_940 v973
  v974.toNat
def k0_dev79 (d0 : Dev nD) : Nat :=
  let c0_i32_950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_943 : BitVec 32 := 17#32
  let v981 : BitVec 32 := Scalar.addi v2 c17_i32_943
  let c32_i32_944 : BitVec 32 := 32#32
  let v982 : BitVec 32 := Scalar.remsi v981 c32_i32_944
  let c1_i32_949 : BitVec 32 := 1#32
  let v985 : BitVec 32 := Scalar.muli v982 c1_i32_949
  let v986 : BitVec 32 := Scalar.addi c0_i32_950 v985
  v986.toNat
def k0_dev80 (d0 : Dev nD) : Nat :=
  let c0_i32_960 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_953 : BitVec 32 := 18#32
  let v993 : BitVec 32 := Scalar.addi v2 c18_i32_953
  let c32_i32_954 : BitVec 32 := 32#32
  let v994 : BitVec 32 := Scalar.remsi v993 c32_i32_954
  let c1_i32_959 : BitVec 32 := 1#32
  let v997 : BitVec 32 := Scalar.muli v994 c1_i32_959
  let v998 : BitVec 32 := Scalar.addi c0_i32_960 v997
  v998.toNat
def k0_dev81 (d0 : Dev nD) : Nat :=
  let c0_i32_970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_963 : BitVec 32 := 19#32
  let v1005 : BitVec 32 := Scalar.addi v2 c19_i32_963
  let c32_i32_964 : BitVec 32 := 32#32
  let v1006 : BitVec 32 := Scalar.remsi v1005 c32_i32_964
  let c1_i32_969 : BitVec 32 := 1#32
  let v1009 : BitVec 32 := Scalar.muli v1006 c1_i32_969
  let v1010 : BitVec 32 := Scalar.addi c0_i32_970 v1009
  v1010.toNat
def k0_dev82 (d0 : Dev nD) : Nat :=
  let c0_i32_980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_973 : BitVec 32 := 20#32
  let v1017 : BitVec 32 := Scalar.addi v2 c20_i32_973
  let c32_i32_974 : BitVec 32 := 32#32
  let v1018 : BitVec 32 := Scalar.remsi v1017 c32_i32_974
  let c1_i32_979 : BitVec 32 := 1#32
  let v1021 : BitVec 32 := Scalar.muli v1018 c1_i32_979
  let v1022 : BitVec 32 := Scalar.addi c0_i32_980 v1021
  v1022.toNat
def k0_dev83 (d0 : Dev nD) : Nat :=
  let c0_i32_990 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_983 : BitVec 32 := 21#32
  let v1029 : BitVec 32 := Scalar.addi v2 c21_i32_983
  let c32_i32_984 : BitVec 32 := 32#32
  let v1030 : BitVec 32 := Scalar.remsi v1029 c32_i32_984
  let c1_i32_989 : BitVec 32 := 1#32
  let v1033 : BitVec 32 := Scalar.muli v1030 c1_i32_989
  let v1034 : BitVec 32 := Scalar.addi c0_i32_990 v1033
  v1034.toNat
def k0_dev84 (d0 : Dev nD) : Nat :=
  let c0_i32_1000 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_993 : BitVec 32 := 22#32
  let v1041 : BitVec 32 := Scalar.addi v2 c22_i32_993
  let c32_i32_994 : BitVec 32 := 32#32
  let v1042 : BitVec 32 := Scalar.remsi v1041 c32_i32_994
  let c1_i32_999 : BitVec 32 := 1#32
  let v1045 : BitVec 32 := Scalar.muli v1042 c1_i32_999
  let v1046 : BitVec 32 := Scalar.addi c0_i32_1000 v1045
  v1046.toNat
def k0_dev85 (d0 : Dev nD) : Nat :=
  let c0_i32_1010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1003 : BitVec 32 := 23#32
  let v1053 : BitVec 32 := Scalar.addi v2 c23_i32_1003
  let c32_i32_1004 : BitVec 32 := 32#32
  let v1054 : BitVec 32 := Scalar.remsi v1053 c32_i32_1004
  let c1_i32_1009 : BitVec 32 := 1#32
  let v1057 : BitVec 32 := Scalar.muli v1054 c1_i32_1009
  let v1058 : BitVec 32 := Scalar.addi c0_i32_1010 v1057
  v1058.toNat
def k0_dev86 (d0 : Dev nD) : Nat :=
  let c0_i32_1020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1013 : BitVec 32 := 24#32
  let v1065 : BitVec 32 := Scalar.addi v2 c24_i32_1013
  let c32_i32_1014 : BitVec 32 := 32#32
  let v1066 : BitVec 32 := Scalar.remsi v1065 c32_i32_1014
  let c1_i32_1019 : BitVec 32 := 1#32
  let v1069 : BitVec 32 := Scalar.muli v1066 c1_i32_1019
  let v1070 : BitVec 32 := Scalar.addi c0_i32_1020 v1069
  v1070.toNat
def k0_dev87 (d0 : Dev nD) : Nat :=
  let c0_i32_1030 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1023 : BitVec 32 := 25#32
  let v1077 : BitVec 32 := Scalar.addi v2 c25_i32_1023
  let c32_i32_1024 : BitVec 32 := 32#32
  let v1078 : BitVec 32 := Scalar.remsi v1077 c32_i32_1024
  let c1_i32_1029 : BitVec 32 := 1#32
  let v1081 : BitVec 32 := Scalar.muli v1078 c1_i32_1029
  let v1082 : BitVec 32 := Scalar.addi c0_i32_1030 v1081
  v1082.toNat
def k0_dev88 (d0 : Dev nD) : Nat :=
  let c0_i32_1040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1033 : BitVec 32 := 26#32
  let v1089 : BitVec 32 := Scalar.addi v2 c26_i32_1033
  let c32_i32_1034 : BitVec 32 := 32#32
  let v1090 : BitVec 32 := Scalar.remsi v1089 c32_i32_1034
  let c1_i32_1039 : BitVec 32 := 1#32
  let v1093 : BitVec 32 := Scalar.muli v1090 c1_i32_1039
  let v1094 : BitVec 32 := Scalar.addi c0_i32_1040 v1093
  v1094.toNat
def k0_dev89 (d0 : Dev nD) : Nat :=
  let c0_i32_1050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1043 : BitVec 32 := 27#32
  let v1101 : BitVec 32 := Scalar.addi v2 c27_i32_1043
  let c32_i32_1044 : BitVec 32 := 32#32
  let v1102 : BitVec 32 := Scalar.remsi v1101 c32_i32_1044
  let c1_i32_1049 : BitVec 32 := 1#32
  let v1105 : BitVec 32 := Scalar.muli v1102 c1_i32_1049
  let v1106 : BitVec 32 := Scalar.addi c0_i32_1050 v1105
  v1106.toNat
def k0_dev90 (d0 : Dev nD) : Nat :=
  let c0_i32_1060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1053 : BitVec 32 := 28#32
  let v1113 : BitVec 32 := Scalar.addi v2 c28_i32_1053
  let c32_i32_1054 : BitVec 32 := 32#32
  let v1114 : BitVec 32 := Scalar.remsi v1113 c32_i32_1054
  let c1_i32_1059 : BitVec 32 := 1#32
  let v1117 : BitVec 32 := Scalar.muli v1114 c1_i32_1059
  let v1118 : BitVec 32 := Scalar.addi c0_i32_1060 v1117
  v1118.toNat
def k0_dev91 (d0 : Dev nD) : Nat :=
  let c0_i32_1070 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1063 : BitVec 32 := 29#32
  let v1125 : BitVec 32 := Scalar.addi v2 c29_i32_1063
  let c32_i32_1064 : BitVec 32 := 32#32
  let v1126 : BitVec 32 := Scalar.remsi v1125 c32_i32_1064
  let c1_i32_1069 : BitVec 32 := 1#32
  let v1129 : BitVec 32 := Scalar.muli v1126 c1_i32_1069
  let v1130 : BitVec 32 := Scalar.addi c0_i32_1070 v1129
  v1130.toNat
def k0_dev92 (d0 : Dev nD) : Nat :=
  let c0_i32_1080 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1073 : BitVec 32 := 30#32
  let v1137 : BitVec 32 := Scalar.addi v2 c30_i32_1073
  let c32_i32_1074 : BitVec 32 := 32#32
  let v1138 : BitVec 32 := Scalar.remsi v1137 c32_i32_1074
  let c1_i32_1079 : BitVec 32 := 1#32
  let v1141 : BitVec 32 := Scalar.muli v1138 c1_i32_1079
  let v1142 : BitVec 32 := Scalar.addi c0_i32_1080 v1141
  v1142.toNat
def k0_dev93 (d0 : Dev nD) : Nat :=
  let c0_i32_1090 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1083 : BitVec 32 := 31#32
  let v1149 : BitVec 32 := Scalar.addi v2 c31_i32_1083
  let c32_i32_1084 : BitVec 32 := 32#32
  let v1150 : BitVec 32 := Scalar.remsi v1149 c32_i32_1084
  let c1_i32_1089 : BitVec 32 := 1#32
  let v1153 : BitVec 32 := Scalar.muli v1150 c1_i32_1089
  let v1154 : BitVec 32 := Scalar.addi c0_i32_1090 v1153
  v1154.toNat
abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_31 : (31#32 : BitVec 32).msb = false
  inb_S31_S1_0 : ∀ a, (![0] : Fin 1 → Nat) a + S1.size a ≤ S31.size a
  squeezes_S1_S_ : S1.Squeezes S_
  inb_S31x8x256_S1x8x256_0_0_0 : ∀ a, (![0, 0, 0] : Fin 3 → Nat) a + S1x8x256.size a ≤ S31x8x256.size a
  squeezes_S1x8x256_S8x256 : S1x8x256.Squeezes S8x256
  inb_S31_S1_1 : ∀ a, (![1] : Fin 1 → Nat) a + S1.size a ≤ S31.size a
  inb_S31x8x256_S1x8x256_1_0_0 : ∀ a, (![1, 0, 0] : Fin 3 → Nat) a + S1x8x256.size a ≤ S31x8x256.size a
  inb_S31_S1_2 : ∀ a, (![2] : Fin 1 → Nat) a + S1.size a ≤ S31.size a
  inb_S31x8x256_S1x8x256_2_0_0 : ∀ a, (![2, 0, 0] : Fin 3 → Nat) a + S1x8x256.size a ≤ S31x8x256.size a
  inb_S31_S1_3 : ∀ a, (![3] : Fin 1 → Nat) a + S1.size a ≤ S31.size a
  inb_S31x8x256_S1x8x256_3_0_0 : ∀ a, (![3, 0, 0] : Fin 3 → Nat) a + S1x8x256.size a ≤ S31x8x256.size a
  inb_S31_S1_4 : ∀ a, (![4] : Fin 1 → Nat) a + S1.size a ≤ S31.size a
  inb_S31x8x256_S1x8x256_4_0_0 : ∀ a, (![4, 0, 0] : Fin 3 → Nat) a + S1x8x256.size a ≤ S31x8x256.size a
  inb_S31_S1_5 : ∀ a, (![5] : Fin 1 → Nat) a + S1.size a ≤ S31.size a
  inb_S31x8x256_S1x8x256_5_0_0 : ∀ a, (![5, 0, 0] : Fin 3 → Nat) a + S1x8x256.size a ≤ S31x8x256.size a
  inb_S31_S1_6 : ∀ a, (![6] : Fin 1 → Nat) a + S1.size a ≤ S31.size a
  inb_S31x8x256_S1x8x256_6_0_0 : ∀ a, (![6, 0, 0] : Fin 3 → Nat) a + S1x8x256.size a ≤ S31x8x256.size a
  inb_S31_S1_7 : ∀ a, (![7] : Fin 1 → Nat) a + S1.size a ≤ S31.size a
  inb_S31x8x256_S1x8x256_7_0_0 : ∀ a, (![7, 0, 0] : Fin 3 → Nat) a + S1x8x256.size a ≤ S31x8x256.size a
  inb_S31_S1_8 : ∀ a, (![8] : Fin 1 → Nat) a + S1.size a ≤ S31.size a
  inb_S31x8x256_S1x8x256_8_0_0 : ∀ a, (![8, 0, 0] : Fin 3 → Nat) a + S1x8x256.size a ≤ S31x8x256.size a
  inb_S31_S1_9 : ∀ a, (![9] : Fin 1 → Nat) a + S1.size a ≤ S31.size a
  inb_S31x8x256_S1x8x256_9_0_0 : ∀ a, (![9, 0, 0] : Fin 3 → Nat) a + S1x8x256.size a ≤ S31x8x256.size a
  inb_S31_S1_10 : ∀ a, (![10] : Fin 1 → Nat) a + S1.size a ≤ S31.size a
  inb_S31x8x256_S1x8x256_10_0_0 : ∀ a, (![10, 0, 0] : Fin 3 → Nat) a + S1x8x256.size a ≤ S31x8x256.size a
  inb_S31_S1_11 : ∀ a, (![11] : Fin 1 → Nat) a + S1.size a ≤ S31.size a
  inb_S31x8x256_S1x8x256_11_0_0 : ∀ a, (![11, 0, 0] : Fin 3 → Nat) a + S1x8x256.size a ≤ S31x8x256.size a
  inb_S31_S1_12 : ∀ a, (![12] : Fin 1 → Nat) a + S1.size a ≤ S31.size a
  inb_S31x8x256_S1x8x256_12_0_0 : ∀ a, (![12, 0, 0] : Fin 3 → Nat) a + S1x8x256.size a ≤ S31x8x256.size a
  inb_S31_S1_13 : ∀ a, (![13] : Fin 1 → Nat) a + S1.size a ≤ S31.size a
  inb_S31x8x256_S1x8x256_13_0_0 : ∀ a, (![13, 0, 0] : Fin 3 → Nat) a + S1x8x256.size a ≤ S31x8x256.size a
  inb_S31_S1_14 : ∀ a, (![14] : Fin 1 → Nat) a + S1.size a ≤ S31.size a
  inb_S31x8x256_S1x8x256_14_0_0 : ∀ a, (![14, 0, 0] : Fin 3 → Nat) a + S1x8x256.size a ≤ S31x8x256.size a
  inb_S31_S1_15 : ∀ a, (![15] : Fin 1 → Nat) a + S1.size a ≤ S31.size a
  inb_S31x8x256_S1x8x256_15_0_0 : ∀ a, (![15, 0, 0] : Fin 3 → Nat) a + S1x8x256.size a ≤ S31x8x256.size a
  inb_S31_S1_16 : ∀ a, (![16] : Fin 1 → Nat) a + S1.size a ≤ S31.size a
  inb_S31x8x256_S1x8x256_16_0_0 : ∀ a, (![16, 0, 0] : Fin 3 → Nat) a + S1x8x256.size a ≤ S31x8x256.size a
  inb_S31_S1_17 : ∀ a, (![17] : Fin 1 → Nat) a + S1.size a ≤ S31.size a
  inb_S31x8x256_S1x8x256_17_0_0 : ∀ a, (![17, 0, 0] : Fin 3 → Nat) a + S1x8x256.size a ≤ S31x8x256.size a
  inb_S31_S1_18 : ∀ a, (![18] : Fin 1 → Nat) a + S1.size a ≤ S31.size a
  inb_S31x8x256_S1x8x256_18_0_0 : ∀ a, (![18, 0, 0] : Fin 3 → Nat) a + S1x8x256.size a ≤ S31x8x256.size a
  inb_S31_S1_19 : ∀ a, (![19] : Fin 1 → Nat) a + S1.size a ≤ S31.size a
  inb_S31x8x256_S1x8x256_19_0_0 : ∀ a, (![19, 0, 0] : Fin 3 → Nat) a + S1x8x256.size a ≤ S31x8x256.size a
  inb_S31_S1_20 : ∀ a, (![20] : Fin 1 → Nat) a + S1.size a ≤ S31.size a
  inb_S31x8x256_S1x8x256_20_0_0 : ∀ a, (![20, 0, 0] : Fin 3 → Nat) a + S1x8x256.size a ≤ S31x8x256.size a
  inb_S31_S1_21 : ∀ a, (![21] : Fin 1 → Nat) a + S1.size a ≤ S31.size a
  inb_S31x8x256_S1x8x256_21_0_0 : ∀ a, (![21, 0, 0] : Fin 3 → Nat) a + S1x8x256.size a ≤ S31x8x256.size a
  inb_S31_S1_22 : ∀ a, (![22] : Fin 1 → Nat) a + S1.size a ≤ S31.size a
  inb_S31x8x256_S1x8x256_22_0_0 : ∀ a, (![22, 0, 0] : Fin 3 → Nat) a + S1x8x256.size a ≤ S31x8x256.size a
  inb_S31_S1_23 : ∀ a, (![23] : Fin 1 → Nat) a + S1.size a ≤ S31.size a
  inb_S31x8x256_S1x8x256_23_0_0 : ∀ a, (![23, 0, 0] : Fin 3 → Nat) a + S1x8x256.size a ≤ S31x8x256.size a
  inb_S31_S1_24 : ∀ a, (![24] : Fin 1 → Nat) a + S1.size a ≤ S31.size a
  inb_S31x8x256_S1x8x256_24_0_0 : ∀ a, (![24, 0, 0] : Fin 3 → Nat) a + S1x8x256.size a ≤ S31x8x256.size a
  inb_S31_S1_25 : ∀ a, (![25] : Fin 1 → Nat) a + S1.size a ≤ S31.size a
  inb_S31x8x256_S1x8x256_25_0_0 : ∀ a, (![25, 0, 0] : Fin 3 → Nat) a + S1x8x256.size a ≤ S31x8x256.size a
  inb_S31_S1_26 : ∀ a, (![26] : Fin 1 → Nat) a + S1.size a ≤ S31.size a
  inb_S31x8x256_S1x8x256_26_0_0 : ∀ a, (![26, 0, 0] : Fin 3 → Nat) a + S1x8x256.size a ≤ S31x8x256.size a
  inb_S31_S1_27 : ∀ a, (![27] : Fin 1 → Nat) a + S1.size a ≤ S31.size a
  inb_S31x8x256_S1x8x256_27_0_0 : ∀ a, (![27, 0, 0] : Fin 3 → Nat) a + S1x8x256.size a ≤ S31x8x256.size a
  inb_S31_S1_28 : ∀ a, (![28] : Fin 1 → Nat) a + S1.size a ≤ S31.size a
  inb_S31x8x256_S1x8x256_28_0_0 : ∀ a, (![28, 0, 0] : Fin 3 → Nat) a + S1x8x256.size a ≤ S31x8x256.size a
  inb_S31_S1_29 : ∀ a, (![29] : Fin 1 → Nat) a + S1.size a ≤ S31.size a
  inb_S31x8x256_S1x8x256_29_0_0 : ∀ a, (![29, 0, 0] : Fin 3 → Nat) a + S1x8x256.size a ≤ S31x8x256.size a
  inb_S31_S1_30 : ∀ a, (![30] : Fin 1 → Nat) a + S1.size a ≤ S31.size a
  inb_S31x8x256_S1x8x256_30_0_0 : ∀ a, (![30, 0, 0] : Fin 3 → Nat) a + S1x8x256.size a ≤ S31x8x256.size a
  h_S1x8x256 : 0 < S1x8x256.numel
  shapeCasts_S1x8x256_S8x256 : S1x8x256.ShapeCasts S8x256
  inb_S31x8x256_S31x8x256_0_0_0 : ∀ a, (![0, 0, 0] : Fin 3 → Nat) a + S31x8x256.size a ≤ S31x8x256.size a
  h_S31x8x256 : 0 < S31x8x256.numel
  reduces_S31x8x256_S8x256 : S31x8x256.Reduces [0] S8x256
  h_S8x256 : 0 < S8x256.numel
  hcc0_scratch1 : 2 + S31.numel ≤ 126
  hcc0_scratch2 : 33 + S31.numel ≤ 126
  hcc0_scratch3 : 64 + S31.numel ≤ 126
  hcc0_scratch4 : 95 + S31.numel ≤ 126
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off1_inb : ∀ d0 : Dev nD, ∀ (r : Fin 31), ∀ a, (k0_off1 d0 (BitVec.ofNat 32 (1 + r.val))) a + S1x8x256.size a ≤ S1x256x256.size a
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_off2_inb : ∀ d0 : Dev nD, ∀ a, (k0_off2 d0) a + S1x8x256.size a ≤ S1x256x256.size a
  k0_off3_inb : ∀ d0 : Dev nD, ∀ a, (k0_off3 d0) a + S8x256.size a ≤ S256x256.size a
  k0_off4_inb : ∀ d0 : Dev nD, ∀ a, (k0_off4 d0) a + S8x256.size a ≤ S256x256.size a
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  hstage0_0 : ∀ j, (stage0_0 j).IsWhole
  hstage0_1 : ∀ j, (stage0_1 j).IsWhole

variable [Facts₀]

abbrev cc0_scratch1 : DmaSems sig S31 := SemArray.consecutive 2 S31 hcc0_scratch1
abbrev cc0_scratch2 : DmaSems sig S31 := SemArray.consecutive 33 S31 hcc0_scratch2
abbrev cc0_scratch3 : DmaSems sig S31 := SemArray.consecutive 64 S31 hcc0_scratch3
abbrev cc0_scratch4 : DmaSems sig S31 := SemArray.consecutive 95 S31 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x256x256 : Shape := ⟨3, ![32, 256, 256]⟩
abbrev S_ : Shape := ⟨0, ![]⟩
abbrev S256x256 : Shape := ⟨2, ![256, 256]⟩

abbrev nBuf : Space → Nat
  | .hbm => 3
  | .vmem => 0
  | .smem => 0
  | _ => 0

abbrev bufTy : (tb : Table) → Fin (tcTables nBuf tb) → BufTy
  | .hbm, ⟨0, _⟩ => ⟨S32x256x256, .f32⟩
  | .hbm, ⟨1, _⟩ => ⟨S_, .f32⟩
  | .hbm, ⟨2, _⟩ => ⟨S256x256, .f32⟩
  | _, _ => ⟨S32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S32x256x256_S256x256_d0 : S32x256x256.ReducesTo [0] S256x256
  h_S_ : 0 < S_.numel

variable [Facts₀]

class Facts : Prop extends Facts₀ where

variable [Facts]
-- ==== Proof.Proto.lean ====
/-
  Reduce-scatter then all-gather over 32 devices: the vocabulary of the protocol.

  Device `c` holds the block `x c` of 256 rows. Rows are cut into 32 tiles of 8; tile `j` of the
  result belongs to device `j`. Phase one: `c` sends tile `(c+o) mod 32` of its block to device
  `(c+o) mod 32`, which receives it in slot `o-1` of its landing buffer (o = 1..31). After all 31
  slots have landed a device adds its own tile to the sum of the slots: that is tile `c` of the
  sum over all devices. Phase two: `c` sends its summed tile to every other device's result buffer.
  Before any transfer a device signals every other device's barrier semaphore once and waits for 31.

  Cells (one per semaphore and device): the barrier cell, with 31 duties of one unit, duty `j` paid
  by device `(c+j+1) mod 32` and handing `c` the two places on that device its two transfers to it
  will write (slot `j` of its landing buffer, tile `c` of its result buffer); and four families of
  31 DMA cells with one duty each.
-/
import proofs.«901102_g7700000000001103_dist_treered_v7x_i32_m256_n256_f32_1_alg».proof.Proof.Gen.KernelIdeal
import proofs.«901102_g7700000000001103_dist_treered_v7x_i32_m256_n256_f32_1_alg».proof.Proof.Gen.KernelIdeal.Skeleton
import proofs.«901102_g7700000000001103_dist_treered_v7x_i32_m256_n256_f32_1_alg».proof.Proof.Gen.KernelIdeal.Launch
import proofs.«901102_g7700000000001103_dist_treered_v7x_i32_m256_n256_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.TR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Fin 31`) -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Devices around the ring of 32 -/

/-- `o` places after `c`. -/
def fwd (c : Dev nD) (o : ℕ) : Dev nD := ⟨(c.val + o) % 32, Nat.mod_lt _ (by decide)⟩
/-- `o` places before `c`. -/
def bwd (c : Dev nD) (o : ℕ) : Dev nD := ⟨(c.val + (32 - o % 32)) % 32, Nat.mod_lt _ (by decide)⟩

/-! ## Buffers, semaphores, cells -/

abbrev xM : Memref sig .tc .vmem S1x256x256 .f32 := Memref.whole cc0_stg0_0
abbrev oM : Memref sig .tc .vmem S256x256 .f32 := Memref.whole cc0_stg1_0
abbrev pM : Memref sig .tc .vmem S31x8x256 .f32 := Memref.whole cc0_scratch0

abbrev barS : Sem sig := (SemArray.scalar (sig.barrier 0 rfl) : Sems sig S_).sem

theorem inb31 (k : ℕ) (hk : k < 31) : ∀ a, (![k] : Fin 1 → Nat) a + S1.size a ≤ S31.size a := by
  intro a; fin_cases a; show k + 1 ≤ 31; omega

/-- Entry `k` of a semaphore array of 31, as the kernel slices it. -/
abbrev semAt (A : DmaSems sig S31) (k : ℕ) (hk : k < 31) : DmaSem sig :=
  ((A.slice (Rect.unit (s := S31) ![k] S1.size (inb31 k hk))).squeeze S_ squeezes_S1_S_).sem

/-- The four families: 0 phase-one send, 1 phase-one receive, 2 phase-two send, 3 phase-two receive. -/
abbrev fam : Fin 4 → DmaSems sig S31 := fun | 0 => cc0_scratch1 | 1 => cc0_scratch2 | 2 => cc0_scratch3 | 3 => cc0_scratch4

abbrev dsem (a : Fin 4) (k : Fin 31) : DmaSem sig := semAt (fam a) k.val k.isLt

abbrev barCell (c : Dev nD) : GSem nD τ sig := ((c : Thread nD τ), .reg barS)
abbrev dCell (c : Dev nD) (a : Fin 4) (k : Fin 31) : GSem nD τ sig := ((c : Thread nD τ), .dma (dsem a k))

/-- Which cell a semaphore is: `none` not ours; `some none` the barrier; `some (some (a, k))` entry `k` of family `a`. -/
def kindOf : SemLoc sig → Option (Option (Fin 4 × Fin 31))
  | .reg s => if s = barS then some none else none
  | .dma q => if h : 2 ≤ q.val then
      some (some (⟨(q.val - 2) / 31, by have := q.isLt; change q.val < 126 at this; omega⟩, ⟨(q.val - 2) % 31, Nat.mod_lt _ (by decide)⟩))
    else none

/-! ## The views the kernel addresses, through the printed offset chains -/

/-- Slot `k` of the landing buffer. -/
theorem inbSlot (k : ℕ) (hk : k < 31) : ∀ a, (![k, 0, 0] : Fin 3 → Nat) a + S1x8x256.size a ≤ S31x8x256.size a := by
  intro a; fin_cases a
  · show k + 1 ≤ 31; omega
  · show 0 + 8 ≤ 8; omega
  · show 0 + 256 ≤ 256; omega

abbrev pSl (k : ℕ) (hk : k < 31) : Memref sig .tc .vmem S8x256 .f32 :=
  (pM.slice (Rect.unit (s := S31x8x256) ![k, 0, 0] S1x8x256.size (inbSlot k hk)) (fun _ => rfl)).squeeze S8x256 squeezes_S1x8x256_S8x256

/-- The tile of its block of `x` device `c` sends at offset `k+1`: the tile of device `fwd c (k+1)`. -/
abbrev xSl (c : Dev nD) (k : Fin 31) : Memref sig .tc .vmem S8x256 .f32 :=
  (xM.slice (Rect.unit (s := S1x256x256) (k0_off1 c (BitVec.ofNat 32 (1 + k.val))) S1x8x256.size (k0_off1_inb c k)) (fun _ => rfl)).squeeze S8x256 squeezes_S1x8x256_S8x256

/-- Device `c`'s own tile of a result buffer. -/
abbrev oSl (c : Dev nD) : Memref sig .tc .vmem S8x256 .f32 :=
  oM.slice (Rect.unit (s := S256x256) (k0_off4 c) S8x256.size (k0_off4_inb c)) (fun _ => rfl)

/-- The units one 8×256 transfer credits. -/
abbrev N : ℕ := (pSl 0 (by decide)).view.dmaCredit
theorem N_pos : 0 < N := View.dmaCredit_pos _ (by decide)

end Cert.KernelIdeal.TR

end
-- ==== Proof.Sched.lean ====
/-
  The schedule: what every transfer lands, stated from the start as contents.

  `X c` is device `c`'s block of `x` as staged. `P1fin c` is the landing buffer of `c` once all 31
  phase-one transfers have landed: slot `k` holds tile `c` of the block of the device `k+1` places
  before `c`. `acc d` is device `d`'s tile of the sum: its own tile plus the sum of its 31 slots.
  `Ofin` is the result buffer once everything has landed: tile `d` holds `acc d`; it is the same
  function on every device.
-/
import proofs.«901102_g7700000000001103_dist_treered_v7x_i32_m256_n256_f32_1_alg».proof.Proof.Proto

noncomputable section

namespace Cert.KernelIdeal.TR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Device `c`'s block of `x`, as its staging buffer holds it. -/
def X (c : Dev nD) : (cc0_stg0_0 : Ref sig .tc).ty.Contents (Elt F) :=
  (win0_0.blk (0 : Fin 1)).view.read (Elt F) ((s₀ m ρ).mem ((c : Thread nD τ).loc main_arg0))

/-- The landing buffer of `c` after phase one: at an index of slot `k`, what the transfer from the device
    `k+1` places before `c` writes there (its tile `c`). -/
def P1fin (c : Dev nD) : (cc0_scratch0 : Ref sig .tc).ty.Contents (Elt F) := fun (i : S31x8x256.Idx) =>
  ((pSl (i 0).val (i 0).isLt).view.write (Elt F) (m ((c : Thread nD τ).loc cc0_scratch0))
    ((xSl (bwd c ((i 0).val + 1)) ⟨(i 0).val, (i 0).isLt⟩).view.read (Elt F) (X m ρ (bwd c ((i 0).val + 1)))) Finset.univ) i

/-- Device `d`'s tile of the sum: its own tile of its block plus the sum of its 31 landed slots. -/
def acc (d : Dev nD) : FVec F S8x256 .f32 :=
  k0_pay1 (xM.view.readAt (Elt F) (Rect.unit (s := S1x256x256) (k0_off2 d) S1x8x256.size (k0_off2_inb d)).toLoadRect (X m ρ d)) (P1fin m ρ d)

theorem row_dev (i : S256x256.Idx) : (i 0).val / 8 < nD := by
  have h : (i 0).val < 256 := (i 0).isLt
  show (i 0).val / 8 < 32; omega

/-- The result buffer after phase two: at an index of tile `d`, what `d`'s store of `acc d` writes there. -/
def Ofin : (cc0_stg1_0 : Ref sig .tc).ty.Contents (Elt F) := fun (i : S256x256.Idx) =>
  ((oM.access (Rect.unit (s := S256x256) (k0_off3 (⟨(i 0).val / 8, row_dev i⟩ : Dev nD)) S8x256.size (k0_off3_inb _))).write (Elt F)
    (m (((⟨(i 0).val / 8, row_dev i⟩ : Dev nD) : Thread nD τ).loc cc0_stg1_0)) (acc m ρ ⟨(i 0).val / 8, row_dev i⟩) Finset.univ) i

/-! ## Shares of the summed tile: 31 transfers read it at once -/

/-- What is left of the full share after `n` left halves have been given away. -/
def rsh : ℕ → PosShare TreeShare
  | 0 => fullShare
  | n + 1 => (rsh n).right

/-! ## Payloads -/

/-- A view's elements on device `c` at share `q` and contents `f`. -/
abbrev pts (c : Dev nD) (v : Memref sig .tc .vmem S8x256 .f32) (q : PosShare TreeShare) (f : Buf (Elt F) (v.view.loc (c : Thread nD τ))) : sProp 𝕄 :=
  v.view.loc (c : Thread nD τ) ↦[v.view.set]{q} f

/-- Duty `j` of `c`'s barrier cell, paid by `p = fwd c (j+1)`: slot `j` of `p`'s landing buffer and tile `c` of `p`'s
    result buffer, at any contents, and that `p` has reached round 0 of the two cells those transfers credit. -/
def barPay (c : Dev nD) (j : Fin 31) : sProp 𝕄 :=
  iprop((∃ f, pts (fwd c (j.val + 1)) (pSl j.val j.isLt) fullShare f) ∗ (∃ f, pts (fwd c (j.val + 1)) (oSl c) fullShare f)
    ∗ reached ER (dCell (fwd c (j.val + 1)) 1 j) 0 ∗ reached ER (dCell (fwd c (j.val + 1)) 3 j) 0)

/-- What a DMA cell's one duty hands its owner. -/
def dmaPay (c : Dev nD) (a : Fin 4) (k : Fin 31) : sProp 𝕄 :=
  match a with
  | 0 => pts c (xSl c k) fullShare (X m ρ c)
  | 1 => pts c (pSl k.val k.isLt) fullShare (P1fin m ρ c)
  | 2 => pts c (oSl c) (rsh k.val).left (Ofin m ρ)
  | 3 => pts c (oSl (bwd c (k.val + 1))) fullShare (Ofin m ρ)

/-- One round, round 0: the barrier cell's 31 duties of one unit; each DMA cell's duty `0` of one transfer's credit. -/
def rd : Rounds.Schedule (GSem nD τ sig) (Fin 31) 𝕄 where
  duties g r := if r = 0 ∧ g.1.2 = .tc then (match kindOf g.2 with | some none => Finset.univ | some (some _) => {0} | none => ∅) else ∅
  unitless _ := False
  amount g _ _ := match kindOf g.2 with | some none => 1 | _ => N
  payload g _ d := match kindOf g.2 with
    | some none => barPay g.1.1 d
    | some (some (a, k)) => dmaPay m ρ g.1.1 a k
    | none => iprop(emp)
  amount_pos g _ _ _ := by
    cases kindOf g.2 with
    | none => exact N_pos
    | some o => cases o with
      | none => exact Nat.one_pos
      | some _ => exact N_pos

instance rd_payload_storable (g : GSem nD τ sig) (r : ℕ) (d : Fin 31) :
    BI.Storable (upEmb : UEmb _ 𝕄) ((rd (F := F) m ρ).payload g r d) := by
  show BI.Storable upEmb (match kindOf g.2 with
    | some none => barPay g.1.1 d
    | some (some (a, k)) => dmaPay m ρ g.1.1 a k
    | none => iprop(emp))
  cases kindOf g.2 with
  | none => infer_instance
  | some o => cases o with
    | none => unfold barPay; infer_instance
    | some ak =>
      obtain ⟨a, k⟩ := ak
      show BI.Storable upEmb (dmaPay m ρ g.1.1 a k)
      unfold dmaPay
      fin_cases a <;> infer_instance

/-! ## What a device owes, in the order it pays: 31 signals, 31 phase-one arrivals, 31 phase-two arrivals -/

def tally (c : Dev nD) (n : ℕ) : CellTallies nD τ sig Unit :=
  if h : n < 31 then tallyAt (barCell (fwd c (n + 1))) () 1
  else if h : n < 62 then tallyAt (dCell (fwd c (n - 31 + 1)) 1 ⟨n - 31, by omega⟩) () N
  else if h : n < 93 then tallyAt (dCell (fwd c (n - 62 + 1)) 3 ⟨n - 62, by omega⟩) () N
  else 0

/-- Still owed after the first `n` payments. -/
def owedFrom (c : Dev nD) (n : ℕ) : CellTallies nD τ sig Unit := ((List.range' n (93 - n)).map (tally c)).sum

def O₀ (c : Dev nD) : CellTallies nD τ sig Unit := owedFrom c 0

/-! ## Levels: barrier cells below phase-one receive cells below phase-two receive cells -/

def L (g : GSem nD τ sig) : Finset Unit := if g.1.2 = .tc then {()} else ∅
def lv (g : GSem nD τ sig) (_ : Unit) : ℕ :=
  match kindOf g.2 with
  | some none => 1
  | some (some (a, _)) => if a = 1 then 2 else if a = 3 then 3 else 0
  | none => 0

end Cert.KernelIdeal.TR

end
-- ==== Proof.Body.lean ====
/-
  What one device's body starts from and what it leaves: the statement of the body obligation.

  Every device is handed every cell's invariant and the fact that every cell has reached round 0
  (both persistent), its position at the start of its own 125 cells, and the one-shot tokens of the
  duties it pays: its 31 signals (duty `30-k` of the barrier cell of the device `k+1` places after
  it), and per offset `k` its phase-one send and the matching arrival, its phase-two send and the
  matching arrival.
-/
import proofs.«901102_g7700000000001103_dist_treered_v7x_i32_m256_n256_f32_1_alg».proof.Proof.Sched

noncomputable section

namespace Cert.KernelIdeal.TR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All the protocol's cells, indexed -/

/-- A cell of a device: `none` its barrier cell, `some (a, k)` entry `k` of DMA family `a`. -/
abbrev Cl : Type := Dev nD × Option (Fin 4 × Fin 31)
abbrev csem : Option (Fin 4 × Fin 31) → SemLoc sig
  | none => .reg barS
  | some (a, k) => .dma (dsem a k)
abbrev kcell (x : Cl) : GSem nD τ sig := ((x.1 : Thread nD τ), csem x.2)

/-- Every cell's invariant under the names `K`, and that every cell has reached round 0. -/
def records (K : Cl → ℕ) : sProp 𝕄 :=
  iprop((bigSep Finset.univ fun x : Cl => cellInv ER (rd m ρ) (K x) (kcell x))
    ∗ bigSep Finset.univ fun x : Cl => reached ER (kcell x) 0)

instance records_persistent (K : Cl → ℕ) : BI.Persistent (records m ρ K) := by unfold records; infer_instance

/-- Device `c`'s positions: at the start of round 0 of each of its own cells. -/
def positions (c : Dev nD) : sProp 𝕄 :=
  iprop(atPos ER (barCell c) 0 ∅ 0
    ∗ bigSep Finset.univ fun a : Fin 4 => bigSep Finset.univ fun k : Fin 31 => atPos ER (dCell c a k) 0 ∅ 0)

/-- The tokens of the duties device `c` pays. -/
def payToks (c : Dev nD) : sProp 𝕄 :=
  iprop((bigSep Finset.univ fun k : Fin 31 => dutyTok ER (barCell (fwd c (k.val + 1))) 0 (⟨30 - k.val, by omega⟩ : Fin 31))
    ∗ (bigSep Finset.univ fun k : Fin 31 => iprop(dutyTok ER (dCell c 0 k) 0 (0 : Fin 31) ∗ dutyTok ER (dCell (fwd c (k.val + 1)) 1 k) 0 (0 : Fin 31)))
    ∗ (bigSep Finset.univ fun k : Fin 31 => iprop(dutyTok ER (dCell c 2 k) 0 (0 : Fin 31) ∗ dutyTok ER (dCell (fwd c (k.val + 1)) 3 k) 0 (0 : Fin 31))))

def ghost (K : Cl → ℕ) (c : Dev nD) : sProp 𝕄 := iprop(records m ρ K ∗ positions c ∗ payToks c)

/-- What device `c`'s body starts from: the ghost state at some names, the credit of what the others owe its cells
    (31 units on its barrier, one transfer's credit on each receive cell), and the level facts. -/
def start (c : Dev nD) : sProp 𝕄 :=
  iprop((∃ K, ghost m ρ K c) ∗ cred (tallyAt (barCell c) () 31)
    ∗ (bigSep Finset.univ fun k : Fin 31 => cred (tallyAt (dCell c 1 k) () N))
    ∗ (bigSep Finset.univ fun k : Fin 31 => cred (tallyAt (dCell c 3 k) () N))
    ∗ levAts L lv)

def Φ₀ (c : Dev nD) : sProp 𝕄 :=
  iprop(start m ρ c ∗ ∃ f : Buf (Elt F) ((c : Thread nD τ).loc cc0_scratch0), ((c : Thread nD τ).loc cc0_scratch0) ↦{fullShare} f)

/-- After the body: the landing buffer holding the 31 tiles, and the 124 own DMA cells closed at zero. -/
def Φ₁ (c : Dev nD) : sProp 𝕄 :=
  iprop((((c : Thread nD τ).loc cc0_scratch0) ↦{fullShare} P1fin m ρ c)
    ∗ bigSep Finset.univ fun a : Fin 4 => bigSep Finset.univ fun k : Fin 31 => semVal (dCell c a k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => Ofin m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (X m ρ c) ∗ stg c cc0_stg1_0 (Ofin m ρ))

end Cert.KernelIdeal.TR

end
-- ==== Proof.Tables.lean ====
/-
  The schedule's tables: which semaphore is which cell, each cell's duties, amounts, expected units and
  payloads in round 0, what a device still owes after each payment, and that every wait is at a level
  below everything the waiter still owes.
-/
import proofs.«901102_g7700000000001103_dist_treered_v7x_i32_m256_n256_f32_1_alg».proof.Proof.Sched

noncomputable section

namespace Cert.KernelIdeal.TR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which semaphore is which cell -/

/-- Entry `k` of 31 consecutive semaphores from `base` is semaphore `base + k`: the slice at offset `k` of
    size one, squeezed to rank zero, names the row-major position `k`. -/
private theorem semAt_consecutive_val (base : ℕ) (h : base + S31.numel ≤ sig.nDmaSem) (k : ℕ) (hk : k < 31) :
    (semAt (SemArray.consecutive base S31 h) k hk).val = base + k := by
  show base + (S31.rowMajor _).val = base + k
  rw [Shape.rowMajor_val_one, Rect.emb_apply]
  show base + (k + 1 * _) = base + k
  have key : ∀ (n : ℕ) (j : Fin n), n = 1 → k + 1 * j.val = k := by
    intro n j hn
    have := j.isLt
    omega
  exact congrArg (base + ·) (key _ _ rfl)

private theorem fam_eq (a : Fin 4) : ∃ h, fam a = SemArray.consecutive (2 + 31 * a.val) S31 h := by
  fin_cases a <;> exact ⟨_, rfl⟩

theorem dsem_val (a : Fin 4) (k : Fin 31) : (dsem a k).val = 2 + 31 * a.val + k.val := by
  obtain ⟨h, e⟩ := fam_eq a
  show (semAt (fam a) k.val k.isLt).val = 2 + 31 * a.val + k.val
  rw [e]
  exact semAt_consecutive_val _ h k.val k.isLt

theorem kindOf_bar : kindOf (.reg barS : SemLoc sig) = some none := by
  show (if (barS : Sem sig) = barS then (some none : Option (Option (Fin 4 × Fin 31))) else none) = some none
  exact if_pos rfl

/-- A DMA semaphore at position `2 + 31 a + k` of the pool is entry `k` of family `a`. -/
private theorem kindOf_dma_of (q : DmaSem sig) (a : Fin 4) (k : Fin 31) (hq : q.val = 2 + 31 * a.val + k.val) :
    kindOf (.dma q : SemLoc sig) = some (some (a, k)) := by
  have hk := k.isLt
  have h2 : 2 ≤ q.val := by omega
  simp only [kindOf, dif_pos h2]
  refine congrArg some (congrArg some (Prod.ext (Fin.ext ?_) (Fin.ext ?_)))
  · show (q.val - 2) / 31 = a.val; omega
  · show (q.val - 2) % 31 = k.val; omega

theorem kindOf_dma (a : Fin 4) (k : Fin 31) : kindOf (.dma (dsem a k) : SemLoc sig) = some (some (a, k)) :=
  kindOf_dma_of _ a k (dsem_val a k)

theorem dsem_injective : Function.Injective (fun ak : Fin 4 × Fin 31 => dsem ak.1 ak.2) := by
  rintro ⟨a, k⟩ ⟨a', k'⟩ h
  have hv : (dsem a k).val = (dsem a' k').val := congrArg Fin.val h
  rw [dsem_val, dsem_val] at hv
  have hk := k.isLt
  have hk' := k'.isLt
  exact Prod.ext (Fin.ext (by show a.val = a'.val; omega)) (Fin.ext (by show k.val = k'.val; omega))

/-- The pipeline's two staging semaphores are none of the protocol's. -/
theorem kindOf_stage (q : DmaSem sig) (hq : q.val < 2) : kindOf (.dma q : SemLoc sig) = none := by
  simp only [kindOf]
  exact dif_neg (by omega)

/-! ## Round 0 of each cell -/

theorem duties_bar (c : Dev nD) : (rd (F := F) m ρ).duties (barCell c) 0 = Finset.univ := by
  dsimp only [rd]
  rw [if_pos ⟨rfl, rfl⟩, kindOf_bar]

theorem duties_dma (c : Dev nD) (a : Fin 4) (k : Fin 31) : (rd (F := F) m ρ).duties (dCell c a k) 0 = {0} := by
  dsimp only [rd]
  rw [if_pos ⟨rfl, rfl⟩, kindOf_dma]

theorem duties_later (g : GSem nD τ sig) : ∀ r, 1 ≤ r → (rd (F := F) m ρ).duties g r = ∅ := by
  intro r hr
  dsimp only [rd]
  exact if_neg (fun h => by have := h.1; omega)

theorem amount_bar (c : Dev nD) (d : Fin 31) : (rd (F := F) m ρ).amount (barCell c) 0 d = 1 := by
  dsimp only [rd]
  rw [kindOf_bar]

theorem amount_dma (c : Dev nD) (a : Fin 4) (k : Fin 31) (d : Fin 31) : (rd (F := F) m ρ).amount (dCell c a k) 0 d = N := by
  dsimp only [rd]
  rw [kindOf_dma]

theorem expect_bar (c : Dev nD) : (rd (F := F) m ρ).expect (barCell c) 0 = 31 := by
  show ∑ d ∈ (rd (F := F) m ρ).duties (barCell c) 0, (rd (F := F) m ρ).amount (barCell c) 0 d = 31
  rw [duties_bar, Finset.sum_congr rfl (fun d _ => amount_bar m ρ c d), Finset.sum_const, Finset.card_univ, Fintype.card_fin,
    smul_eq_mul, mul_one]

theorem expect_dma (c : Dev nD) (a : Fin 4) (k : Fin 31) : (rd (F := F) m ρ).expect (dCell c a k) 0 = N := by
  show ∑ d ∈ (rd (F := F) m ρ).duties (dCell c a k) 0, (rd (F := F) m ρ).amount (dCell c a k) 0 d = N
  rw [duties_dma, Finset.sum_singleton, amount_dma]

theorem payload_bar (c : Dev nD) (j : Fin 31) : (rd (F := F) m ρ).payload (barCell c) 0 j = barPay c j := by
  dsimp only [rd]
  rw [kindOf_bar]

theorem payload_dma (c : Dev nD) (a : Fin 4) (k : Fin 31) (d : Fin 31) : (rd (F := F) m ρ).payload (dCell c a k) 0 d = dmaPay m ρ c a k := by
  dsimp only [rd]
  rw [kindOf_dma]

/-- The rest of the barrier cell's round, no duty taken: the 31 payloads. -/
theorem rest_bar (c : Dev nD) :
    bigSep ((rd (F := F) m ρ).duties (barCell c) 0 \ ∅) (fun d => (rd (F := F) m ρ).payload (barCell c) 0 d) = bigSep Finset.univ (fun j : Fin 31 => barPay (F := F) c j) := by
  rw [Finset.sdiff_empty, duties_bar]
  exact bigSep_congr fun j _ => payload_bar m ρ c j

theorem rest_dma (c : Dev nD) (a : Fin 4) (k : Fin 31) :
    bigSep ((rd (F := F) m ρ).duties (dCell c a k) 0 \ ∅) (fun d => (rd (F := F) m ρ).payload (dCell c a k) 0 d) = dmaPay m ρ c a k := by
  rw [Finset.sdiff_empty, duties_dma, bigSep_singleton, payload_dma]

/-! ## What is still owed -/

theorem owedFrom_succ (c : Dev nD) (n : ℕ) (hn : n < 93) : owedFrom c n = owedFrom c (n + 1) + tally c n := by
  unfold owedFrom
  have e : 93 - n = (93 - (n + 1)) + 1 := by omega
  rw [e, List.range'_succ, List.map_cons, List.sum_cons, add_comm]

theorem owedFrom_end (c : Dev nD) : owedFrom c 93 = 0 := rfl

theorem tally_sig (c : Dev nD) (k : Fin 31) : tally c k.val = tallyAt (barCell (fwd c (k.val + 1))) () 1 := by
  unfold tally
  rw [dif_pos k.isLt]

theorem tally_p1 (c : Dev nD) (k : Fin 31) : tally c (31 + k.val) = tallyAt (dCell (fwd c (k.val + 1)) 1 k) () N := by
  have hk := k.isLt
  unfold tally
  rw [dif_neg (by omega), dif_pos (by omega)]
  simp only [Nat.add_sub_cancel_left]

theorem tally_p2 (c : Dev nD) (k : Fin 31) : tally c (62 + k.val) = tallyAt (dCell (fwd c (k.val + 1)) 3 k) () N := by
  have hk := k.isLt
  unfold tally
  rw [dif_neg (by omega), dif_neg (by omega), dif_pos (by omega)]
  simp only [Nat.add_sub_cancel_left]

/-! ## Levels -/

theorem L_of_ne (g : GSem nD τ sig) (h : g.1.2 ≠ .tc) : L g = ∅ := if_neg h
theorem L_tc (c : Dev nD) (sm : SemLoc sig) : L ((c : Thread nD τ), sm) = {()} := if_pos rfl

private theorem lv_bar (d : Dev nD) (u : Unit) : lv (barCell d) u = 1 := by
  simp only [lv, kindOf_bar]

private theorem lv_dma (d : Dev nD) (a : Fin 4) (k : Fin 31) (u : Unit) :
    lv (dCell d a k) u = if a = 1 then 2 else if a = 3 then 3 else 0 := by
  simp only [lv, kindOf_dma]

private theorem lv_stage (d : Dev nD) (q : DmaSem sig) (hq : q.val < 2) (u : Unit) : lv ((d : Thread nD τ), .dma q) u = 0 := by
  simp only [lv, kindOf_stage q hq]

/-- A positive entry of a sum of tallies over a list is a positive entry of one summand. -/
private theorem list_sum_pos {l : List ℕ} {f : ℕ → CellTallies nD τ sig Unit} {g : GSem nD τ sig} {u : Unit}
    (h : 0 < ((l.map f).sum) g u) : ∃ x ∈ l, 0 < f x g u := by
  induction l with
  | nil => exact absurd h (Nat.lt_irrefl 0)
  | cons a l ih =>
    rw [List.map_cons, List.sum_cons] at h
    rcases Pipeline.add_pos_cases h with h | h
    · exact ⟨a, List.mem_cons_self, h⟩
    · obtain ⟨x, hx, hx'⟩ := ih h
      exact ⟨x, List.mem_cons_of_mem _ hx, hx'⟩

/-- The cell the `i`-th payment goes to: a barrier cell for the 31 signals, a phase-one receive cell for the next 31,
    a phase-two receive cell for the last 31. -/
private theorem tally_pos {c : Dev nD} {i : ℕ} {g : GSem nD τ sig} {u : Unit} (h : 0 < tally c i g u) :
    (i < 31 ∧ ∃ d : Dev nD, g = barCell d) ∨ (¬ i < 31 ∧ i < 62 ∧ ∃ (d : Dev nD) (k : Fin 31), g = dCell d 1 k)
      ∨ (¬ i < 62 ∧ ∃ (d : Dev nD) (k : Fin 31), g = dCell d 3 k) := by
  unfold tally at h
  by_cases h1 : i < 31
  · rw [dif_pos h1] at h
    exact Or.inl ⟨h1, _, (Pipeline.tallyAt_pos h).1⟩
  · rw [dif_neg h1] at h
    by_cases h2 : i < 62
    · rw [dif_pos h2] at h
      exact Or.inr (Or.inl ⟨h1, h2, _, _, (Pipeline.tallyAt_pos h).1⟩)
    · rw [dif_neg h2] at h
      by_cases h3 : i < 93
      · rw [dif_pos h3] at h
        exact Or.inr (Or.inr ⟨h2, _, _, (Pipeline.tallyAt_pos h).1⟩)
      · rw [dif_neg h3] at h
        exact absurd h (Nat.lt_irrefl 0)

/-- What is still owed after `n` payments goes to barrier cells only while signals remain (`n < 31`), to phase-one
    receive cells only while phase-one arrivals remain (`n < 62`), and else to phase-two receive cells. -/
private theorem owedFrom_pos {c : Dev nD} {n : ℕ} {g : GSem nD τ sig} {u : Unit} (h : 0 < owedFrom c n g u) :
    (n < 31 ∧ ∃ d : Dev nD, g = barCell d) ∨ (n < 62 ∧ ∃ (d : Dev nD) (k : Fin 31), g = dCell d 1 k)
      ∨ (∃ (d : Dev nD) (k : Fin 31), g = dCell d 3 k) := by
  unfold owedFrom at h
  obtain ⟨i, hi, hpos⟩ := list_sum_pos h
  rw [List.mem_range'_1] at hi
  rcases tally_pos hpos with ⟨h1, d, e⟩ | ⟨h1, h2, d, k, e⟩ | ⟨h2, d, k, e⟩
  · exact Or.inl ⟨by omega, d, e⟩
  · exact Or.inr (Or.inl ⟨by omega, d, k, e⟩)
  · exact Or.inr (Or.inr ⟨d, k, e⟩)

/-- At its barrier wait a device owes only arrivals on receive cells, all above the barrier cells. -/
theorem mayWait_bar (c : Dev nD) :
    (levAts L lv : sProp 𝕄) ⊢ MayWait (c : Thread nD τ) (.reg barS) () (owedFrom c 31) :=
  MayOwe.of_cut (L := L) (lev := lv) 1
    (fun p hp => by rw [Finset.mem_singleton.mp hp, L_tc]; exact Finset.mem_singleton_self _)
    (fun g u hg => by
      rcases owedFrom_pos hg with ⟨h, _⟩ | ⟨_, d, k, rfl⟩ | ⟨d, k, rfl⟩
      · exact absurd h (by decide)
      · rw [L_tc]; exact Finset.mem_singleton_self _
      · rw [L_tc]; exact Finset.mem_singleton_self _)
    (fun p hp => by
      rw [Finset.mem_singleton.mp hp]
      show lv (barCell c) () ≤ 1
      rw [lv_bar])
    (fun g u hg => by
      rcases owedFrom_pos hg with ⟨h, _⟩ | ⟨_, d, k, rfl⟩ | ⟨d, k, rfl⟩
      · exact absurd h (by decide)
      · rw [lv_dma]; decide
      · rw [lv_dma]; decide)

/-- At a phase-one receive wait it owes only phase-two arrivals. -/
theorem mayWait_p1 (c : Dev nD) (k : Fin 31) :
    (levAts L lv : sProp 𝕄) ⊢ MayWait (c : Thread nD τ) (.dma (dsem 1 k)) () (owedFrom c 62) :=
  MayOwe.of_cut (L := L) (lev := lv) 2
    (fun p hp => by rw [Finset.mem_singleton.mp hp, L_tc]; exact Finset.mem_singleton_self _)
    (fun g u hg => by
      rcases owedFrom_pos hg with ⟨h, _⟩ | ⟨h, _⟩ | ⟨d, k', rfl⟩
      · exact absurd h (by decide)
      · exact absurd h (by decide)
      · rw [L_tc]; exact Finset.mem_singleton_self _)
    (fun p hp => by
      rw [Finset.mem_singleton.mp hp]
      show lv (dCell c 1 k) () ≤ 2
      rw [lv_dma]; decide)
    (fun g u hg => by
      rcases owedFrom_pos hg with ⟨h, _⟩ | ⟨h, _⟩ | ⟨d, k', rfl⟩
      · exact absurd h (by decide)
      · exact absurd h (by decide)
      · rw [lv_dma]; decide)

/-- The pipeline's own staging waits sit below everything. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        have hg' : 0 < owedFrom c 0 g u := hg
        rcases owedFrom_pos hg' with ⟨_, d, rfl⟩ | ⟨_, d, k, rfl⟩ | ⟨d, k, rfl⟩ <;>
          (rw [L_tc]; exact Finset.mem_singleton_self _))
      (fun p hp => by
        rw [Finset.mem_singleton.mp hp]
        show lv ((c : Thread nD τ), .dma q) () ≤ 0
        rw [lv_stage c q hq])
      (fun g u hg => by
        have hg' : 0 < owedFrom c 0 g u := hg
        rcases owedFrom_pos hg' with ⟨_, d, rfl⟩ | ⟨_, d, k, rfl⟩ | ⟨d, k, rfl⟩
        · rw [lv_bar]; decide
        · rw [lv_dma]; decide
        · rw [lv_dma]; decide)
  · rw [MayWait_zero]; iintro -; iempintro

/-- info: 'Cert.KernelIdeal.TR.mayWait_stage' depends on axioms: [propext, Classical.choice, Quot.sound] -/
#guard_msgs in #print axioms mayWait_stage

end Cert.KernelIdeal.TR

end
-- ==== Proof.Tiles.lean ====
/-
  Tiles: the three buffers cut into the pieces the protocol hands around, and what a landing writes.

  The staging buffer of `x` is its own tile and the 31 tiles it sends; the result buffer is its own tile
  and the 31 tiles it receives; the landing buffer is its 31 slots. A transfer's landing writes, on the
  destination's elements, exactly what the schedule names there, whatever stood there before.
-/
import proofs.«901102_g7700000000001103_dist_treered_v7x_i32_m256_n256_f32_1_alg».proof.Proof.Sched

noncomputable section

namespace Cert.KernelIdeal.TR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Around the ring -/

theorem fwd_ne (c : Dev nD) (k : Fin 31) : fwd c (k.val + 1) ≠ c := by
  intro h
  have hv := congrArg Fin.val h
  have hc : c.val < 32 := c.isLt
  have hk : k.val < 31 := k.isLt
  simp only [fwd] at hv
  omega
/-- The device `k+1` places after `c` finds `c` at `31-k` places after itself. -/
theorem fwd_fwd (c : Dev nD) (k : Fin 31) : fwd (fwd c (k.val + 1)) (30 - k.val + 1) = c := by
  have hc : c.val < 32 := c.isLt
  have hk : k.val < 31 := k.isLt
  apply Fin.ext
  simp only [fwd]
  omega
theorem bwd_fwd (c : Dev nD) (k : Fin 31) : bwd (fwd c (k.val + 1)) (k.val + 1) = c := by
  have hc : c.val < 32 := c.isLt
  have hk : k.val < 31 := k.isLt
  apply Fin.ext
  simp only [fwd, bwd]
  omega
theorem fwd_bwd (c : Dev nD) (k : Fin 31) : fwd (bwd c (k.val + 1)) (k.val + 1) = c := by
  have hc : c.val < 32 := c.isLt
  have hk : k.val < 31 := k.isLt
  apply Fin.ext
  simp only [fwd, bwd]
  omega
theorem bwd_eq_fwd (c : Dev nD) (k : Fin 31) : bwd c (k.val + 1) = fwd c (30 - k.val + 1) := by
  have hc : c.val < 32 := c.isLt
  have hk : k.val < 31 := k.isLt
  apply Fin.ext
  simp only [fwd, bwd]
  omega

/-! ## The own tiles, as the kernel's loads and store address them -/

/-- Device `c`'s own tile of its block of `x`, through the load's rectangle. -/
abbrev xOwnSet (c : Dev nD) : Finset (Idx ((c : Thread nD τ).loc cc0_stg0_0)) :=
  (xM.access (Rect.unit (s := S1x256x256) (k0_off2 c) S1x8x256.size (k0_off2_inb c))).set

theorem xOwn_load_sub (c : Dev nD) :
    xM.view.setOn (Rect.unit (s := S1x256x256) (k0_off2 c) S1x8x256.size (k0_off2_inb c)).toLoadRect.set ⊆ xOwnSet c := by
  exact (View.set_slice xM.view _).symm.subset
theorem oOwn_load_sub (c : Dev nD) :
    oM.view.setOn (Rect.unit (s := S256x256) (k0_off3 c) S8x256.size (k0_off3_inb c)).toLoadRect.set ⊆ (oSl c).view.set := by
  rw [Rect.unit_congr ((k0_off3_eq c).trans (k0_off4_eq c).symm) (k0_off3_inb c) (k0_off4_inb c)]
  exact (View.set_slice oM.view _).symm.subset
theorem oOwn_store_sub (c : Dev nD) :
    (oM.access (Rect.unit (s := S256x256) (k0_off3 c) S8x256.size (k0_off3_inb c))).setOn Finset.univ ⊆ (oSl c).view.set := by
  rw [Rect.unit_congr ((k0_off3_eq c).trans (k0_off4_eq c).symm) (k0_off3_inb c) (k0_off4_inb c)]
  exact Finset.Subset.refl _

/-! ## Which elements a tile holds: by the block of eight rows (or the slot) of the element -/

private theorem mem_xOwn (c : Dev nD) (i : S1x256x256.Idx) : i ∈ xOwnSet c ↔ (i 1).val / 8 = c.val := by
  have hc : c.val < 32 := c.isLt
  have h0 : (i 0).val < 1 := (i 0).isLt
  have h1 : (i 1).val < 256 := (i 1).isLt
  have h2 : (i 2).val < 256 := (i 2).isLt
  have hs : xOwnSet c = (Rect.unit (s := S1x256x256) (k0_off2 c) S1x8x256.size (k0_off2_inb c)).set :=
    View.set_slice_whole _ _
  rw [hs, Rect.mem_set_unit, k0_off2_eq]
  constructor
  · intro h
    have h' := h 1
    change 8 * c.val ≤ (i 1).val ∧ (i 1).val < 8 * c.val + 8 at h'
    omega
  · intro h a
    fin_cases a
    · show 0 ≤ (i 0).val ∧ (i 0).val < 0 + 1; omega
    · show 8 * c.val ≤ (i 1).val ∧ (i 1).val < 8 * c.val + 8; omega
    · show 0 ≤ (i 2).val ∧ (i 2).val < 0 + 256; omega

private theorem mem_xSl (c : Dev nD) (k : Fin 31) (i : S1x256x256.Idx) :
    i ∈ (xSl c k).view.set ↔ (i 1).val / 8 = (c.val + k.val + 1) % 32 := by
  have hc : c.val < 32 := c.isLt
  have hk : k.val < 31 := k.isLt
  have h0 : (i 0).val < 1 := (i 0).isLt
  have h1 : (i 1).val < 256 := (i 1).isLt
  have h2 : (i 2).val < 256 := (i 2).isLt
  have hs : (xSl c k).view.set
      = (Rect.unit (s := S1x256x256) (k0_off1 c (BitVec.ofNat 32 (1 + k.val))) S1x8x256.size (k0_off1_inb c k)).set :=
    (View.set_reshape _ _).trans (View.set_slice_whole _ _)
  rw [hs, Rect.mem_set_unit, k0_off1_eq]
  constructor
  · intro h
    have h' := h 1
    change 8 * ((c.val + k.val + 1) % 32) ≤ (i 1).val ∧ (i 1).val < 8 * ((c.val + k.val + 1) % 32) + 8 at h'
    omega
  · intro h a
    fin_cases a
    · show 0 ≤ (i 0).val ∧ (i 0).val < 0 + 1; omega
    · show 8 * ((c.val + k.val + 1) % 32) ≤ (i 1).val ∧ (i 1).val < 8 * ((c.val + k.val + 1) % 32) + 8; omega
    · show 0 ≤ (i 2).val ∧ (i 2).val < 0 + 256; omega

private theorem mem_oSl (d : Dev nD) (i : S256x256.Idx) : i ∈ (oSl d).view.set ↔ (i 0).val / 8 = d.val := by
  have hd : d.val < 32 := d.isLt
  have h0 : (i 0).val < 256 := (i 0).isLt
  have h1 : (i 1).val < 256 := (i 1).isLt
  have hs : (oSl d).view.set = (Rect.unit (s := S256x256) (k0_off4 d) S8x256.size (k0_off4_inb d)).set :=
    View.set_slice_whole _ _
  rw [hs, Rect.mem_set_unit, k0_off4_eq]
  constructor
  · intro h
    have h' := h 0
    change 8 * d.val ≤ (i 0).val ∧ (i 0).val < 8 * d.val + 8 at h'
    omega
  · intro h a
    fin_cases a
    · show 8 * d.val ≤ (i 0).val ∧ (i 0).val < 8 * d.val + 8; omega
    · show 0 ≤ (i 1).val ∧ (i 1).val < 0 + 256; omega

private theorem mem_pSl (k : ℕ) (hk : k < 31) (i : S31x8x256.Idx) : i ∈ (pSl k hk).view.set ↔ (i 0).val = k := by
  have h0 : (i 0).val < 31 := (i 0).isLt
  have h1 : (i 1).val < 8 := (i 1).isLt
  have h2 : (i 2).val < 256 := (i 2).isLt
  have hs : (pSl k hk).view.set = (Rect.unit (s := S31x8x256) ![k, 0, 0] S1x8x256.size (inbSlot k hk)).set :=
    (View.set_reshape _ _).trans (View.set_slice_whole _ _)
  rw [hs, Rect.mem_set_unit]
  constructor
  · intro h
    have h' := h 0
    change k ≤ (i 0).val ∧ (i 0).val < k + 1 at h'
    omega
  · intro h a
    fin_cases a
    · show k ≤ (i 0).val ∧ (i 0).val < k + 1; omega
    · show 0 ≤ (i 1).val ∧ (i 1).val < 0 + 8; omega
    · show 0 ≤ (i 2).val ∧ (i 2).val < 0 + 256; omega

/-- Tile `d` of device `c`'s result buffer, as a set of that buffer's elements. -/
private abbrev oTile (c d : Dev nD) : Finset (Idx ((c : Thread nD τ).loc cc0_stg1_0)) := (oSl d).view.set

/-- A buffer whose elements fall into classes, each element in exactly one, is the separating
    conjunction of its classes. -/
private theorem pointsTo_parts {ℓ : Loc nD τ sig} {T : Type} [Fintype T] [DecidableEq T] (K : T → Finset (Idx ℓ))
    (hcov : ∀ i, ∃ t, i ∈ K t) (hdis : ∀ t t' i, i ∈ K t → i ∈ K t' → t = t')
    (q : PosShare TreeShare) (f : Buf (Elt F) ℓ) :
    ((ℓ ↦{q} f) : sProp 𝕄) = bigSep Finset.univ fun t => ℓ ↦[K t]{q} f := by
  have hU : (Finset.univ : Finset (Idx ℓ)) = Finset.univ.biUnion K := by
    ext i
    simp only [Finset.mem_univ, Finset.mem_biUnion, true_and, true_iff]
    exact hcov i
  rw [hU]
  exact pointsTo_biUnion _ _ fun t _ t' _ hne => Finset.disjoint_left.mpr fun i hi hi' => hne (hdis t t' i hi hi')

private theorem biEntails_of_eq {P Q : sProp 𝕄} (h : P = Q) : P ⊣⊢ Q := ⟨Entails.of_eq h, Entails.of_eq h.symm⟩

private theorem bigSep_option {J : Type} [Fintype J] [DecidableEq J] (Φ : Option J → sProp 𝕄) :
    bigSep Finset.univ Φ = iprop(Φ none ∗ bigSep Finset.univ fun j => Φ (some j)) := by
  have h : (Finset.univ : Finset (Option J)) = insert none (Finset.univ.map Function.Embedding.some) := by
    ext o; cases o <;> simp
  rw [h, bigSep_insert (by simp), bigSep_map]
  rfl

/-! ## The buffers cut into tiles -/

/-- Tile `d` of device `c`'s result buffer at share `q` and contents `f`. -/
abbrev oPts (c d : Dev nD) (q : PosShare TreeShare) (f : Buf (Elt F) ((c : Thread nD τ).loc cc0_stg1_0)) : sProp 𝕄 := pts c (oSl d) q f

theorem xSplit (c : Dev nD) (f : Buf (Elt F) ((c : Thread nD τ).loc cc0_stg0_0)) :
    ((((c : Thread nD τ).loc cc0_stg0_0) ↦{fullShare} f) : sProp 𝕄)
      ⊣⊢ iprop((((c : Thread nD τ).loc cc0_stg0_0) ↦[xOwnSet c]{fullShare} f) ∗ bigSep Finset.univ fun k : Fin 31 => pts c (xSl c k) fullShare f) := by
  have hc : c.val < 32 := c.isLt
  refine biEntails_of_eq ?_
  rw [pointsTo_parts (ℓ := (c : Thread nD τ).loc cc0_stg0_0) (T := Option (Fin 31))
    (fun o => match o with | none => xOwnSet c | some k => (xSl c k).view.set) ?_ ?_ fullShare f, bigSep_option]
  · intro i
    have h1 : ((i : S1x256x256.Idx) 1).val < 256 := (i 1).isLt
    by_cases hd : ((i : S1x256x256.Idx) 1).val / 8 = c.val
    · exact ⟨none, (mem_xOwn c i).mpr hd⟩
    · refine ⟨some ⟨(((i : S1x256x256.Idx) 1).val / 8 + 31 - c.val) % 32, by omega⟩, (mem_xSl c _ i).mpr ?_⟩
      show _ = (c.val + ((((i : S1x256x256.Idx) 1).val / 8 + 31 - c.val) % 32) + 1) % 32
      omega
  · rintro (_ | k) (_ | k') i h h'
    · rfl
    · have e := (mem_xOwn c i).mp h; have e' := (mem_xSl c k' i).mp h'; have := k'.isLt; omega
    · have e := (mem_xSl c k i).mp h; have e' := (mem_xOwn c i).mp h'; have := k.isLt; omega
    · have e := (mem_xSl c k i).mp h; have e' := (mem_xSl c k' i).mp h'; have := k.isLt; have := k'.isLt
      exact congrArg some (Fin.ext (by omega))

theorem oSplit (c : Dev nD) (f : Buf (Elt F) ((c : Thread nD τ).loc cc0_stg1_0)) :
    ((((c : Thread nD τ).loc cc0_stg1_0) ↦{fullShare} f) : sProp 𝕄)
      ⊣⊢ iprop(pts c (oSl c) fullShare f ∗ bigSep Finset.univ fun k : Fin 31 => oPts c (fwd c (k.val + 1)) fullShare f) := by
  have hc : c.val < 32 := c.isLt
  let dv : Option (Fin 31) → Dev nD := fun o => match o with | none => c | some k => fwd c (k.val + 1)
  have hn : (dv none).val = c.val := rfl
  have hs : ∀ k : Fin 31, (dv (some k)).val = (c.val + (k.val + 1)) % 32 := fun _ => rfl
  have hparts := pointsTo_parts (F := F) (ℓ := (c : Thread nD τ).loc cc0_stg1_0) (T := Option (Fin 31))
    (fun o => oTile c (dv o))
    (by
      intro i
      have h0 : ((i : S256x256.Idx) 0).val < 256 := (i 0).isLt
      by_cases hd : ((i : S256x256.Idx) 0).val / 8 = c.val
      · exact ⟨none, (mem_oSl (dv none) i).mpr (hd.trans hn.symm)⟩
      · have hlt : (((i : S256x256.Idx) 0).val / 8 + 31 - c.val) % 32 < 31 := by omega
        refine ⟨some ⟨_, hlt⟩, (mem_oSl (dv (some ⟨_, hlt⟩)) i).mpr ?_⟩
        rw [hs]
        show _ = (c.val + ((((i : S256x256.Idx) 0).val / 8 + 31 - c.val) % 32 + 1)) % 32
        omega)
    (by
      rintro (_ | k) (_ | k') i h h'
      · rfl
      · have e := (mem_oSl (dv none) i).mp h; have e' := (mem_oSl (dv (some k')) i).mp h'
        rw [hn] at e; rw [hs] at e'; have := k'.isLt; omega
      · have e := (mem_oSl (dv (some k)) i).mp h; have e' := (mem_oSl (dv none) i).mp h'
        rw [hs] at e; rw [hn] at e'; have := k.isLt; omega
      · have e := (mem_oSl (dv (some k)) i).mp h; have e' := (mem_oSl (dv (some k')) i).mp h'
        rw [hs] at e e'; have := k.isLt; have := k'.isLt
        exact congrArg some (Fin.ext (by omega)))
    fullShare f
  refine biEntails_of_eq ?_
  rw [hparts, bigSep_option]

theorem pSplit (c : Dev nD) (f : Buf (Elt F) ((c : Thread nD τ).loc cc0_scratch0)) :
    ((((c : Thread nD τ).loc cc0_scratch0) ↦{fullShare} f) : sProp 𝕄)
      ⊣⊢ bigSep Finset.univ fun k : Fin 31 => pts c (pSl k.val k.isLt) fullShare f := by
  refine biEntails_of_eq ?_
  exact pointsTo_parts (ℓ := (c : Thread nD τ).loc cc0_scratch0) (T := Fin 31)
    (fun k => (pSl k.val k.isLt).view.set)
    (fun i => ⟨(i : S31x8x256.Idx) 0, (mem_pSl _ _ i).mpr rfl⟩)
    (fun k k' i h h' => Fin.ext (((mem_pSl _ _ i).mp h).symm.trans ((mem_pSl _ _ i).mp h')))
    fullShare f

/-! ## Shares of one tile -/

theorem rsh_split (c : Dev nD) (v : Memref sig .tc .vmem S8x256 .f32) (n : ℕ) (f : Buf (Elt F) (v.view.loc (c : Thread nD τ))) :
    (pts c v (rsh n) f : sProp 𝕄) ⊣⊢ iprop(pts c v (rsh n).left f ∗ pts c v (rsh (n + 1)) f) :=
  pointsTo_share (IsOp.posShare_halves (rsh n)).mem_op

/-! ## What lands -/

/-- A write through slot `j` at an element of slot `k`, the two being the same slot. -/
private theorem P1fin_slot (c' : Dev nD) (j k : Fin 31) (hj : j = k)
    (g : Buf (Elt F) ((c' : Thread nD τ).loc cc0_scratch0)) (y : S8x256.Idx) :
    ((pSl j.val j.isLt).view.write (Elt F) g
        ((xSl (bwd c' (j.val + 1)) ⟨j.val, j.isLt⟩).view.read (Elt F) (X m ρ (bwd c' (j.val + 1)))) Finset.univ)
      ((pSl k.val k.isLt).view.emb y)
    = cast (congrArg (Elt F) (pSl k.val k.isLt).view.elt_eq.symm)
        ((xSl (bwd c' (k.val + 1)) k).view.read (Elt F) (X m ρ (bwd c' (k.val + 1))) y) := by
  subst hj
  exact View.write_emb_of_mem _ _ (Finset.mem_univ y)

/-- The schedule's landing buffer at an element of slot `k`: the tile of the device `k+1` places before. -/
private theorem P1fin_at (c' : Dev nD) (k : Fin 31) (y : S8x256.Idx) :
    P1fin m ρ c' ((pSl k.val k.isLt).view.emb y)
      = cast (congrArg (Elt F) (pSl k.val k.isLt).view.elt_eq.symm)
          ((xSl (bwd c' (k.val + 1)) k).view.read (Elt F) (X m ρ (bwd c' (k.val + 1))) y) := by
  have hj : ((pSl k.val k.isLt).view.emb y : S31x8x256.Idx) 0 = k :=
    Fin.ext ((mem_pSl k.val k.isLt _).mp ((pSl k.val k.isLt).view.emb_mem_set y))
  exact P1fin_slot m ρ c' _ k hj _ y

/-- A store of device `d`'s summed tile at an element of tile `c`, the two being the same device. -/
private theorem Ofin_tile (d c : Dev nD) (h : d = c) (g : Buf (Elt F) ((d : Thread nD τ).loc cc0_stg1_0))
    (y : (Rect.unit (s := S256x256) (k0_off3 c) S8x256.size (k0_off3_inb c)).shape.Idx) :
    ((oM.access (Rect.unit (s := S256x256) (k0_off3 d) S8x256.size (k0_off3_inb d))).write (Elt F) g (acc m ρ d) Finset.univ)
      ((oM.access (Rect.unit (s := S256x256) (k0_off3 c) S8x256.size (k0_off3_inb c))).emb y)
    = cast (congrArg (Elt F) (oM.access (Rect.unit (s := S256x256) (k0_off3 c) S8x256.size (k0_off3_inb c))).elt_eq.symm)
        (acc m ρ c y) := by
  subst h
  exact View.write_emb_of_mem _ _ (Finset.mem_univ y)

/-- Phase one: `c`'s transfer at offset `k+1` leaves slot `k` of the destination at the schedule's contents. -/
theorem land1 (c : Dev nD) (k : Fin 31) (fd : Buf (Elt F) ((pSl k.val k.isLt).view.loc ((fwd c (k.val + 1)) : Thread nD τ))) :
    (pts (fwd c (k.val + 1)) (pSl k.val k.isLt) fullShare
        ((pSl k.val k.isLt).view.write (Elt F) fd ((xSl c k).view.read (Elt F) (X m ρ c)) Finset.univ) : sProp 𝕄)
      = pts (fwd c (k.val + 1)) (pSl k.val k.isLt) fullShare (P1fin m ρ (fwd c (k.val + 1))) := by
  apply pointsTo_congr
  intro i hi
  obtain ⟨y, -, rfl⟩ := Finset.mem_map.mp hi
  rw [View.write_emb_of_mem _ _ (Finset.mem_univ y)]
  refine Eq.trans ?_ (P1fin_at m ρ (fwd c (k.val + 1)) k y).symm
  rw [bwd_fwd]

/-- Phase two: `c`'s transfer of its summed tile leaves tile `c` of the destination at the final contents. -/
theorem land2 (c d : Dev nD) (fd : Buf (Elt F) ((oSl c).view.loc (d : Thread nD τ))) :
    (pts d (oSl c) fullShare ((oSl c).view.write (Elt F) fd ((oSl c).view.read (Elt F) (Ofin m ρ)) Finset.univ) : sProp 𝕄)
      = pts d (oSl c) fullShare (Ofin m ρ) := by
  apply pointsTo_congr
  intro i hi
  obtain ⟨y, -, rfl⟩ := Finset.mem_map.mp hi
  rw [View.write_emb_of_mem _ _ (Finset.mem_univ y), View.read_apply, cast_cast, cast_eq]

/-- The store of the summed tile leaves the own tile at the final contents. -/
theorem store_own (c : Dev nD) (f : Buf (Elt F) ((c : Thread nD τ).loc cc0_stg1_0)) :
    (((oM.access (Rect.unit (s := S256x256) (k0_off3 c) S8x256.size (k0_off3_inb c))).loc (c : Thread nD τ)
        ↦[(oSl c).view.set]{fullShare}
        ((oM.access (Rect.unit (s := S256x256) (k0_off3 c) S8x256.size (k0_off3_inb c))).write (Elt F) f (acc m ρ c) Finset.univ)) : sProp 𝕄)
      = pts c (oSl c) fullShare (Ofin m ρ) := by
  apply pointsTo_congr
  intro i hi
  have hd : (⟨((i : S256x256.Idx) 0).val / 8, row_dev i⟩ : Dev nD) = c := Fin.ext ((mem_oSl c i).mp hi)
  have hi' : i ∈ (oM.access (Rect.unit (s := S256x256) (k0_off3 c) S8x256.size (k0_off3_inb c))).set := by
    rw [Rect.unit_congr ((k0_off3_eq c).trans (k0_off4_eq c).symm) (k0_off3_inb c) (k0_off4_inb c)]
    exact hi
  obtain ⟨y, -, rfl⟩ := Finset.mem_map.mp hi'
  rw [View.write_emb_of_mem _ _ (Finset.mem_univ y)]
  exact (Ofin_tile m ρ _ c hd _ y).symm

/-- The load of the whole landing buffer reads its contents. -/
theorem read_p (f : (cc0_scratch0 : Ref sig .tc).ty.Contents (Elt F)) :
    pM.view.readAt (Elt F) (Rect.unit (s := S31x8x256) ![0, 0, 0] S31x8x256.size inb_S31x8x256_S31x8x256_0_0_0).toLoadRect f = f :=
  Memref.readAt_unit_zero (Elt F) cc0_scratch0 (by funext a; fin_cases a <;> rfl) inb_S31x8x256_S31x8x256_0_0_0 f

/-- info: 'Cert.KernelIdeal.TR.read_p' depends on axioms: [propext, Classical.choice, Quot.sound] -/
#guard_msgs in #print axioms read_p

end Cert.KernelIdeal.TR

end
-- ==== Proof.Attr.lean ====
/-
  A simp set for the closed forms of the printed device chains.
-/
import Mathlib.Tactic.Attr.Register

/-- The printed device chains in closed form (`⟨k0_devN c, _⟩ = fwd c o`). -/
register_simp_attr tr_dev
-- ==== Proof.Steps.lean ====
/-
  One rule per kind of remote statement of the body, at a symbolic device and offset.

  Signal `k` (to the device `k+1` places on) pays duty `30-k` of that device's barrier cell with the two
  places of the signaller that device's transfers will write. The barrier wait takes the 31 payloads.
  Transfer `k` of phase one lends tile `fwd c (k+1)` of `x` and writes slot `k` on the device `k+1` places on;
  transfer `k` of phase two lends a share of the summed tile and writes tile `c` there. Each wait on a
  DMA cell is for the rest of its one-duty round.
-/
import proofs.«901102_g7700000000001103_dist_treered_v7x_i32_m256_n256_f32_1_alg».proof.Proof.Body
import proofs.«901102_g7700000000001103_dist_treered_v7x_i32_m256_n256_f32_1_alg».proof.Proof.Tables
import proofs.«901102_g7700000000001103_dist_treered_v7x_i32_m256_n256_f32_1_alg».proof.Proof.Tiles
import proofs.«901102_g7700000000001103_dist_treered_v7x_i32_m256_n256_f32_1_alg».proof.Proof.Attr

noncomputable section

namespace Cert.KernelIdeal.TR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Lean in
/-- `forK k in [a:b] do tacs`: the tactic block once per numeral `k = a, …, b-1`, in order. -/
macro "forK " x:ident " in " "[" a:num ":" b:num "]" " do " t:tacticSeq : tactic => do
  let mut acc : Array (TSyntax `tactic) := #[]
  for i in [a.getNat : b.getNat] do
    let lit := Syntax.mkNumLit (toString i)
    let t' ← t.raw.replaceM fun s => pure (if s.isIdent && s.getId == x.getId then some lit.raw else none)
    acc := acc.push (← `(tactic| ($(⟨t'⟩))))
  `(tactic| ($[$acc]*))

open Lean Elab Command in
/-- The printed device chains in closed form: chain `n` (1..93) names the device `((n-1) % 31) + 1` places after `c`. -/
elab "gen_dev_eqs" : command => do
  for n in [1:94] do
    let o := (n - 1) % 31 + 1
    let nm := mkIdent (Name.mkSimple s!"dev{n}_eq")
    let kd := mkIdent (Name.mkSimple s!"k0_dev{n}")
    let kdlt := mkIdent (Name.mkSimple s!"k0_dev{n}_lt")
    let kdeq := mkIdent (Name.mkSimple s!"k0_dev{n}_eq")
    let olit := Syntax.mkNumLit (toString o)
    elabCommand (← `(theorem $nm (c : Dev nD) : (⟨$kd c, $kdlt c⟩ : Dev nD) = fwd c $olit := Fin.ext ($kdeq c)))
    elabCommand (← `(attribute [tr_dev] $nm))

gen_dev_eqs

/-! ## Out of the records -/

theorem inv_at (K : Cl → ℕ) (x : Cl) :
    (bigSep Finset.univ fun x : Cl => (cellInv ER (rd m ρ) (K x) (kcell x) : sProp 𝕄)) ⊢ cellInv ER (rd m ρ) (K x) (kcell x) :=
  bigSep_elim (Finset.mem_univ x)
theorem reached_at (x : Cl) :
    (bigSep Finset.univ fun x : Cl => (reached ER (kcell x) 0 : sProp 𝕄)) ⊢ reached ER (kcell x) 0 :=
  bigSep_elim (Finset.mem_univ x)

/-! ## The signals -/

/-- Signal `k` pays duty `30 - k`. -/
abbrev rv (k : Fin 31) : Fin 31 := ⟨30 - k.val, by omega⟩

/-- What signal `k` takes from the signaller: the duty's token and the two places the receiver's transfers will write. -/
def sigRes (c : Dev nD) (k : Fin 31) : sProp 𝕄 :=
  iprop(dutyTok ER (barCell (fwd c (k.val + 1))) 0 (rv k)
    ∗ (∃ f, pts c (pSl (rv k).val (rv k).isLt) fullShare f) ∗ (∃ f, oPts c (fwd c (k.val + 1)) fullShare f))

/-- The payload of the duty `c` pays on the barrier cell of the device `k+1` places on, spelt at `c`. -/
theorem barPay_at (c : Dev nD) (k : Fin 31) :
    (barPay (F := F) (fwd c (k.val + 1)) (rv k))
      = iprop((∃ f, pts c (pSl (rv k).val (rv k).isLt) fullShare f) ∗ (∃ f, oPts c (fwd c (k.val + 1)) fullShare f)
          ∗ reached ER (dCell c 1 (rv k)) 0 ∗ reached ER (dCell c 3 (rv k)) 0) := by
  have h : fwd (fwd c (k.val + 1)) ((rv k).val + 1) = c := fwd_fwd c k
  unfold barPay
  revert h
  generalize fwd (fwd c (k.val + 1)) ((rv k).val + 1) = d
  rintro rfl
  rfl

theorem step_sig (K : Cl → ℕ) (c : Dev nD) (k : Fin 31) (dst : Dev nD) (hdst : dst = fwd c (k.val + 1)) {k' : ℕ} (hk' : k' = 1)
    {W : Waits sig Unit} {α : Type} {Q : α → sProp 𝕄} {kont : PUnit → Prog (TpuEff nD τ sig (Elt F) Λ₀ .tc) α} :
    iprop(records m ρ K ∗ sigRes c k ∗ owes (c : Thread nD τ) (owedFrom c k.val) W)
      ⊢ iprop((owes (c : Thread nD τ) (owedFrom c (k.val + 1)) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (dst : Thread nD τ) barS k') kont) Q) := by
  subst hdst; subst hk'
  unfold records sigRes
  iintro ⟨⟨#HI, #HR⟩, ⟨Htok, Hp, Ho⟩, HO⟩
  iapply (Rounds.wp_signal 𝒱₀ ER (rd m ρ) (c : Thread nD τ) none (dst := (fwd c (k.val + 1) : Thread nD τ)) (κ := K (fwd c (k.val + 1), none))
      (d := (rv k)) (by rw [duties_bar]; exact Finset.mem_univ _) (amount_bar m ρ _ _) () (owedFrom c (k.val + 1))
      ((owedFrom_succ c k.val (by omega)).trans (by rw [tally_sig]))) $$ [HO Htok Hp Ho]
  · isplitr; · iapply (inv_at m ρ K (fwd c (k.val + 1), none)); iexact HI
    isplitl [HO]; · iexact HO
    isplitl [Htok]; · iexact Htok
    isplitl [Hp Ho]
    · rw [payload_bar, barPay_at]
      isplitl [Hp]; · iexact Hp
      isplitl [Ho]; · iexact Ho
      isplitr; · iapply (reached_at (F := F) (c, some (1, (rv k)))); iexact HR
      iapply (reached_at (F := F) (c, some (3, (rv k)))); iexact HR
    · iapply (reached_at (F := F) (fwd c (k.val + 1), none)); iexact HR

/-! ## The waits -/

/-- The barrier wait, for the whole of its round: the 31 payloads come with it. -/
theorem step_barwait (K : Cl → ℕ) (c : Dev nD) {k' : ℕ} (hk' : k' = 31)
    {W : Waits sig Unit} {α : Type} {Q : α → sProp 𝕄} {kont : PUnit → Prog (TpuEff nD τ sig (Elt F) Λ₀ .tc) α} :
    iprop(records m ρ K ∗ cred (tallyAt (barCell c) () 31) ∗ owes (c : Thread nD τ) (owedFrom c 31) W ∗ levAts L lv ∗ atPos ER (barCell c) 0 ∅ 0)
      ⊢ iprop(((owes (c : Thread nD τ) (owedFrom c 31) (insert (SemLoc.reg barS, ()) W) ∗ atPos ER (barCell c) 1 ∅ 0
              ∗ bigSep Finset.univ (fun j : Fin 31 => barPay (F := F) c j))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS k') kont) Q) := by
  subst hk'
  unfold records
  iintro ⟨⟨#HI, #HR⟩, Hc, HO, #Hlev, Hat⟩ Hk
  iapply (Rounds.wp_wait_rest_token 𝒱₀ ER (rd m ρ) (c : Thread nD τ) none (κ := K (c, none))
      (wpE_semWait_eq 𝒱₀ (c : Thread nD τ) none Set.univ) (Set.mem_univ _) () (O := owedFrom c 31) (W := W) (R := 0) (m := 0) (T := ∅)
      (by rw [expect_bar])) $$ [Hc HO Hat]
  · isplitr; · iapply (inv_at m ρ K (c, none)); iexact HI
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m ρ c)); iexact Hpay

/-- A wait on a DMA cell of the device's own, for the rest of its one-duty round: the duty's payload comes with it. -/
theorem step_dmawait (K : Cl → ℕ) (c : Dev nD) (a : Fin 4) (k : Fin 31) (O : CellTallies nD τ sig Unit)
    (hmw : (levAts L lv : sProp 𝕄) ⊢ MayWait (c : Thread nD τ) (.dma (dsem a k)) () O)
    {sem : DmaSem sig} (hsem : sem = dsem a k)
    {sp sp' : Space} {s s' : Shape} {e e' : EltTy} {src : Memref sig .tc sp' s' e'} {dst : Memref sig .tc sp s e}
    {hsrc : src.view.WordExact} {hdst : dst.view.WordExact} (hN : dst.view.dmaCredit = N)
    {W : Waits sig Unit} {α : Type} {Q : α → sProp 𝕄} {kont : PUnit → Prog (TpuEff nD τ sig (Elt F) Λ₀ .tc) α} :
    iprop(records m ρ K ∗ cred (tallyAt (dCell c a k) () N) ∗ owes (c : Thread nD τ) O W ∗ levAts L lv ∗ atPos ER (dCell c a k) 0 ∅ 0)
      ⊢ iprop(((owes (c : Thread nD τ) O (insert (SemLoc.dma (dsem a k), ()) W) ∗ atPos ER (dCell c a k) 1 ∅ 0 ∗ dmaPay m ρ c a k)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem src dst hsrc hdst) kont) Q) := by
  subst hsem
  unfold records
  iintro ⟨⟨#HI, #HR⟩, Hc, HO, #Hlev, Hat⟩ Hk
  iapply (Rounds.wp_wait_rest_token 𝒱₀ ER (rd m ρ) (c : Thread nD τ) none (κ := K (c, some (a, k)))
      (wpE_waitDma2_eq 𝒱₀ (c : Thread nD τ) none Set.univ) (Set.mem_univ _) () (O := O) (W := W) (R := 0) (m := 0) (T := ∅)
      (by rw [Nat.zero_add, expect_dma, hN])) $$ [Hc HO Hat]
  · isplitr; · iapply (inv_at m ρ K (c, some (a, k))); iexact HI
    isplitl [Hc]; · rw [hN]; iexact Hc
    isplitl [HO]; · iexact HO
    isplitr; · iapply hmw; iexact Hlev
    iexact Hat
  iintro ⟨HO, Hat, -, Hpay⟩
  iapply Hk
  isplitl [HO]; · iexact HO
  isplitl [Hat]; · iexact Hat
  iapply (Entails.of_eq (rest_dma m ρ c a k)); iexact Hpay

/-! ## The transfers -/

/-- Transfer `k` of phase one. -/
theorem step_send1 (K : Cl → ℕ) (c : Dev nD) (k : Fin 31) (dst : Dev nD) (hdst : dst = fwd c (k.val + 1))
    {hsc : (pSl k.val k.isLt : Memref sig (Dev.tc dst : Thread nD τ).2.kind .vmem S8x256 .f32).view.ref.isScScratch = false}
    {hsrc : (xSl c k).view.WordExact} {hdstE : (pSl k.val k.isLt).view.WordExact}
    {hsem : DmaTarget.Typed .vmem (.dma (dsem 1 k)) (.remote (Dev.tc dst : Thread nD τ) (pSl k.val k.isLt) (.dma (dsem 0 k)) hsc)}
    (fd : Buf (Elt F) ((pSl k.val k.isLt).view.loc ((fwd c (k.val + 1)) : Thread nD τ)))
    {W : Waits sig Unit} {α : Type} {Q : α → sProp 𝕄} {kont : PUnit → Prog (TpuEff nD τ sig (Elt F) Λ₀ .tc) α} :
    iprop(records m ρ K ∗ pts c (xSl c k) fullShare (X m ρ c) ∗ pts (fwd c (k.val + 1)) (pSl k.val k.isLt) fullShare fd
        ∗ owes (c : Thread nD τ) (owedFrom c (31 + k.val)) W
        ∗ dutyTok ER (dCell c 0 k) 0 (0 : Fin 31) ∗ dutyTok ER (dCell (fwd c (k.val + 1)) 1 k) 0 (0 : Fin 31))
      ⊢ iprop(((cred (tallyAt (dCell c 0 k) () N) ∗ owes (c : Thread nD τ) (owedFrom c (31 + k.val + 1)) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xSl c k) (.remote (Dev.tc dst : Thread nD τ) (pSl k.val k.isLt) (.dma (dsem 0 k)) hsc) (.dma (dsem 1 k)) hsrc hdstE hsem) kont) Q) := by
  subst hdst
  unfold records
  iintro ⟨⟨#HI, #HR⟩, Hsrc, Hdst, HO, Ht0, Ht1⟩
  iapply (Rounds.wp_send_pointsTo 𝒱₀ ER (rd m ρ) (c : Thread nD τ) none (κ₁ := K (c, some (0, k))) (κ₂ := K (fwd c (k.val + 1), some (1, k)))
      (r₁ := 0) (r₂ := 0) (d₁ := (0 : Fin 31)) (d₂ := (0 : Fin 31)) (fd := fd) (src := xSl c k) (dst := pSl k.val k.isLt) (q := fullShare) (fs := X m ρ c)
      (c' := (fwd c (k.val + 1) : Thread nD τ))
      (by rw [duties_dma]; exact Finset.mem_singleton_self _) (by rw [duties_dma]; exact Finset.mem_singleton_self _)
      () () N rfl (amount_dma m ρ c 0 k 0) (amount_dma m ρ (fwd c (k.val + 1)) 1 k 0) (owedFrom c (31 + k.val + 1))
      ((owedFrom_succ c (31 + k.val) (by omega)).trans (by rw [tally_p1])) (W := W)
      (by rw [payload_dma]; exact BI.Entails.refl _)
      (by rw [payload_dma]; exact Entails.of_eq (land1 m ρ c k fd))) $$ [Hsrc Hdst HO Ht0 Ht1]
  isplitr; · iapply (inv_at m ρ K (c, some (0, k))); iexact HI
  isplitr; · iapply (inv_at m ρ K (fwd c (k.val + 1), some (1, k))); iexact HI
  isplitl [Hsrc]; · iexact Hsrc
  isplitl [Hdst]; · iexact Hdst
  isplitl [HO]; · iexact HO
  isplitl [Ht0]; · iexact Ht0
  isplitr; · iapply (reached_at (F := F) (c, some (0, k))); iexact HR
  isplitl [Ht1]; · iexact Ht1
  iapply (reached_at (F := F) (fwd c (k.val + 1), some (1, k))); iexact HR

/-- The payload of the phase-two arrival `c` pays on the device `k+1` places on, spelt at `c`: tile `c` there. -/
theorem dmaPay3_at (c : Dev nD) (k : Fin 31) :
    dmaPay m ρ (fwd c (k.val + 1)) 3 k = pts (fwd c (k.val + 1)) (oSl c) fullShare (Ofin m ρ) := by
  have hb : bwd (fwd c (k.val + 1)) (k.val + 1) = c := bwd_fwd c k
  show pts (fwd c (k.val + 1)) (oSl (bwd (fwd c (k.val + 1)) (k.val + 1))) fullShare (Ofin m ρ) = _
  revert hb
  generalize bwd (fwd c (k.val + 1)) (k.val + 1) = d
  rintro rfl
  rfl

/-- Transfer `k` of phase two: it reads the summed tile at the `k`-th left half of its share. -/
theorem step_send2 (K : Cl → ℕ) (c : Dev nD) (k : Fin 31) (dst : Dev nD) (hdst : dst = fwd c (k.val + 1))
    {hsc : (oSl c : Memref sig (Dev.tc dst : Thread nD τ).2.kind .vmem S8x256 .f32).view.ref.isScScratch = false}
    {hsrc : (oSl c).view.WordExact} {hdstE : (oSl c).view.WordExact}
    {hsem : DmaTarget.Typed .vmem (.dma (dsem 3 k)) (.remote (Dev.tc dst : Thread nD τ) (oSl c) (.dma (dsem 2 k)) hsc)}
    (fd : Buf (Elt F) ((oSl c).view.loc ((fwd c (k.val + 1)) : Thread nD τ)))
    {W : Waits sig Unit} {α : Type} {Q : α → sProp 𝕄} {kont : PUnit → Prog (TpuEff nD τ sig (Elt F) Λ₀ .tc) α} :
    iprop(records m ρ K ∗ pts c (oSl c) (rsh k.val).left (Ofin m ρ) ∗ pts (fwd c (k.val + 1)) (oSl c) fullShare fd
        ∗ owes (c : Thread nD τ) (owedFrom c (62 + k.val)) W
        ∗ dutyTok ER (dCell c 2 k) 0 (0 : Fin 31) ∗ dutyTok ER (dCell (fwd c (k.val + 1)) 3 k) 0 (0 : Fin 31))
      ⊢ iprop(((cred (tallyAt (dCell c 2 k) () N) ∗ owes (c : Thread nD τ) (owedFrom c (62 + k.val + 1)) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (oSl c) (.remote (Dev.tc dst : Thread nD τ) (oSl c) (.dma (dsem 2 k)) hsc) (.dma (dsem 3 k)) hsrc hdstE hsem) kont) Q) := by
  subst hdst
  unfold records
  iintro ⟨⟨#HI, #HR⟩, Hsrc, Hdst, HO, Ht0, Ht1⟩
  iapply (Rounds.wp_send_pointsTo 𝒱₀ ER (rd m ρ) (c : Thread nD τ) none (κ₁ := K (c, some (2, k))) (κ₂ := K (fwd c (k.val + 1), some (3, k)))
      (r₁ := 0) (r₂ := 0) (d₁ := (0 : Fin 31)) (d₂ := (0 : Fin 31)) (fd := fd) (src := oSl c) (dst := oSl c) (q := (rsh k.val).left) (fs := Ofin m ρ)
      (c' := (fwd c (k.val + 1) : Thread nD τ))
      (by rw [duties_dma]; exact Finset.mem_singleton_self _) (by rw [duties_dma]; exact Finset.mem_singleton_self _)
      () () N rfl (amount_dma m ρ c 2 k 0) (amount_dma m ρ (fwd c (k.val + 1)) 3 k 0) (owedFrom c (62 + k.val + 1))
      ((owedFrom_succ c (62 + k.val) (by omega)).trans (by rw [tally_p2])) (W := W)
      (by rw [payload_dma]; exact BI.Entails.refl _)
      (by rw [payload_dma, dmaPay3_at]; exact Entails.of_eq (land2 m ρ c (fwd c (k.val + 1)) fd))) $$ [Hsrc Hdst HO Ht0 Ht1]
  isplitr; · iapply (inv_at m ρ K (c, some (2, k))); iexact HI
  isplitr; · iapply (inv_at m ρ K (fwd c (k.val + 1), some (3, k))); iexact HI
  isplitl [Hsrc]; · iexact Hsrc
  isplitl [Hdst]; · iexact Hdst
  isplitl [HO]; · iexact HO
  isplitl [Ht0]; · iexact Ht0
  isplitr; · iapply (reached_at (F := F) (c, some (2, k))); iexact HR
  isplitl [Ht1]; · iexact Ht1
  iapply (reached_at (F := F) (fwd c (k.val + 1), some (3, k))); iexact HR

end Cert.KernelIdeal.TR

end
-- ==== Proof.Rejoin.lean ====
/-
  The end of a device's body: each own DMA cell closed at zero, the 31 shares of the summed tile joined, and the
  result buffer whole again from its own tile and the 31 tiles received.
-/
import proofs.«901102_g7700000000001103_dist_treered_v7x_i32_m256_n256_f32_1_alg».proof.Proof.Body
import proofs.«901102_g7700000000001103_dist_treered_v7x_i32_m256_n256_f32_1_alg».proof.Proof.Tables
import proofs.«901102_g7700000000001103_dist_treered_v7x_i32_m256_n256_f32_1_alg».proof.Proof.Tiles

noncomputable section

namespace Cert.KernelIdeal.TR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A DMA cell of the device's own, its one round consumed, closes: its counter is back at zero. -/
theorem close_dma (K : Cl → ℕ) (c : Dev nD) (a : Fin 4) (k : Fin 31) :
    iprop(records m ρ K ∗ atPos ER (dCell c a k) 1 ∅ 0) ⊢ (iprop(|={Set.univ}=> semVal (dCell c a k) 0) : sProp 𝕄) := by
  have hinv : (records m ρ K : sProp 𝕄) ⊢ cellInv ER (rd m ρ) (K (c, some (a, k))) (dCell c a k) := by
    have h1 : (bigSep Finset.univ (fun x : Cl => cellInv ER (rd m ρ) (K x) (kcell x)) : sProp 𝕄)
        ⊢ cellInv ER (rd m ρ) (K (c, some (a, k))) (dCell c a k) :=
      bigSep_elim (Finset.mem_univ ((c, some (a, k)) : Cl))
    unfold records
    iintro ⟨H, -⟩
    iapply h1
    iexact H
  iintro ⟨Hrec, Hat⟩
  iapply (Rounds.cell_close ER (rd m ρ) (Set.mem_univ (K (c, some (a, k)))) (fun h => h) (R := 1) (duties_later m ρ (dCell c a k)))
  isplitl [Hrec]
  · iapply hinv; iexact Hrec
  · iexact Hat

/-- The positions below `n`, as the values of `Fin n`. -/
private theorem univ_map_val (n : ℕ) : (Finset.univ : Finset (Fin n)).map Fin.valEmbedding = Finset.range n := by
  ext i
  rw [Finset.mem_map, Finset.mem_range]
  constructor
  · rintro ⟨j, -, rfl⟩; exact j.isLt
  · intro h; exact ⟨⟨i, h⟩, Finset.mem_univ _, rfl⟩

/-- What is left after `n` left halves, with those `n` halves, is the full share: each step gives the last half back. -/
private theorem shares_join_range (c : Dev nD) (v : Memref sig .tc .vmem S8x256 .f32) (f : Buf (Elt F) (v.view.loc (c : Thread nD τ))) (n : ℕ) :
    iprop(pts c v (rsh n) f ∗ bigSep (Finset.range n) fun k : ℕ => pts c v (rsh k).left f) ⊢ (pts c v fullShare f : sProp 𝕄) := by
  induction n with
  | zero =>
    iintro ⟨H, -⟩
    iexact H
  | succ n ih =>
    have hs : (bigSep (Finset.range (n + 1)) (fun k : ℕ => pts c v (rsh k).left f) : sProp 𝕄)
        = iprop(pts c v (rsh n).left f ∗ bigSep (Finset.range n) (fun k : ℕ => pts c v (rsh k).left f)) := by
      rw [Finset.range_add_one]
      exact bigSep_insert Finset.notMem_range_self
    rw [hs]
    iintro ⟨Hr, Hl, Hrest⟩
    iapply ih
    isplitl [Hr Hl]
    · iapply (rsh_split c v n f).2
      isplitl [Hl] <;> iassumption
    · iexact Hrest

/-- What is left of the share after 31 left halves, with those 31 halves, is the full share. -/
theorem shares_join (c : Dev nD) (v : Memref sig .tc .vmem S8x256 .f32) (f : Buf (Elt F) (v.view.loc (c : Thread nD τ))) :
    iprop(pts c v (rsh 31) f ∗ bigSep Finset.univ fun k : Fin 31 => pts c v (rsh k.val).left f) ⊢ (pts c v fullShare f : sProp 𝕄) := by
  have e : (bigSep Finset.univ (fun k : Fin 31 => pts c v (rsh k.val).left f) : sProp 𝕄)
      = bigSep (Finset.range 31) (fun k : ℕ => pts c v (rsh k).left f) := by
    rw [← univ_map_val 31, bigSep_map]
    rfl
  rw [e]
  exact shares_join_range c v f 31

/-- The result buffer from its own tile and the tiles of the devices 1..31 places BEFORE `c`, all at the final contents. -/
theorem oJoin (c : Dev nD) :
    iprop(pts c (oSl c) fullShare (Ofin m ρ) ∗ bigSep Finset.univ fun k : Fin 31 => pts c (oSl (bwd c (k.val + 1))) fullShare (Ofin m ρ))
      ⊢ ((((c : Thread nD τ).loc cc0_stg1_0) ↦{fullShare} Ofin m ρ) : sProp 𝕄) := by
  have e : (bigSep Finset.univ (fun k : Fin 31 => pts c (oSl (bwd c (k.val + 1))) fullShare (Ofin m ρ)) : sProp 𝕄)
      = bigSep Finset.univ (fun k : Fin 31 => oPts c (fwd c (k.val + 1)) fullShare (Ofin m ρ)) := by
    refine Eq.trans ?_ (bigSep_univ_equiv Fin.revPerm (fun k : Fin 31 => oPts c (fwd c (k.val + 1)) fullShare (Ofin m ρ))).symm
    refine bigSep_congr fun k _ => ?_
    show pts c (oSl (bwd c (k.val + 1))) fullShare (Ofin m ρ) = pts c (oSl (fwd c ((Fin.rev k).val + 1))) fullShare (Ofin m ρ)
    have hk := k.isLt
    have h30 : 31 - (k.val + 1) = 30 - k.val := by omega
    rw [bwd_eq_fwd, Fin.val_rev, h30]
  rw [e]
  exact (oSplit c (Ofin m ρ)).2

/-- info: 'Cert.KernelIdeal.TR.oJoin' depends on axioms: [propext, Classical.choice, Quot.sound] -/
#guard_msgs in #print axioms oJoin

end Cert.KernelIdeal.TR

end
-- ==== Proof.BodyProof.lean ====
/-
  The body of one device, stepped statement by statement from its own invariant.

  The order is the program's: 31 signals; the barrier wait, which brings the 31 pairs of places on the other
  devices; 31 transfers of tiles of `x`; 31 waits for the tiles of the others, after which the landing buffer
  is whole at its final contents; the sum and its store into the own tile of the result; 31 transfers of that
  tile, each reading it at a left half of what is left of its share; 31 waits for the others' tiles; the 62
  waits that bring the lent tiles and shares back. Then every own cell is closed and the three buffers are
  whole again.
-/
import proofs.«901102_g7700000000001103_dist_treered_v7x_i32_m256_n256_f32_1_alg».proof.Proof.Steps
import proofs.«901102_g7700000000001103_dist_treered_v7x_i32_m256_n256_f32_1_alg».proof.Proof.Rejoin

noncomputable section

namespace Cert.KernelIdeal.TR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Products over the 31 offsets as chains, in the order the body consumes them -/

omit [FloatOps F] in
theorem chain31 (Φ : Fin 31 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ emp) := by
  rw [bigSep_univ_eq_bigSepL ([0, 1, 2, 3, 4, 5, 6, 7, 8, 9, 10, 11, 12, 13, 14, 15, 16, 17, 18, 19, 20, 21, 22, 23, 24, 25, 26, 27, 28, 29, 30] : List (Fin 31)) (by decide) (by decide)]
  simp only [bigSepL_cons]
  rfl

omit [FloatOps F] in
/-- The same, last offset first. -/
theorem chain31r (Φ : Fin 31 → sProp 𝕄) :
    bigSep Finset.univ Φ = iprop(Φ 30 ∗ Φ 29 ∗ Φ 28 ∗ Φ 27 ∗ Φ 26 ∗ Φ 25 ∗ Φ 24 ∗ Φ 23 ∗ Φ 22 ∗ Φ 21 ∗ Φ 20 ∗ Φ 19 ∗ Φ 18 ∗ Φ 17 ∗ Φ 16 ∗ Φ 15 ∗ Φ 14 ∗ Φ 13 ∗ Φ 12 ∗ Φ 11 ∗ Φ 10 ∗ Φ 9 ∗ Φ 8 ∗ Φ 7 ∗ Φ 6 ∗ Φ 5 ∗ Φ 4 ∗ Φ 3 ∗ Φ 2 ∗ Φ 1 ∗ Φ 0 ∗ emp) := by
  rw [bigSep_univ_eq_bigSepL ([30, 29, 28, 27, 26, 25, 24, 23, 22, 21, 20, 19, 18, 17, 16, 15, 14, 13, 12, 11, 10, 9, 8, 7, 6, 5, 4, 3, 2, 1, 0] : List (Fin 31)) (by decide) (by decide)]
  simp only [bigSepL_cons]
  rfl

/-- A returned value bound into a continuation is the continuation at it. -/
theorem prog_ret_bind {E : Type → Type} {α β : Type} (a : α) (k : α → Prog E β) : (Prog.ret a).bind k = k a := rfl

omit [FloatOps F] in
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The 31 payloads of the barrier round, sorted: the slots, the tiles, the two families of facts. -/
theorem barPays_split (c : Dev nD) :
    (bigSep Finset.univ (fun j : Fin 31 => barPay (F := F) c j))
      = iprop((bigSep Finset.univ fun j : Fin 31 => iprop(∃ f, pts (fwd c (j.val + 1)) (pSl j.val j.isLt) fullShare f))
          ∗ (bigSep Finset.univ fun j : Fin 31 => iprop(∃ f, pts (fwd c (j.val + 1)) (oSl c) fullShare f))
          ∗ (bigSep Finset.univ fun j : Fin 31 => reached ER (dCell (fwd c (j.val + 1)) 1 j) 0)
          ∗ (bigSep Finset.univ fun j : Fin 31 => reached ER (dCell (fwd c (j.val + 1)) 3 j) 0)) := by
  unfold barPay
  rw [bigSep_sep', bigSep_sep', bigSep_sep']

/-! ## The four kinds of DMA payloads, unfolded -/

theorem dmaPay0_eq (c : Dev nD) :
    (bigSep Finset.univ fun k : Fin 31 => dmaPay m ρ c 0 k) = bigSep Finset.univ fun k : Fin 31 => pts c (xSl c k) fullShare (X m ρ c) :=
  bigSep_congr fun _ _ => rfl
theorem dmaPay1_eq (c : Dev nD) :
    (bigSep Finset.univ fun k : Fin 31 => dmaPay m ρ c 1 k) = bigSep Finset.univ fun k : Fin 31 => pts c (pSl k.val k.isLt) fullShare (P1fin m ρ c) :=
  bigSep_congr fun _ _ => rfl
theorem dmaPay2_eq (c : Dev nD) :
    (bigSep Finset.univ fun k : Fin 31 => dmaPay m ρ c 2 k) = bigSep Finset.univ fun k : Fin 31 => pts c (oSl c) (rsh k.val).left (Ofin m ρ) :=
  bigSep_congr fun _ _ => rfl
theorem dmaPay3_eq (c : Dev nD) :
    (bigSep Finset.univ fun k : Fin 31 => dmaPay m ρ c 3 k) = bigSep Finset.univ fun k : Fin 31 => pts c (oSl (bwd c (k.val + 1))) fullShare (Ofin m ρ) :=
  bigSep_congr fun _ _ => rfl

omit [FloatOps F] in
/-- Once nothing is owed any wait is allowed. -/
theorem mayWait_end (c : Dev nD) (sm : SemLoc sig) :
    (levAts L lv : sProp 𝕄) ⊢ MayWait (c : Thread nD τ) sm () (owedFrom c 93) := by
  rw [owedFrom_end, MayWait_zero]; iintro -; iempintro

set_option maxHeartbeats 4000000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m ρ c)
  unfold bodyPre Φ₀ start
  iintro ⟨⟨⟨⟨%K, Hg⟩, HcB, Hc1, Hc3, #Hlev⟩, ⟨%f0, Hp⟩⟩, Ho, ⟨%d0, %g0, %hg0, Hx⟩, ⟨%d1, %g1, %hg1, Hout⟩⟩
  have hx : g0 = X m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = owedFrom c 0 from rfl]
  unfold ghost positions payToks
  icases Hg with ⟨#Hrec, ⟨HaB, Hpos⟩, Htb, Ht1, Ht2⟩
  -- the three buffers cut into the pieces that travel
  ihave Hp := (pSplit c f0).1 $$ Hp
  ihave Hout := (oSplit c g1).1 $$ Hout
  icases Hout with ⟨Hoown, Hot⟩
  ihave Hx := (xSplit c (X m ρ c)).1 $$ Hx
  icases Hx with ⟨Hxown, Hxt⟩
  ihave Htb := (Entails.of_eq (chain31 _)) $$ Htb
  ihave Hps := (Entails.of_eq (chain31r _)) $$ Hp
  ihave Hot := (Entails.of_eq (chain31 _)) $$ Hot
  ihave Hxt := (Entails.of_eq (chain31 _)) $$ Hxt
  ihave Ht1 := (Entails.of_eq (chain31 _)) $$ Ht1
  ihave Ht2 := (Entails.of_eq (chain31 _)) $$ Ht2
  ihave Hc1 := (Entails.of_eq (chain31 _)) $$ Hc1
  ihave Hc3 := (Entails.of_eq (chain31 _)) $$ Hc3
  ihave Hpos := (Entails.of_eq (fin4 _)) $$ Hpos
  icases Hpos with ⟨Hp0, Hp1, Hp2, Hp3⟩
  ihave Hp0 := (Entails.of_eq (chain31 _)) $$ Hp0
  ihave Hp1 := (Entails.of_eq (chain31 _)) $$ Hp1
  ihave Hp2 := (Entails.of_eq (chain31 _)) $$ Hp2
  ihave Hp3 := (Entails.of_eq (chain31 _)) $$ Hp3
  sl_unfold [cc0_body]
  -- the 31 signals
  forK j in [0:31] do
    sl_exec_parts
    icases Htb with ⟨Ht, Htb⟩
    icases Hps with ⟨Hs, Hps⟩
    icases Hot with ⟨Hto, Hot⟩
    iapply (step_sig m ρ K c (j : Fin 31) _ (by simp only [tr_dev] <;> rfl) (by decide)) $$ [Ht Hs Hto HO]
    · isplitr; · iexact Hrec
      isplitl [Ht Hs Hto]
      · unfold sigRes
        isplitl [Ht]; · iexact Ht
        isplitl [Hs]; · iexists _; iexact Hs
        iexists _; iexact Hto
      iexact HO
    iintro HO
  -- the barrier wait
  sl_exec_parts
  iapply (step_barwait m ρ K c (by decide)) $$ [HcB HO HaB]
  · isplitr; · iexact Hrec
    isplitl [HcB]; · iexact HcB
    isplitl [HO]; · iexact HO
    isplitr; · iexact Hlev
    iexact HaB
  iintro ⟨HO, HaB, Hbp⟩
  ihave Hbp := (Entails.of_eq (barPays_split c)) $$ Hbp
  icases Hbp with ⟨Hdp, Hdo, -, -⟩
  ihave Hdp := (Entails.of_eq (chain31 _)) $$ Hdp
  ihave Hdo := (Entails.of_eq (chain31 _)) $$ Hdo
  -- phase one: the 31 transfers of tiles of x
  ihave Hcs0 : (emp : sProp 𝕄) $$ []; · iempintro
  forK j in [0:31] do
    sl_exec_parts
    icases Hdp with ⟨Hd, Hdp⟩
    icases Hd with ⟨%fd, Hd⟩
    icases Hxt with ⟨Hs, Hxt⟩
    icases Ht1 with ⟨Ht, Ht1⟩
    icases Ht with ⟨Hta, Htc⟩
    iapply (step_send1 m ρ K c (j : Fin 31) _ (by simp only [tr_dev] <;> rfl) fd) $$ [Hs Hd HO Hta Htc]
    · isplitr; · iexact Hrec
      isplitl [Hs]; · iexact Hs
      isplitl [Hd]; · iexact Hd
      isplitl [HO]; · iexact HO
      isplitl [Hta]; · iexact Hta
      iexact Htc
    iintro ⟨Hcr, HO⟩
    ihave Hcs0 : iprop(_ ∗ _) $$ [Hcr Hcs0]
    · isplitl [Hcr]; · iexact Hcr
      iexact Hcs0
  -- the 31 waits for the others' tiles: each cell's round consumed, the cell closed, the slot landed
  ihave Hsl : (emp : sProp 𝕄) $$ []; · iempintro
  ihave Hz1 : (emp : sProp 𝕄) $$ []; · iempintro
  forK j in [0:31] do
    sl_exec_parts
    icases Hc1 with ⟨Hc, Hc1⟩
    icases Hp1 with ⟨Ha, Hp1⟩
    iapply (step_dmawait m ρ K c 1 (j : Fin 31) (owedFrom c 62) (mayWait_p1 c _) (by rfl) (by rfl)) $$ [Hc HO Ha]
    · isplitr; · iexact Hrec
      isplitl [Hc]; · iexact Hc
      isplitl [HO]; · iexact HO
      isplitr; · iexact Hlev
      iexact Ha
    iintro ⟨HO, Ha, Hpay⟩
    imod (close_dma m ρ K c 1 (j : Fin 31)) $$ [Ha] with Hz
    · isplitr; · iexact Hrec
      iexact Ha
    ihave Hsl : iprop(_ ∗ _) $$ [Hpay Hsl]
    · isplitl [Hpay]; · iexact Hpay
      iexact Hsl
    ihave Hz1 : iprop(_ ∗ _) $$ [Hz Hz1]
    · isplitl [Hz]; · iexact Hz
      iexact Hz1
  -- the sum: own tile of x, the landing buffer, and the store into the own tile of the result
  -- (the two own tiles are kept together between the local statements, opened at each)
  ihave Hloc : iprop(_ ∗ _) $$ [Hxown Hoown]
  · isplitl [Hxown]; · iexact Hxown
    iexact Hoown
  try sl_exec_parts
  icases Hloc with ⟨Hxown, Hoown⟩
  iapply (wp_load 𝒱₀ (c : Thread nD τ) none Set.univ (m := xM) (xOwn_load_sub c)) $$ Hxown; iintro Hxown
  ihave Hloc : iprop(_ ∗ _) $$ [Hxown Hoown]
  · isplitl [Hxown]; · iexact Hxown
    iexact Hoown
  try sl_exec_parts
  -- the landing buffer whole again, at its final contents
  ihave Hsl := (Entails.of_eq (chain31r (fun k : Fin 31 => dmaPay m ρ c 1 k)).symm) $$ Hsl
  ihave Hsl := (Entails.of_eq (dmaPay1_eq m ρ c)) $$ Hsl
  ihave Hp := (pSplit c (P1fin m ρ c)).2 $$ Hsl
  iapply (wp_load 𝒱₀ (c : Thread nD τ) none Set.univ (m := pM) (Finset.subset_univ _)) $$ Hp; iintro Hp
  rw [read_p]
  try sl_exec_parts
  icases Hloc with ⟨Hxown, Hoown⟩
  iapply (wp_load 𝒱₀ (c : Thread nD τ) none Set.univ (m := oM) (oOwn_load_sub c)) $$ Hoown; iintro Hoown
  ihave Hloc : iprop(_ ∗ _) $$ [Hxown Hoown]
  · isplitl [Hxown]; · iexact Hxown
    iexact Hoown
  try sl_exec_parts
  icases Hloc with ⟨Hxown, Hoown⟩
  iapply (wp_store 𝒱₀ (c : Thread nD τ) none Set.univ (m := oM) (Mk := Finset.univ) (oOwn_store_sub c)) $$ Hoown; iintro Hoown
  rw [prog_ret_bind]
  have hst := store_own m ρ c g1
  unfold acc at hst
  ihave Hoown := (Entails.of_eq hst) $$ Hoown
  -- phase two: the 31 transfers of the summed tile, each at a left half of what is left of its share
  ihave Hcs2 : (emp : sProp 𝕄) $$ []; · iempintro
  forK j in [0:31] do
    sl_exec_parts
    icases Hdo with ⟨Hd, Hdo⟩
    icases Hd with ⟨%fd, Hd⟩
    ihave Hoown : (pts c (oSl c) (rsh j) (Ofin m ρ) : sProp 𝕄) $$ [Hoown]
    · iexact Hoown
    ihave Hsh := (rsh_split c (oSl c) j (Ofin m ρ)).1 $$ Hoown
    icases Hsh with ⟨Hs, Hoown⟩
    icases Ht2 with ⟨Ht, Ht2⟩
    icases Ht with ⟨Hta, Htc⟩
    iapply (step_send2 m ρ K c (j : Fin 31) _ (by simp only [tr_dev] <;> rfl) fd) $$ [Hs Hd HO Hta Htc]
    · isplitr; · iexact Hrec
      isplitl [Hs]; · iexact Hs
      isplitl [Hd]; · iexact Hd
      isplitl [HO]; · iexact HO
      isplitl [Hta]; · iexact Hta
      iexact Htc
    iintro ⟨Hcr, HO⟩
    ihave Hcs2 : iprop(_ ∗ _) $$ [Hcr Hcs2]
    · isplitl [Hcr]; · iexact Hcr
      iexact Hcs2
  -- the 31 waits for the others' summed tiles
  ihave Hrt : (emp : sProp 𝕄) $$ []; · iempintro
  ihave Hz3 : (emp : sProp 𝕄) $$ []; · iempintro
  forK j in [0:31] do
    sl_exec_parts
    icases Hc3 with ⟨Hc, Hc3⟩
    icases Hp3 with ⟨Ha, Hp3⟩
    iapply (step_dmawait m ρ K c 3 (j : Fin 31) (owedFrom c 93) (mayWait_end c _) (by rfl) (by rfl)) $$ [Hc HO Ha]
    · isplitr; · iexact Hrec
      isplitl [Hc]; · iexact Hc
      isplitl [HO]; · iexact HO
      isplitr; · iexact Hlev
      iexact Ha
    iintro ⟨HO, Ha, Hpay⟩
    imod (close_dma m ρ K c 3 (j : Fin 31)) $$ [Ha] with Hz
    · isplitr; · iexact Hrec
      iexact Ha
    ihave Hrt : iprop(_ ∗ _) $$ [Hpay Hrt]
    · isplitl [Hpay]; · iexact Hpay
      iexact Hrt
    ihave Hz3 : iprop(_ ∗ _) $$ [Hz Hz3]
    · isplitl [Hz]; · iexact Hz
      iexact Hz3
  -- the 31 waits that bring the lent tiles of x back
  ihave Hcs0 := (Entails.of_eq (chain31r (fun k : Fin 31 => cred (tallyAt (dCell c 0 k) () N))).symm) $$ Hcs0
  ihave Hcs0 := (Entails.of_eq (chain31 _)) $$ Hcs0
  ihave Hxr : (emp : sProp 𝕄) $$ []; · iempintro
  ihave Hz0 : (emp : sProp 𝕄) $$ []; · iempintro
  forK j in [0:31] do
    sl_exec_parts
    icases Hcs0 with ⟨Hc, Hcs0⟩
    icases Hp0 with ⟨Ha, Hp0⟩
    iapply (step_dmawait m ρ K c 0 (j : Fin 31) (owedFrom c 93) (mayWait_end c _) (by rfl) (by rfl)) $$ [Hc HO Ha]
    · isplitr; · iexact Hrec
      isplitl [Hc]; · iexact Hc
      isplitl [HO]; · iexact HO
      isplitr; · iexact Hlev
      iexact Ha
    iintro ⟨HO, Ha, Hpay⟩
    imod (close_dma m ρ K c 0 (j : Fin 31)) $$ [Ha] with Hz
    · isplitr; · iexact Hrec
      iexact Ha
    ihave Hxr : iprop(_ ∗ _) $$ [Hpay Hxr]
    · isplitl [Hpay]; · iexact Hpay
      iexact Hxr
    ihave Hz0 : iprop(_ ∗ _) $$ [Hz Hz0]
    · isplitl [Hz]; · iexact Hz
      iexact Hz0
  -- the 31 waits that bring the lent shares of the summed tile back
  ihave Hcs2 := (Entails.of_eq (chain31r (fun k : Fin 31 => cred (tallyAt (dCell c 2 k) () N))).symm) $$ Hcs2
  ihave Hcs2 := (Entails.of_eq (chain31 _)) $$ Hcs2
  ihave Hshr : (emp : sProp 𝕄) $$ []; · iempintro
  ihave Hz2 : (emp : sProp 𝕄) $$ []; · iempintro
  forK j in [0:31] do
    sl_exec_parts
    icases Hcs2 with ⟨Hc, Hcs2⟩
    icases Hp2 with ⟨Ha, Hp2⟩
    iapply (step_dmawait m ρ K c 2 (j : Fin 31) (owedFrom c 93) (mayWait_end c _) (by rfl) (by rfl)) $$ [Hc HO Ha]
    · isplitr; · iexact Hrec
      isplitl [Hc]; · iexact Hc
      isplitl [HO]; · iexact HO
      isplitr; · iexact Hlev
      iexact Ha
    iintro ⟨HO, Ha, Hpay⟩
    imod (close_dma m ρ K c 2 (j : Fin 31)) $$ [Ha] with Hz
    · isplitr; · iexact Hrec
      iexact Ha
    ihave Hshr : iprop(_ ∗ _) $$ [Hpay Hshr]
    · isplitl [Hpay]; · iexact Hpay
      iexact Hshr
    ihave Hz2 : iprop(_ ∗ _) $$ [Hz Hz2]
    · isplitl [Hz]; · iexact Hz
      iexact Hz2
  sl_exec_parts
  -- the staging buffer of x whole again
  ihave Hxr := (Entails.of_eq (chain31r (fun k : Fin 31 => dmaPay m ρ c 0 k)).symm) $$ Hxr
  ihave Hxr := (Entails.of_eq (dmaPay0_eq m ρ c)) $$ Hxr
  ihave Hx := (xSplit c (X m ρ c)).2 $$ [Hxown Hxr]
  · isplitl [Hxown]; · iexact Hxown
    iexact Hxr
  -- the summed tile back at the full share, then the result buffer whole from its 32 tiles
  ihave Hshr := (Entails.of_eq (chain31r (fun k : Fin 31 => dmaPay m ρ c 2 k)).symm) $$ Hshr
  ihave Hshr := (Entails.of_eq (dmaPay2_eq m ρ c)) $$ Hshr
  ihave Hoown : (pts c (oSl c) (rsh 31) (Ofin m ρ) : sProp 𝕄) $$ [Hoown]
  · iexact Hoown
  ihave Hoown := (shares_join c (oSl c) (Ofin m ρ)) $$ [Hoown Hshr]
  · isplitl [Hoown]; · iexact Hoown
    iexact Hshr
  ihave Hrt := (Entails.of_eq (chain31r (fun k : Fin 31 => dmaPay m ρ c 3 k)).symm) $$ Hrt
  ihave Hrt := (Entails.of_eq (dmaPay3_eq m ρ c)) $$ Hrt
  ihave Hout := (oJoin m ρ c) $$ [Hoown Hrt]
  · isplitl [Hoown]; · iexact Hoown
    iexact Hrt
  -- the 124 own cells, closed
  ihave Hz0 := (Entails.of_eq (chain31r (fun k : Fin 31 => (semVal (dCell c 0 k) 0 : sProp 𝕄))).symm) $$ Hz0
  ihave Hz1 := (Entails.of_eq (chain31r (fun k : Fin 31 => (semVal (dCell c 1 k) 0 : sProp 𝕄))).symm) $$ Hz1
  ihave Hz2 := (Entails.of_eq (chain31r (fun k : Fin 31 => (semVal (dCell c 2 k) 0 : sProp 𝕄))).symm) $$ Hz2
  ihave Hz3 := (Entails.of_eq (chain31r (fun k : Fin 31 => (semVal (dCell c 3 k) 0 : sProp 𝕄))).symm) $$ Hz3
  rw [owedFrom_end c]
  sl_step
  unfold bodyPost Φ₁ Dat.owesAt Pipeline.owesWithin
  rw [show (dats m ρ 0 c).owed t₀.succ = 0 from rfl]
  isplitl [Hp Hz0 Hz1 Hz2 Hz3]
  · isplitl [Hp]; · iexact Hp
    iapply (Entails.of_eq (fin4 _).symm)
    isplitl [Hz0]; · iexact Hz0
    isplitl [Hz1]; · iexact Hz1
    isplitl [Hz2]; · iexact Hz2
    iexact Hz3
  isplitl [HO]
  · iexists _
    isplitr
    on_goal 2 => iexact HO
    ipureintro; exact fun _ _ => Or.inl trivial
  isplitl [Hx]
  · iexists _; isplitr; · (ipureintro; rfl)
    iexact Hx
  iexists _; isplitr; · (ipureintro; rfl)
  iexact Hout

/-- info: 'Cert.KernelIdeal.TR.body_obligation' depends on axioms: [propext, Classical.choice, Quot.sound] -/
#guard_msgs in #print axioms body_obligation

end Cert.KernelIdeal.TR

end
-- ==== Proof.Launch.lean ====
/-
  The launch: from every device's body obligation to the run of the whole mesh.

  The protocol's ghost state is allocated for all 32 devices at once (the barrier semaphores are the
  runtime's, shared by the devices that signal them), the duty tokens are dealt to the devices that pay
  them, each device is credited what the others owe its cells, and the result array is read off the
  pipeline's write-back of the result window.
-/
import proofs.«901102_g7700000000001103_dist_treered_v7x_i32_m256_n256_f32_1_alg».proof.Proof.Body
import proofs.«901102_g7700000000001103_dist_treered_v7x_i32_m256_n256_f32_1_alg».proof.Proof.Tables

noncomputable section

namespace Cert.KernelIdeal.TR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The 124 scoped semaphores the kernel names: entry `k` of DMA family `a`. -/
private abbrev osem : Fin 4 × Fin 31 → SemLoc sig := fun ak => .dma (dsem ak.1 ak.2)

private theorem ownSemFacts : Pipeline.OwnSemFacts cfg0.spec osem := by decide

private theorem share_eq (c : Dev nD) (w : Fin cfg0.W) : (dats m ρ 0 c).share w = fullShare := by unfold Dat.share; split <;> rfl

/-! ## The ring: going `o` places forward is a bijection of the devices, going `o` places back its inverse -/

private theorem ring_bwd_fwd (c : Dev nD) (o : ℕ) : bwd (fwd c o) o = c := by
  apply Fin.ext
  have hc : c.val < 32 := c.isLt
  show ((c.val + o) % 32 + (32 - o % 32)) % 32 = c.val
  omega

private theorem ring_fwd_bwd (c : Dev nD) (o : ℕ) : fwd (bwd c o) o = c := by
  apply Fin.ext
  have hc : c.val < 32 := c.isLt
  show ((c.val + (32 - o % 32)) % 32 + o) % 32 = c.val
  omega

/-- Going `o` places forward, as a permutation of the devices. -/
private def ringE (o : ℕ) : Dev nD ≃ Dev nD := ⟨fun c => fwd c o, fun c => bwd c o, fun c => ring_bwd_fwd c o, fun c => ring_fwd_bwd c o⟩

/-- The barrier's duty names read backwards: `k ↦ 30 - k`. -/
private def revE : Fin 31 ≃ Fin 31 :=
  ⟨fun k => ⟨30 - k.val, by omega⟩, fun k => ⟨30 - k.val, by omega⟩, fun k => Fin.ext (by have := k.isLt; show 30 - (30 - k.val) = k.val; omega),
    fun k => Fin.ext (by have := k.isLt; show 30 - (30 - k.val) = k.val; omega)⟩

/-! ## The protocol's cells and tokens -/

private theorem csem_injective : Function.Injective csem := by
  rintro (_ | ⟨a, k⟩) (_ | ⟨a', k'⟩) h
  · rfl
  · cases h
  · cases h
  · have h1 : dsem a k = dsem a' k' := by injection h
    have := dsem_injective (a₁ := (a, k)) (a₂ := (a', k')) h1
    rw [this]

private theorem kcell_injective : Function.Injective (kcell : Cl → GSem nD τ sig) := by
  rintro ⟨c, o⟩ ⟨c', o'⟩ h
  have h1 : c = c' := by have := congrArg (fun g : GSem nD τ sig => g.1.1) h; exact this
  subst h1
  have h2 : csem o = csem o' := congrArg Prod.snd h
  rw [csem_injective h2]

private def protoCells : Finset (GSem nD τ sig) := Finset.univ.map ⟨kcell, kcell_injective⟩

/-- A device's own cells' duty tokens as minted: the 31 duties of its barrier cell, the one duty of each DMA cell. -/
private abbrev tokOf (x : Dev nD × (Fin 31 ⊕ (Fin 4 × Fin 31))) : GSem nD τ sig × ℕ × Fin 31 := match x.2 with
  | .inl j => (barCell x.1, 0, j)
  | .inr ak => (dCell x.1 ak.1 ak.2, 0, 0)

private theorem tokOf_injective : Function.Injective tokOf := by
  rintro ⟨c, x⟩ ⟨c', x'⟩ h
  have h1 : c = c' := by
    have := congrArg (fun y : GSem nD τ sig × ℕ × Fin 31 => y.1.1.1) h
    rcases x with j | ak <;> rcases x' with j' | ak' <;> exact this
  subst h1
  rcases x with j | ak <;> rcases x' with j' | ak'
  · have : j = j' := congrArg (fun y : GSem nD τ sig × ℕ × Fin 31 => y.2.2) h
    rw [this]
  · exact absurd (congrArg (fun y : GSem nD τ sig × ℕ × Fin 31 => y.1.2) h) (fun h' => by cases h')
  · exact absurd (congrArg (fun y : GSem nD τ sig × ℕ × Fin 31 => y.1.2) h) (fun h' => by cases h')
  · have h2 : csem (some ak) = csem (some ak') := congrArg (fun y : GSem nD τ sig × ℕ × Fin 31 => y.1.2) h
    have := csem_injective h2
    injection this with this
    rw [this]

private def protoToks : Finset (GSem nD τ sig × ℕ × Fin 31) := Finset.univ.map ⟨tokOf, tokOf_injective⟩

/-- The launch element: the pipeline's staging cells and the protocol's. -/
private def u₀ : UU :=
  (initOf (Pipeline.cells cfgs cellOf_inj) (Pipeline.launchToks cfgs cellOf_inj), initOf protoCells protoToks)

/-! ## What the launch element deals each device -/

/-- The duty tokens of device `c`'s own cells. -/
private def toks (c : Dev nD) : sProp 𝕄 :=
  iprop((bigSep Finset.univ fun j : Fin 31 => dutyTok ER (barCell c) 0 j)
    ∗ bigSep Finset.univ fun ak : Fin 4 × Fin 31 => dutyTok ER (dCell c ak.1 ak.2) 0 (0 : Fin 31))

/-- What the launch element deals device `c`: the round state of each of its cells, its position at the start of
    each and that each has reached round 0, and its cells' duty tokens. -/
private def G (c : Dev nD) : sProp 𝕄 :=
  iprop((bigSep Finset.univ fun o : Option (Fin 4 × Fin 31) => roundState ER (rd m ρ) (kcell (c, o)) 0)
    ∗ (bigSep Finset.univ fun o : Option (Fin 4 × Fin 31) => iprop(atPos ER (kcell (c, o)) 0 ∅ 0 ∗ reached ER (kcell (c, o)) 0)) ∗ toks c)

/-- What the step over all devices makes of it. -/
private def G' (c : Dev nD) : sProp 𝕄 := iprop(∃ K, ghost m ρ K c)

/-- A `bigSep` over an optional index: the summand at `none`, and those at `some`. -/
private theorem bigSep_option {α : Type} [Fintype α] (Φ : Option α → sProp 𝕄) :
    bigSep Finset.univ Φ = iprop(Φ none ∗ bigSep Finset.univ fun a : α => Φ (some a)) := by
  rw [bigSep_univ_equiv (Equiv.optionEquivSumPUnit.{0, 0} α).symm Φ, bigSep_univ_sum, bigSep_univ_of_subsingleton PUnit.unit]
  show iprop((bigSep Finset.univ fun a : α => Φ (some a)) ∗ Φ none) = iprop(Φ none ∗ bigSep Finset.univ fun a : α => Φ (some a))
  refine BI.Entails.antisymm (show _ ⊢ (_ : sProp 𝕄) from ?_) (show _ ⊢ (_ : sProp 𝕄) from ?_)
  · iintro ⟨H1, H2⟩; isplitl [H2]; · iexact H2
    iexact H1
  · iintro ⟨H1, H2⟩; isplitl [H2]; · iexact H2
    iexact H1

private theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun o : Option (Fin 4 × Fin 31) => Φ (kcell (c, o)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum]; rfl
  iintro HX
  imod (Rounds.fund ER (rd m ρ) protoCells protoToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

/-- The kernel's own semaphores are its 124 DMA cells; -/
private theorem ownSems0_eq (c : Dev nD) : (Pipeline.ownSems0 (Ix := Unit) (Name := ℕ) (U := UU) (Lvl := ℕ) (Val := Elt F) (τ := τ) osem c : sProp 𝕄)
    = bigSep Finset.univ fun ak : Fin 4 × Fin 31 => semVal (dCell c ak.1 ak.2) 0 := rfl

/-- the barrier semaphore is the launch's one unscoped semaphore. -/
private theorem unscopedSems0_eq (c : Dev nD) : (unscopedSems0 c : sProp 𝕄) = semVal (barCell c) 0 := by
  unfold unscopedSems0; rw [bigSep_eq_bigSepL_of_eq [SemLoc.reg barS] (by decide) (by decide)]; rfl

private theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : Option (Fin 4 × Fin 31) => semVal (kcell (c, o)) 0 : sProp 𝕄) := by
  rw [ownSems0_eq, unscopedSems0_eq, bigSep_option]
  iintro ⟨HD, HB⟩
  isplitl [HB]; · iexact HB
  iexact HD

/-- Each of a device's cells gets its invariant, from its counter at zero and its round state. -/
private theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o : Option (Fin 4 × Fin 31) => iprop(∃ κ : ℕ, cellInv ER (rd m ρ) κ (kcell (c, o))))
          ∗ (bigSep Finset.univ fun o : Option (Fin 4 × Fin 31) => iprop(atPos ER (kcell (c, o)) 0 ∅ 0 ∗ reached ER (kcell (c, o)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun o : Option (Fin 4 × Fin 31) => semVal (kcell (c, o)) 0) ∗ bigSep Finset.univ fun o : Option (Fin 4 × Fin 31) => roundState ER (rd m ρ) (kcell (c, o)) 0)
      ⊢ (|={Set.univ}=> bigSep Finset.univ fun o : Option (Fin 4 × Fin 31) => iprop(∃ κ : ℕ, cellInv ER (rd m ρ) κ (kcell (c, o))) : sProp 𝕄) from by
        rw [← bigSep_sep']
        exact (bigSep_mono fun o _ => (Rounds.body_intro ER (rd m ρ) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing each duty token to the device that pays it -/

private theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- Per-device, per-offset assertions dealt round the ring: what device `c` holds at offset `k` goes to the device
    `k+1` places before it. -/
private theorem around (Φ : Dev nD → Fin 31 → sProp 𝕄) :
    (bigSep Finset.univ fun c : Dev nD => bigSep Finset.univ fun k : Fin 31 => Φ c k)
      = bigSep Finset.univ fun c : Dev nD => bigSep Finset.univ fun k : Fin 31 => Φ (fwd c (k.val + 1)) k := by
  rw [bigSep_univ_comm (fun (c : Dev nD) (k : Fin 31) => Φ c k), bigSep_univ_comm (fun (c : Dev nD) (k : Fin 31) => Φ (fwd c (k.val + 1)) k)]
  exact bigSep_congr fun k _ => bigSep_univ_equiv (ringE (k.val + 1)) (fun c => Φ c k)

/-- A device's own tokens, family by family. -/
private theorem toks_eq (c : Dev nD) : (toks c : sProp 𝕄)
    = iprop((bigSep Finset.univ fun j : Fin 31 => dutyTok ER (barCell c) 0 j)
      ∗ (bigSep Finset.univ fun k : Fin 31 => dutyTok ER (dCell c 0 k) 0 (0 : Fin 31))
      ∗ (bigSep Finset.univ fun k : Fin 31 => dutyTok ER (dCell c 1 k) 0 (0 : Fin 31))
      ∗ (bigSep Finset.univ fun k : Fin 31 => dutyTok ER (dCell c 2 k) 0 (0 : Fin 31))
      ∗ (bigSep Finset.univ fun k : Fin 31 => dutyTok ER (dCell c 3 k) 0 (0 : Fin 31))) := by
  unfold toks; rw [bigSep_univ_prod, bigSep_fin4]

/-- The tokens dealt round the ring: duty `30-k` of a barrier cell to the device `k+1` places before its owner, the
    arrival tokens of the receive cells at offset `k` likewise; the send tokens stay. -/
private theorem toks_around : (bigSep Finset.univ fun c : Dev nD => (toks c : sProp 𝕄)) ⊢ bigSep Finset.univ fun c : Dev nD => payToks c := by
  have hA : (bigSep Finset.univ fun c : Dev nD => bigSep Finset.univ fun j : Fin 31 => (dutyTok ER (barCell c) 0 j : sProp 𝕄))
      = bigSep Finset.univ fun c : Dev nD => bigSep Finset.univ fun k : Fin 31 => dutyTok ER (barCell (fwd c (k.val + 1))) 0 (⟨30 - k.val, by omega⟩ : Fin 31) := by
    rw [← around (fun c k => (dutyTok ER (barCell c) 0 (⟨30 - k.val, by omega⟩ : Fin 31) : sProp 𝕄))]
    exact bigSep_congr fun c _ => bigSep_univ_equiv revE (fun j => (dutyTok ER (barCell c) 0 j : sProp 𝕄))
  have hD (a : Fin 4) : (bigSep Finset.univ fun c : Dev nD => bigSep Finset.univ fun k : Fin 31 => (dutyTok ER (dCell c a k) 0 (0 : Fin 31) : sProp 𝕄))
      = bigSep Finset.univ fun c : Dev nD => bigSep Finset.univ fun k : Fin 31 => dutyTok ER (dCell (fwd c (k.val + 1)) a k) 0 (0 : Fin 31) :=
    around (fun c k => (dutyTok ER (dCell c a k) 0 (0 : Fin 31) : sProp 𝕄))
  rw [bigSep_congr fun c _ => toks_eq c]
  unfold payToks
  simp only [bigSep_sep']
  rw [hA, hD 1, hD 3]
  iintro ⟨HA, H0, H1, H2, H3⟩
  isplitl [HA]; · iexact HA
  isplitl [H0 H1]
  · isplitl [H0] <;> iassumption
  isplitl [H2] <;> iassumption

/-- A device's positions, over its cells as indexed. -/
private theorem positions_eq (c : Dev nD) :
    (positions c : sProp 𝕄) = bigSep Finset.univ fun o : Option (Fin 4 × Fin 31) => atPos ER (kcell (c, o)) 0 ∅ 0 := by
  unfold positions; rw [bigSep_option, bigSep_univ_prod]
  first | done | rfl

/-- One device's ghost state from the records and what stays with it. -/
private theorem ghost_intro (K : Cl → ℕ) (c : Dev nD) : iprop(records m ρ K ∗ positions c ∗ payToks c) ⊢ G' m ρ c := by
  unfold G' ghost
  iintro H
  iexists K
  iexact H

private theorem regroup :
    (bigSep Finset.univ fun c : Dev nD => iprop((bigSep Finset.univ fun o : Option (Fin 4 × Fin 31) => iprop(∃ κ : ℕ, cellInv ER (rd m ρ) κ (kcell (c, o))))
          ∗ (bigSep Finset.univ fun o : Option (Fin 4 × Fin 31) => iprop(atPos ER (kcell (c, o)) 0 ∅ 0 ∗ reached ER (kcell (c, o)) 0)) ∗ toks c) : sProp 𝕄)
      ⊢ bigSep Finset.univ (G' m ρ) := by
  rw [bigSep_sep', bigSep_sep', ← bigSep_univ_prod (fun x : Cl => iprop(∃ κ : ℕ, cellInv ER (rd m ρ) κ (kcell x))),
    bigSep_congr (s := Finset.univ) (fun (c : Dev nD) _ => bigSep_sep' Finset.univ (fun o : Option (Fin 4 × Fin 31) => (atPos ER (kcell (c, o)) 0 ∅ 0 : sProp 𝕄)) (fun o => reached ER (kcell (c, o)) 0)),
    bigSep_sep', ← bigSep_univ_prod (fun x : Cl => (reached ER (kcell x) 0 : sProp 𝕄))]
  iintro ⟨HI, ⟨Hat, #HR⟩, Htok⟩
  ihave HK := (BI.bigSep_exists_pi Finset.univ (fun (x : Cl) (κ : ℕ) => (cellInv ER (rd m ρ) κ (kcell x) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (positions c : sProp 𝕄)) payToks).symm)
    isplitl [Hat]
    · iapply (Entails.of_eq (bigSep_congr (s := Finset.univ) fun (c : Dev nD) _ => (positions_eq c).symm)); iexact Hat
    iexact Htk

/-- The step over all devices: own and unscoped semaphores of every device at once. -/
private theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What a device owes at launch, as a sum over its 93 payments. -/
private theorem O₀_sum (c : Dev nD) : O₀ c = ∑ n ∈ Finset.range 93, tally c n := by
  unfold O₀ owedFrom
  rw [Finset.sum_eq_multiset_sum, Finset.range_val]
  show _ = (Multiset.map (tally c) ↑(List.range 93)).sum
  rw [Multiset.map_coe, Multiset.sum_coe, List.range_eq_range']

/-- The same by kind: 31 signals, 31 phase-one arrivals, 31 phase-two arrivals, each at the device `k+1` places on. -/
private theorem O₀_eq (c : Dev nD) : O₀ c = (∑ k : Fin 31, tallyAt (barCell (fwd c (k.val + 1))) () 1)
    + ((∑ k : Fin 31, tallyAt (dCell (fwd c (k.val + 1)) 1 k) () N) + ∑ k : Fin 31, tallyAt (dCell (fwd c (k.val + 1)) 3 k) () N) := by
  rw [O₀_sum, show (93 : ℕ) = 31 + (31 + 31) from rfl, Finset.sum_range_add, Finset.sum_range_add, Finset.sum_range, Finset.sum_range, Finset.sum_range]
  refine congrArg₂ (· + ·) (Finset.sum_congr rfl fun k _ => tally_sig c k)
    (congrArg₂ (· + ·) (Finset.sum_congr rfl fun k _ => tally_p1 c k) (Finset.sum_congr rfl fun k _ => ?_))
  rw [show 31 + (31 + k.val) = 62 + k.val from by omega]; exact tally_p2 c k

/-- Equal credits on one cell add up. -/
private theorem cred_replicate (g : GSem nD τ sig) (a : ℕ) {α : Type} [DecidableEq α] (s : Finset α) (n : ℕ) (hn : n = s.card * a) :
    (bigSep s fun _ : α => (cred (tallyAt g () a) : sProp 𝕄)) ⊢ cred (tallyAt g () n) := by
  subst hn
  induction s using Finset.induction_on with
  | empty => rw [bigSep_empty, Finset.card_empty, Nat.zero_mul, tallyAt_zero, cred_zero]; exact .rfl
  | insert x s hx ih =>
    rw [bigSep_insert hx, Finset.card_insert_of_notMem hx, Nat.succ_mul, Nat.add_comm, ← tallyAt_add]
    exact (sep_mono_right ih).trans (cred_add _ _).2

/-- The launch deals device `c` 31 units on its barrier cell and one transfer's credit on each of its receive cells:
    each unit is owed by exactly one device, the one `k+1` places before `c`, at offset `k`. -/
private theorem launch_creds (c : Dev nD) :
    (Pipeline.launchCred O₀ c : sProp 𝕄) ⊢ iprop(cred (tallyAt (barCell c) () 31)
      ∗ (bigSep Finset.univ fun k : Fin 31 => cred (tallyAt (dCell c 1 k) () N))
      ∗ (bigSep Finset.univ fun k : Fin 31 => cred (tallyAt (dCell c 3 k) () N))) := by
  rw [show (O₀ : Dev nD → CellTallies nD τ sig Unit) = fun d => (∑ k : Fin 31, tallyAt (barCell (fwd d (k.val + 1))) () 1)
      + ((∑ k : Fin 31, tallyAt (dCell (fwd d (k.val + 1)) 1 k) () N) + ∑ k : Fin 31, tallyAt (dCell (fwd d (k.val + 1)) 3 k) () N) from funext O₀_eq,
    Pipeline.launchCred_add, Pipeline.launchCred_add, Pipeline.launchCred_sum, Pipeline.launchCred_sum, Pipeline.launchCred_sum]
  have hA : (bigSep Finset.univ fun k : Fin 31 => (Pipeline.launchCred (fun d => tallyAt (barCell (fwd d (k.val + 1))) () 1) c : sProp 𝕄))
      ⊢ cred (tallyAt (barCell c) () 31) :=
    (bigSep_mono fun (k : Fin 31) _ => Pipeline.launchCred_tallyAt (SemLoc.reg barS) (fun d => fwd d (k.val + 1)) (fun d => bwd d (k.val + 1))
      (fun d => ring_fwd_bwd d _) (fun d => ring_bwd_fwd d _) () 1 c).trans
      (cred_replicate (F := F) (barCell c) 1 (Finset.univ : Finset (Fin 31)) 31 (by rw [Finset.card_univ, Fintype.card_fin]))
  have hB (a : Fin 4) : (bigSep Finset.univ fun k : Fin 31 => (Pipeline.launchCred (fun d => tallyAt (dCell (fwd d (k.val + 1)) a k) () N) c : sProp 𝕄))
      ⊢ bigSep Finset.univ fun k : Fin 31 => cred (tallyAt (dCell c a k) () N) :=
    bigSep_mono fun (k : Fin 31) _ => Pipeline.launchCred_tallyAt (SemLoc.dma (dsem a k)) (fun d => fwd d (k.val + 1)) (fun d => bwd d (k.val + 1))
      (fun d => ring_fwd_bwd d _) (fun d => ring_bwd_fwd d _) () N c
  iintro ⟨HA, HB, HC⟩
  isplitl [HA]
  · iapply hA; iexact HA
  isplitl [HB]
  · iapply (hB 1); iexact HB
  · iapply (hB 3); iexact HC

/-! ## The launch theorem's side conditions -/

private theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  icases Hc with ⟨H1, HN, HM⟩
  imodintro
  unfold start G'
  isplitl
  · isplitl [HG]; · iexact HG
    isplitl [H1]; · iexact H1
    isplitl [HN]; · iexact HN
    isplitl [HM]; · iexact HM
    iexact Hlev
  · iempintro

private theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

private theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq, bigSep_univ_prod]
  unfold Φ₁
  iintro ⟨Hr, Hz⟩
  isplitr; · iempintro
  isplitl [Hz]; · iexact Hz
  iexists (P1fin m ρ c); iexact Hr

private theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The arrays after the region's last point, as the proof data computes them. -/
private def finalA (c : Dev nD) (w : Fin cfg0.W) : Buf (Elt F) ((cfg0.win w).arr.view.loc (c : Thread nD τ)) := (dats m ρ 0 c).arrAt w cfg0.N

private def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
private theorem run_QC (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The arrays read off the proof data -/

/-- The block of `x` is an input window: never written back. -/
private theorem finalA_x (c : Dev nD) : finalA m ρ c (0 : Fin 2) = m ((c : Thread nD τ).loc main_arg0) :=
  (dats (F := F) m ρ 0 c).arrAt_in (0 : Fin 2) rfl _

/-- The result window is written back once, whole, from the staged contents `Ofin`. -/
private theorem finalA_out (c : Dev nD) : finalA m ρ c (1 : Fin 2) = Ofin m ρ := by
  unfold finalA
  have h := (dats (F := F) m ρ 0 c).arrAt_succ (1 : Fin 2) t₀
  rw [flush0_1 t₀, if_pos rfl] at h
  refine (show (dats (F := F) m ρ 0 c).arrAt (1 : Fin 2) cfg0.N = (dats (F := F) m ρ 0 c).arrAt (1 : Fin 2) (t₀.val + 1) from rfl).trans (h.trans ?_)
  have hread : ∀ f : Buf (Elt F) ((cfg0.win (1 : Fin 2)).arr.view.loc (c : Thread nD τ)), ((cfg0.win (1 : Fin 2)).blk t₀).view.read (Elt F) f = f := fun f =>
    Memref.read_access_unit_zero (Elt F) main_v1 (off := fun a => (cfg0.win (1 : Fin 2)).index t₀ a * (cfg0.win (1 : Fin 2)).size a)
      (funext fun a => Nat.zero_mul _) _ f
  exact (hread _).symm.trans (View.read_write_univ _ _)

/-- Every weakly fair execution of the 32 kernels terminates, nothing faults, every device's result array ends
    holding the final contents `Ofin` and its block of `x` is unchanged. -/
theorem run_main (hbody : ∀ c : Dev nD, BodyObligation (dats (F := F) m ρ 0 c) (defs₀ (F := F)) 𝒱₀ () Set.univ) :
    θ_run defs (onTc (τ := τ) (main (F := F))) (s₀ m ρ) (fun r => ∀ c : Dev nD,
      r.2.mem ((c.tc : Thread nD τ).loc main_v1) = Ofin m ρ
      ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩) (run_QC m ρ hbody)

/-- info: 'Cert.KernelIdeal.TR.run_main' depends on axioms: [propext, Classical.choice, Quot.sound] -/
#guard_msgs in #print axioms run_main

end Cert.KernelIdeal.TR

end
-- ==== Proof.Value.lean ====
/-
  The value: the final contents of every device's result buffer are the reference's sum.

  At an index (r, q) of tile d = r / 8 the kernel holds device d's own entry plus the sum over the 31
  slots of the entries of the devices 1..31 places before d; the reference holds zero plus the sum over
  all 32 blocks. The two are one sum over the 32 devices in two orders: addition of extended reals is
  commutative and associative, so no finiteness is needed.
-/
import proofs.«901102_g7700000000001103_dist_treered_v7x_i32_m256_n256_f32_1_alg».proof.Proof.Sched
import proofs.«901102_g7700000000001103_dist_treered_v7x_i32_m256_n256_f32_1_alg».proof.Proof.Gen.ReferenceIdeal.Run
import proofs.«901102_g7700000000001103_dist_treered_v7x_i32_m256_n256_f32_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws

noncomputable section

namespace Cert.KernelIdeal.TR

open Cert.KernelIdeal Cert.KernelIdeal.Gen
open Idealize.ShloMosaic
open Idealize.ShloMosaic.TcCoe
open Idealize.SL Idealize.SL.Sem

/-! ## One sum over the ring of devices, in two orders -/

/-- Over the 32 devices: the entry of `d` plus the entries of the devices 1..31 places before `d` is the sum of all
    32 entries. The map `k ↦ bwd d (k+1)` is a bijection from the 31 slots onto the devices other than `d`. -/
private theorem sum_ring (f : Fin 32 → EReal) (d : Dev nD) :
    f d + ∑ k : Fin 31, f (bwd d (k.val + 1)) = ∑ k : Fin 32, f k := by
  rw [← Finset.add_sum_erase Finset.univ f (Finset.mem_univ d)]
  congr 1
  have hd : d.val < 32 := d.isLt
  refine Finset.sum_bij (fun k _ => bwd d (k.val + 1)) ?_ ?_ ?_ ?_
  · intro k _
    refine Finset.mem_erase.mpr ⟨fun h => ?_, Finset.mem_univ _⟩
    have h' := congrArg Fin.val h
    have hk := k.isLt
    simp only [bwd] at h'
    omega
  · intro k _ k' _ h
    have h' := congrArg Fin.val h
    simp only [bwd] at h'
    have hk := k.isLt; have hk' := k'.isLt
    apply Fin.ext; omega
  · intro b hb
    have hne : b ≠ d := (Finset.mem_erase.mp hb).1
    have hv : b.val ≠ d.val := fun h => hne (Fin.ext h)
    have hb' : b.val < 32 := b.isLt
    refine ⟨⟨(d.val + 32 - b.val) % 32 - 1, by omega⟩, Finset.mem_univ _, Fin.ext ?_⟩
    show (d.val + (32 - ((d.val + 32 - b.val) % 32 - 1 + 1) % 32)) % 32 = b.val
    omega
  · intro k _; rfl

/-! ## A device's staged block is its block of the whole array -/

/-- The staged block is the argument buffer: the window is the whole 1×256×256 block. -/
private theorem X_eq {F : FTy → Type} [FloatOps F] (m : (ℓ : Loc nD τ sig) → Buf (Elt F) ℓ) (ρ : Dev nD → PrngReg)
    (c : Dev nD) (j : S1x256x256.Idx) :
    X m ρ c j = m ((c.tc : Thread nD τ).loc main_arg0) j := by
  unfold X
  rw [View.read_apply]
  have he : (win0_0.blk (0 : Fin 1)).view.emb j = j := funext fun a => Fin.ext (by
    show 0 * _ + 1 * (j a).val = (j a).val; omega)
  rw [he]; rfl

/-- Device `c`'s staged block at (0, r, q) is the whole array at (c, r, q). -/
private theorem X_at (m : (ℓ : Loc nD τ sig) → Buf (Elt Ideal) ℓ) (ρ : Dev nD → PrngReg)
    (x0 : (⟨Cert.ReferenceIdeal.S32x256x256, .f32⟩ : BufTy).Contents (Elt Ideal))
    (hblk : ∀ c : Dev nD, m ((c.tc : Thread nD τ).loc main_arg0) = Layout.block ⟨3, ![1, 256, 256]⟩ ⟨3, ![32, 256, 256]⟩ 0 32 c x0)
    (c : Dev nD) (j : S1x256x256.Idx) (i : S256x256.Idx) (h1 : (j 1).val = (i 0).val) (h2 : (j 2).val = (i 1).val) :
    X m ρ c j = x0 (Cert.ReferenceIdeal.Read.idx_main_v0 i c) := by
  rw [X_eq, hblk c]
  show x0 _ = x0 _
  refine congrArg x0 (funext fun a => Fin.ext ?_)
  have h0 : (j 0).val < 1 := (j 0).isLt
  match a with
  | ⟨0, _⟩ => show c.val * 1 + (j 0).val = c.val; omega
  | ⟨1, _⟩ => exact h1
  | ⟨2, _⟩ => exact h2

/-! ## An 8×256 tile seen through a 1×8×256 rectangle of a rank-3 buffer -/

/-- Dropping the unit axis: the index (r, q) of the tile is (0, r, q) of the rectangle. -/
private theorem sq_idx (y : S8x256.Idx) :
    Shape.reshapeEquiv squeezes_S1x8x256_S8x256.numel_eq y = (ValueIdx.ix3 (0 : Fin 1) (y 0) (y 1) : S1x8x256.Idx) := by
  apply Shape.reshapeEquiv_eq_of_rowMajor
  rw [Shape.rowMajor_val_three, Shape.rowMajor_val_two]
  show (0 * 8 + (y 0).val) * 256 + (y 1).val = (y 0).val * 256 + (y 1).val
  omega

/-- The element of the buffer under the tile's index (r, q): the rectangle's offsets plus (0, r, q). -/
private theorem slsq_emb {d : Fin 3 → ℕ} (M : Memref sig .tc .vmem ⟨3, d⟩ .f32) (off : Fin 3 → ℕ)
    (inb : ∀ a, off a + S1x8x256.size a ≤ (⟨3, d⟩ : Shape).size a) (y : S8x256.Idx) (z : (⟨3, d⟩ : Shape).Idx)
    (h0 : (z 0).val = off 0) (h1 : (z 1).val = off 1 + (y 0).val) (h2 : (z 2).val = off 2 + (y 1).val) :
    ((M.slice (Rect.unit (s := ⟨3, d⟩) off S1x8x256.size inb) (fun _ => rfl)).squeeze S8x256 squeezes_S1x8x256_S8x256).view.emb y
      = M.view.emb z := by
  show M.view.emb ((Rect.unit (s := ⟨3, d⟩) off S1x8x256.size inb).emb (Shape.reshapeEquiv squeezes_S1x8x256_S8x256.numel_eq y)) = M.view.emb z
  congr 1
  funext a; apply Fin.ext
  rw [Rect.emb_apply]
  have hz := sq_idx y
  match a with
  | ⟨0, _⟩ =>
    have : ((Shape.reshapeEquiv squeezes_S1x8x256_S8x256.numel_eq y) (0 : Fin 3)).val = 0 :=
      congrArg (fun w : S1x8x256.Idx => (w (0 : Fin 3)).val) hz
    show off 0 + 1 * ((Shape.reshapeEquiv squeezes_S1x8x256_S8x256.numel_eq y) (0 : Fin 3)).val = (z 0).val
    omega
  | ⟨1, _⟩ =>
    have : ((Shape.reshapeEquiv squeezes_S1x8x256_S8x256.numel_eq y) (1 : Fin 3)).val = (y 0).val :=
      congrArg (fun w : S1x8x256.Idx => (w (1 : Fin 3)).val) hz
    show off 1 + 1 * ((Shape.reshapeEquiv squeezes_S1x8x256_S8x256.numel_eq y) (1 : Fin 3)).val = (z 1).val
    omega
  | ⟨2, _⟩ =>
    have : ((Shape.reshapeEquiv squeezes_S1x8x256_S8x256.numel_eq y) (2 : Fin 3)).val = (y 1).val :=
      congrArg (fun w : S1x8x256.Idx => (w (2 : Fin 3)).val) hz
    show off 2 + 1 * ((Shape.reshapeEquiv squeezes_S1x8x256_S8x256.numel_eq y) (2 : Fin 3)).val = (z 2).val
    omega

/-! ## The landing buffer at an index -/

/-- Slot `n` at its element under (r, q): what the sender's tile holds under (r, q). -/
private theorem P1_aux {F : FTy → Type} [FloatOps F] (m : (ℓ : Loc nD τ sig) → Buf (Elt F) ℓ) (ρ : Dev nD → PrngReg)
    (c : Dev nD) (n : ℕ) (hn : n < 31) (y : S8x256.Idx) :
    ((pSl n hn).view.write (Elt F) (m ((c : Thread nD τ).loc cc0_scratch0))
      ((xSl (bwd c (n + 1)) ⟨n, hn⟩).view.read (Elt F) (X m ρ (bwd c (n + 1)))) Finset.univ) ((pSl n hn).view.emb y)
      = X m ρ (bwd c (n + 1)) ((xSl (bwd c (n + 1)) ⟨n, hn⟩).view.emb y) := by
  rw [View.write_emb_of_mem _ _ (Finset.mem_univ y), View.read_apply]
  rfl

/-- Slot `k` of device `c` at (r, q) is the block of the device `k+1` places before `c` at (0, 8c + r, q): the sender
    `k+1` places before `c` sends the tile of the device `k+1` places after itself, which is `c`. -/
private theorem P1fin_at {F : FTy → Type} [FloatOps F] (m : (ℓ : Loc nD τ sig) → Buf (Elt F) ℓ) (ρ : Dev nD → PrngReg)
    (c : Dev nD) (i : S31x8x256.Idx) (y : S8x256.Idx)
    (j : S1x256x256.Idx) (h1 : (i 1).val = (y 0).val) (h2 : (i 2).val = (y 1).val)
    (hj0 : (j 0).val = 0) (hj1 : (j 1).val = 8 * c.val + (y 0).val) (hj2 : (j 2).val = (y 1).val) :
    P1fin m ρ c i = X m ρ (bwd c ((i 0).val + 1)) j := by
  have he : (pSl (i 0).val (i 0).isLt).view.emb y = i :=
    slsq_emb pM ![(i 0).val, 0, 0] (inbSlot (i 0).val (i 0).isLt) y i rfl (by show (i 1).val = 0 + (y 0).val; omega) (by show (i 2).val = 0 + (y 1).val; omega)
  have hx : (xSl (bwd c ((i 0).val + 1)) ⟨(i 0).val, (i 0).isLt⟩).view.emb y = j := by
    have hoff := k0_off1_eq (bwd c ((i 0).val + 1)) ⟨(i 0).val, (i 0).isLt⟩
    have hi : (i 0).val < 31 := (i 0).isLt
    have hc : c.val < 32 := c.isLt
    have hb : ((bwd c ((i 0).val + 1)).val + (i 0).val + 1) % 32 = c.val := by
      show ((c.val + (32 - ((i 0).val + 1) % 32)) % 32 + (i 0).val + 1) % 32 = c.val
      omega
    refine slsq_emb xM _ (k0_off1_inb _ _) y j ?_ ?_ ?_
    · rw [hoff]; exact hj0
    · rw [hoff]; show (j 1).val = 8 * (((bwd c ((i 0).val + 1)).val + (i 0).val + 1) % 32) + (y 0).val; rw [hb]; exact hj1
    · rw [hoff]; show (j 2).val = 0 + (y 1).val; omega
  have key := P1_aux m ρ c (i 0).val (i 0).isLt y
  rw [he, hx] at key
  exact key

/-! ## The summed tile and the result buffer at an index -/

/-- The summed tile of `d` at (r, q): the own block at (0, 8d + r, q) plus the sum over the 31 slots at (k, r, q). -/
private theorem acc_at (m : (ℓ : Loc nD τ sig) → Buf (Elt Ideal) ℓ) (ρ : Dev nD → PrngReg) (d : Dev nD) (y : S8x256.Idx) (j : S1x256x256.Idx)
    (hj0 : (j 0).val = 0) (hj1 : (j 1).val = 8 * d.val + (y 0).val) (hj2 : (j 2).val = (y 1).val) :
    acc (F := Ideal) m ρ d y
      = (show EReal from X m ρ d j) + ∑ k : Fin 31, (show EReal from P1fin m ρ d (ValueIdx.ix3 k (y 0) (y 1))) := by
  have e1 : shapeCast S8x256 (xM.view.readAt (Elt Ideal) (Rect.unit (s := S1x256x256) (k0_off2 d) S1x8x256.size (k0_off2_inb d)).toLoadRect (X m ρ d))
      shapeCasts_S1x8x256_S8x256 y = X m ρ d j := by
    refine (shapeCast_apply (s := S1x8x256) _ shapeCasts_S1x8x256_S8x256 y (ValueIdx.ix3 (0 : Fin 1) (y 0) (y 1)) ?_).trans ?_
    · rw [Shape.rowMajor_val_three, Shape.rowMajor_val_two]
      show (0 * 8 + (y 0).val) * 256 + (y 1).val = (y 0).val * 256 + (y 1).val
      omega
    · show X m ρ d _ = X m ρ d j
      refine congrArg (X m ρ d) (funext fun a => Fin.ext ?_)
      have hoff := k0_off2_eq d
      match a with
      | ⟨0, _⟩ => show (k0_off2 d) 0 + 1 * 0 = (j 0).val; rw [hoff]; show 0 + 1 * 0 = (j 0).val; omega
      | ⟨1, _⟩ => show (k0_off2 d) 1 + 1 * (y 0).val = (j 1).val; rw [hoff]; show 8 * d.val + 1 * (y 0).val = (j 1).val; omega
      | ⟨2, _⟩ => show (k0_off2 d) 2 + 1 * (y 1).val = (j 2).val; rw [hoff]; show 0 + 1 * (y 1).val = (j 2).val; omega
  have e2 : multiReduction (F := Ideal) .add [0] S8x256 (P1fin m ρ d) 0x00000000#32 reduces_S31x8x256_S8x256 (.inl rfl) rfl y
      = ∑ k : Fin 31, (show EReal from P1fin m ρ d (ValueIdx.ix3 k (y 0) (y 1))) := by
    refine (Ideal.multiReduction_add_single (P1fin m ρ d) _ reduces_S31x8x256_S8x256 (.inl rfl) rfl y).trans ?_
    refine Finset.sum_congr rfl fun k _ => congrArg (P1fin m ρ d) (funext fun a => Fin.ext ?_)
    match a with
    | ⟨0, _⟩ => rfl
    | ⟨1, _⟩ => rfl
    | ⟨2, _⟩ => rfl
  show addf (shapeCast S8x256 (xM.view.readAt (Elt Ideal) (Rect.unit (s := S1x256x256) (k0_off2 d) S1x8x256.size (k0_off2_inb d)).toLoadRect (X m ρ d))
      shapeCasts_S1x8x256_S8x256)
    (multiReduction (F := Ideal) .add [0] S8x256 (P1fin m ρ d) 0x00000000#32 reduces_S31x8x256_S8x256 (.inl rfl) rfl) y = _
  rw [ValueIdx.addf_apply, e1, e2]

/-- The result buffer at (8d + r, q) is the summed tile of `d` at (r, q). -/
private theorem Ofin_at {F : FTy → Type} [FloatOps F] (m : (ℓ : Loc nD τ sig) → Buf (Elt F) ℓ) (ρ : Dev nD → PrngReg)
    (d : Dev nD) (y : S8x256.Idx) (i : S256x256.Idx)
    (h0 : (i 0).val = 8 * d.val + (y 0).val) (h1 : (i 1).val = (y 1).val) :
    Ofin m ρ i = acc m ρ d y := by
  have hy : (y 0).val < 8 := (y 0).isLt
  have hd : (⟨(i 0).val / 8, row_dev i⟩ : Dev nD) = d := Fin.ext (by show (i 0).val / 8 = d.val; omega)
  have he : (oM.access (Rect.unit (s := S256x256) (k0_off3 d) S8x256.size (k0_off3_inb d))).emb y = i := by
    funext a; apply Fin.ext
    have hoff := k0_off3_eq d
    match a with
    | ⟨0, _⟩ => show (k0_off3 d) 0 + 1 * (y 0).val = (i 0).val; rw [hoff]; show 8 * d.val + 1 * (y 0).val = (i 0).val; omega
    | ⟨1, _⟩ => show (k0_off3 d) 1 + 1 * (y 1).val = (i 1).val; rw [hoff]; show 0 + 1 * (y 1).val = (i 1).val; omega
  have key := View.write_emb_of_mem (v := oM.access (Rect.unit (s := S256x256) (k0_off3 d) S8x256.size (k0_off3_inb d))) (Val := Elt F)
      (m ((d : Thread nD τ).loc cc0_stg1_0)) (acc m ρ d) (M := Finset.univ) (Finset.mem_univ y)
  rw [he] at key
  have gen : ∀ (d' : Dev nD), d' = d →
      ((oM.access (Rect.unit (s := S256x256) (k0_off3 d') S8x256.size (k0_off3_inb d'))).write (Elt F)
        (m ((d' : Thread nD τ).loc cc0_stg1_0)) (acc m ρ d') Finset.univ) i = acc m ρ d y := by
    intro d' hd'; subst hd'; exact key
  exact gen _ hd

/-! ## The value -/

/-- With every device's block of `x` its block of the whole array `x0`, the final contents of the result buffer
    are the reference's result on `x0`. -/
theorem Ofin_eq_ref (m : (ℓ : Loc nD τ sig) → Buf (Elt Ideal) ℓ) (ρ : Dev nD → PrngReg)
    (x0 : (⟨Cert.ReferenceIdeal.S32x256x256, .f32⟩ : BufTy).Contents (Elt Ideal))
    (hblk : ∀ c : Dev nD, m ((c.tc : Thread nD τ).loc main_arg0) = Layout.block ⟨3, ![1, 256, 256]⟩ ⟨3, ![32, 256, 256]⟩ 0 32 c x0) :
    Ofin (F := Ideal) m ρ = Cert.ReferenceIdeal.Read.val_main_v0 (F := Ideal) x0 := by
  funext i
  have hi0 : (i 0).val < 256 := (i 0).isLt
  have hi1 : (i 1).val < 256 := (i 1).isLt
  have hsplit : (i 0).val = 8 * ((i 0).val / 8) + (i 0).val % 8 := by omega
  -- the tile, the place inside the tile, and the place inside a device's block
  let d : Dev nD := ⟨(i 0).val / 8, row_dev i⟩
  let y : S8x256.Idx := ValueIdx.ix2 (⟨(i 0).val % 8, Nat.mod_lt _ (by decide)⟩ : Fin 8) (⟨(i 1).val, hi1⟩ : Fin 256)
  let j : S1x256x256.Idx := ValueIdx.ix3 (0 : Fin 1) (⟨(i 0).val, hi0⟩ : Fin 256) (⟨(i 1).val, hi1⟩ : Fin 256)
  have hO : Ofin (F := Ideal) m ρ i = acc (F := Ideal) m ρ d y := Ofin_at m ρ d y i hsplit rfl
  have hA := acc_at m ρ d y j rfl hsplit rfl
  have hXd : X m ρ d j = x0 (Cert.ReferenceIdeal.Read.idx_main_v0 i d) := X_at m ρ x0 hblk d j i rfl rfl
  have hP : ∀ k : Fin 31, P1fin m ρ d (ValueIdx.ix3 k (y 0) (y 1)) = x0 (Cert.ReferenceIdeal.Read.idx_main_v0 i (bwd d (k.val + 1))) := fun k =>
    (P1fin_at m ρ d (ValueIdx.ix3 k (y 0) (y 1)) y j rfl rfl rfl hsplit rfl).trans (X_at m ρ x0 hblk (bwd d (k.val + 1)) j i rfl rfl)
  rw [hO, hA, hXd, Cert.ReferenceIdeal.Read.val_main_v0_apply, Cert.ReferenceIdeal.Read.val_main_cst_apply]
  simp only [hP]
  show (show EReal from x0 (Cert.ReferenceIdeal.Read.idx_main_v0 i d)) + ∑ k : Fin 31, (show EReal from x0 (Cert.ReferenceIdeal.Read.idx_main_v0 i (bwd d (k.val + 1))))
      = Ideal.ofBits .f32 0x00000000#32 + ∑ k : Fin 32, x0 (Cert.ReferenceIdeal.Read.idx_main_v0 i k)
  rw [Ideal.ofBits_zero_f32, zero_add]
  exact sum_ring (fun k => x0 (Cert.ReferenceIdeal.Read.idx_main_v0 i k)) d

/-- info: 'Cert.KernelIdeal.TR.Ofin_eq_ref' depends on axioms: [propext, Classical.choice, Quot.sound] -/
#guard_msgs in #print axioms Ofin_eq_ref

end Cert.KernelIdeal.TR

end
-- ==== Proof.K.Proto.lean ====
/-
  Reduce-scatter then all-gather over 32 devices: the vocabulary of the protocol.

  Device `c` holds the block `x c` of 256 rows. Rows are cut into 32 tiles of 8; tile `j` of the
  result belongs to device `j`. Phase one: `c` sends tile `(c+o) mod 32` of its block to device
  `(c+o) mod 32`, which receives it in slot `o-1` of its landing buffer (o = 1..31). After all 31
  slots have landed a device adds its own tile to the sum of the slots: that is tile `c` of the
  sum over all devices. Phase two: `c` sends its summed tile to every other device's result buffer.
  Before any transfer a device signals every other device's barrier semaphore once and waits for 31.

  Cells (one per semaphore and device): the barrier cell, with 31 duties of one unit, duty `j` paid
  by device `(c+j+1) mod 32` and handing `c` the two places on that device its two transfers to it
  will write (slot `j` of its landing buffer, tile `c` of its result buffer); and four families of
  31 DMA cells with one duty each.
-/
import proofs.«901102_g7700000000001103_dist_treered_v7x_i32_m256_n256_f32_1_alg».proof.Proof.Gen.Kernel
import proofs.«901102_g7700000000001103_dist_treered_v7x_i32_m256_n256_f32_1_alg».proof.Proof.Gen.Kernel.Skeleton
import proofs.«901102_g7700000000001103_dist_treered_v7x_i32_m256_n256_f32_1_alg».proof.Proof.Gen.Kernel.Launch
import proofs.«901102_g7700000000001103_dist_treered_v7x_i32_m256_n256_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.TR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Fin 31`) -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Devices around the ring of 32 -/

/-- `o` places after `c`. -/
def fwd (c : Dev nD) (o : ℕ) : Dev nD := ⟨(c.val + o) % 32, Nat.mod_lt _ (by decide)⟩
/-- `o` places before `c`. -/
def bwd (c : Dev nD) (o : ℕ) : Dev nD := ⟨(c.val + (32 - o % 32)) % 32, Nat.mod_lt _ (by decide)⟩

/-! ## Buffers, semaphores, cells -/

abbrev xM : Memref sig .tc .vmem S1x256x256 .f32 := Memref.whole cc0_stg0_0
abbrev oM : Memref sig .tc .vmem S256x256 .f32 := Memref.whole cc0_stg1_0
abbrev pM : Memref sig .tc .vmem S31x8x256 .f32 := Memref.whole cc0_scratch0

abbrev barS : Sem sig := (SemArray.scalar (sig.barrier 0 rfl) : Sems sig S_).sem

theorem inb31 (k : ℕ) (hk : k < 31) : ∀ a, (![k] : Fin 1 → Nat) a + S1.size a ≤ S31.size a := by
  intro a; fin_cases a; show k + 1 ≤ 31; omega

/-- Entry `k` of a semaphore array of 31, as the kernel slices it. -/
abbrev semAt (A : DmaSems sig S31) (k : ℕ) (hk : k < 31) : DmaSem sig :=
  ((A.slice (Rect.unit (s := S31) ![k] S1.size (inb31 k hk))).squeeze S_ squeezes_S1_S_).sem

/-- The four families: 0 phase-one send, 1 phase-one receive, 2 phase-two send, 3 phase-two receive. -/
abbrev fam : Fin 4 → DmaSems sig S31 := fun | 0 => cc0_scratch1 | 1 => cc0_scratch2 | 2 => cc0_scratch3 | 3 => cc0_scratch4

abbrev dsem (a : Fin 4) (k : Fin 31) : DmaSem sig := semAt (fam a) k.val k.isLt

abbrev barCell (c : Dev nD) : GSem nD τ sig := ((c : Thread nD τ), .reg barS)
abbrev dCell (c : Dev nD) (a : Fin 4) (k : Fin 31) : GSem nD τ sig := ((c : Thread nD τ), .dma (dsem a k))

/-- Which cell a semaphore is: `none` not ours; `some none` the barrier; `some (some (a, k))` entry `k` of family `a`. -/
def kindOf : SemLoc sig → Option (Option (Fin 4 × Fin 31))
  | .reg s => if s = barS then some none else none
  | .dma q => if h : 2 ≤ q.val then
      some (some (⟨(q.val - 2) / 31, by have := q.isLt; change q.val < 126 at this; omega⟩, ⟨(q.val - 2) % 31, Nat.mod_lt _ (by decide)⟩))
    else none

/-! ## The views the kernel addresses, through the printed offset chains -/

/-- Slot `k` of the landing buffer. -/
theorem inbSlot (k : ℕ) (hk : k < 31) : ∀ a, (![k, 0, 0] : Fin 3 → Nat) a + S1x8x256.size a ≤ S31x8x256.size a := by
  intro a; fin_cases a
  · show k + 1 ≤ 31; omega
  · show 0 + 8 ≤ 8; omega
  · show 0 + 256 ≤ 256; omega

abbrev pSl (k : ℕ) (hk : k < 31) : Memref sig .tc .vmem S8x256 .f32 :=
  (pM.slice (Rect.unit (s := S31x8x256) ![k, 0, 0] S1x8x256.size (inbSlot k hk)) (fun _ => rfl)).squeeze S8x256 squeezes_S1x8x256_S8x256

/-- The tile of its block of `x` device `c` sends at offset `k+1`: the tile of device `fwd c (k+1)`. -/
abbrev xSl (c : Dev nD) (k : Fin 31) : Memref sig .tc .vmem S8x256 .f32 :=
  (xM.slice (Rect.unit (s := S1x256x256) (k0_off1 c (BitVec.ofNat 32 (1 + k.val))) S1x8x256.size (k0_off1_inb c k)) (fun _ => rfl)).squeeze S8x256 squeezes_S1x8x256_S8x256

/-- Device `c`'s own tile of a result buffer. -/
abbrev oSl (c : Dev nD) : Memref sig .tc .vmem S8x256 .f32 :=
  oM.slice (Rect.unit (s := S256x256) (k0_off4 c) S8x256.size (k0_off4_inb c)) (fun _ => rfl)

/-- The units one 8×256 transfer credits. -/
abbrev N : ℕ := (pSl 0 (by decide)).view.dmaCredit
theorem N_pos : 0 < N := View.dmaCredit_pos _ (by decide)

end Cert.Kernel.TR

end
-- ==== Proof.K.Sched.lean ====
/-
  The schedule: what every transfer lands, stated from the start as contents.

  `X c` is device `c`'s block of `x` as staged. `P1fin c` is the landing buffer of `c` once all 31
  phase-one transfers have landed: slot `k` holds tile `c` of the block of the device `k+1` places
  before `c`. `acc d` is device `d`'s tile of the sum: its own tile plus the sum of its 31 slots.
  `Ofin` is the result buffer once everything has landed: tile `d` holds `acc d`; it is the same
  function on every device.
-/
import proofs.«901102_g7700000000001103_dist_treered_v7x_i32_m256_n256_f32_1_alg».proof.Proof.K.Proto

noncomputable section

namespace Cert.Kernel.TR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Device `c`'s block of `x`, as its staging buffer holds it. -/
def X (c : Dev nD) : (cc0_stg0_0 : Ref sig .tc).ty.Contents (Elt F) :=
  (win0_0.blk (0 : Fin 1)).view.read (Elt F) ((s₀ m ρ).mem ((c : Thread nD τ).loc main_arg0))

/-- The landing buffer of `c` after phase one: at an index of slot `k`, what the transfer from the device
    `k+1` places before `c` writes there (its tile `c`). -/
def P1fin (c : Dev nD) : (cc0_scratch0 : Ref sig .tc).ty.Contents (Elt F) := fun (i : S31x8x256.Idx) =>
  ((pSl (i 0).val (i 0).isLt).view.write (Elt F) (m ((c : Thread nD τ).loc cc0_scratch0))
    ((xSl (bwd c ((i 0).val + 1)) ⟨(i 0).val, (i 0).isLt⟩).view.read (Elt F) (X m ρ (bwd c ((i 0).val + 1)))) Finset.univ) i

/-- Device `d`'s tile of the sum: its own tile of its block plus the sum of its 31 landed slots. -/
def acc (d : Dev nD) : FVec F S8x256 .f32 :=
  k0_pay1 (xM.view.readAt (Elt F) (Rect.unit (s := S1x256x256) (k0_off2 d) S1x8x256.size (k0_off2_inb d)).toLoadRect (X m ρ d)) (P1fin m ρ d)

theorem row_dev (i : S256x256.Idx) : (i 0).val / 8 < nD := by
  have h : (i 0).val < 256 := (i 0).isLt
  show (i 0).val / 8 < 32; omega

/-- The result buffer after phase two: at an index of tile `d`, what `d`'s store of `acc d` writes there. -/
def Ofin : (cc0_stg1_0 : Ref sig .tc).ty.Contents (Elt F) := fun (i : S256x256.Idx) =>
  ((oM.access (Rect.unit (s := S256x256) (k0_off3 (⟨(i 0).val / 8, row_dev i⟩ : Dev nD)) S8x256.size (k0_off3_inb _))).write (Elt F)
    (m (((⟨(i 0).val / 8, row_dev i⟩ : Dev nD) : Thread nD τ).loc cc0_stg1_0)) (acc m ρ ⟨(i 0).val / 8, row_dev i⟩) Finset.univ) i

/-! ## Shares of the summed tile: 31 transfers read it at once -/

/-- What is left of the full share after `n` left halves have been given away. -/
def rsh : ℕ → PosShare TreeShare
  | 0 => fullShare
  | n + 1 => (rsh n).right

/-! ## Payloads -/

/-- A view's elements on device `c` at share `q` and contents `f`. -/
abbrev pts (c : Dev nD) (v : Memref sig .tc .vmem S8x256 .f32) (q : PosShare TreeShare) (f : Buf (Elt F) (v.view.loc (c : Thread nD τ))) : sProp 𝕄 :=
  v.view.loc (c : Thread nD τ) ↦[v.view.set]{q} f

/-- Duty `j` of `c`'s barrier cell, paid by `p = fwd c (j+1)`: slot `j` of `p`'s landing buffer and tile `c` of `p`'s
    result buffer, at any contents, and that `p` has reached round 0 of the two cells those transfers credit. -/
def barPay (c : Dev nD) (j : Fin 31) : sProp 𝕄 :=
  iprop((∃ f, pts (fwd c (j.val + 1)) (pSl j.val j.isLt) fullShare f) ∗ (∃ f, pts (fwd c (j.val + 1)) (oSl c) fullShare f)
    ∗ reached ER (dCell (fwd c (j.val + 1)) 1 j) 0 ∗ reached ER (dCell (fwd c (j.val + 1)) 3 j) 0)

/-- What a DMA cell's one duty hands its owner. -/
def dmaPay (c : Dev nD) (a : Fin 4) (k : Fin 31) : sProp 𝕄 :=
  match a with
  | 0 => pts c (xSl c k) fullShare (X m ρ c)
  | 1 => pts c (pSl k.val k.isLt) fullShare (P1fin m ρ c)
  | 2 => pts c (oSl c) (rsh k.val).left (Ofin m ρ)
  | 3 => pts c (oSl (bwd c (k.val + 1))) fullShare (Ofin m ρ)

/-- One round, round 0: the barrier cell's 31 duties of one unit; each DMA cell's duty `0` of one transfer's credit. -/
def rd : Rounds.Schedule (GSem nD τ sig) (Fin 31) 𝕄 where
  duties g r := if r = 0 ∧ g.1.2 = .tc then (match kindOf g.2 with | some none => Finset.univ | some (some _) => {0} | none => ∅) else ∅
  unitless _ := False
  amount g _ _ := match kindOf g.2 with | some none => 1 | _ => N
  payload g _ d := match kindOf g.2 with
    | some none => barPay g.1.1 d
    | some (some (a, k)) => dmaPay m ρ g.1.1 a k
    | none => iprop(emp)
  amount_pos g _ _ _ := by
    cases kindOf g.2 with
    | none => exact N_pos
    | some o => cases o with
      | none => exact Nat.one_pos
      | some _ => exact N_pos

instance rd_payload_storable (g : GSem nD τ sig) (r : ℕ) (d : Fin 31) :
    BI.Storable (upEmb : UEmb _ 𝕄) ((rd (F := F) m ρ).payload g r d) := by
  show BI.Storable upEmb (match kindOf g.2 with
    | some none => barPay g.1.1 d
    | some (some (a, k)) => dmaPay m ρ g.1.1 a k
    | none => iprop(emp))
  cases kindOf g.2 with
  | none => infer_instance
  | some o => cases o with
    | none => unfold barPay; infer_instance
    | some ak =>
      obtain ⟨a, k⟩ := ak
      show BI.Storable upEmb (dmaPay m ρ g.1.1 a k)
      unfold dmaPay
      fin_cases a <;> infer_instance

/-! ## What a device owes, in the order it pays: 31 signals, 31 phase-one arrivals, 31 phase-two arrivals -/

def tally (c : Dev nD) (n : ℕ) : CellTallies nD τ sig Unit :=
  if h : n < 31 then tallyAt (barCell (fwd c (n + 1))) () 1
  else if h : n < 62 then tallyAt (dCell (fwd c (n - 31 + 1)) 1 ⟨n - 31, by omega⟩) () N
  else if h : n < 93 then tallyAt (dCell (fwd c (n - 62 + 1)) 3 ⟨n - 62, by omega⟩) () N
  else 0

/-- Still owed after the first `n` payments. -/
def owedFrom (c : Dev nD) (n : ℕ) : CellTallies nD τ sig Unit := ((List.range' n (93 - n)).map (tally c)).sum

def O₀ (c : Dev nD) : CellTallies nD τ sig Unit := owedFrom c 0

/-! ## Levels: barrier cells below phase-one receive cells below phase-two receive cells -/

def L (g : GSem nD τ sig) : Finset Unit := if g.1.2 = .tc then {()} else ∅
def lv (g : GSem nD τ sig) (_ : Unit) : ℕ :=
  match kindOf g.2 with
  | some none => 1
  | some (some (a, _)) => if a = 1 then 2 else if a = 3 then 3 else 0
  | none => 0

end Cert.Kernel.TR

end
-- ==== Proof.K.Body.lean ====
/-
  What one device's body starts from and what it leaves: the statement of the body obligation.

  Every device is handed every cell's invariant and the fact that every cell has reached round 0
  (both persistent), its position at the start of its own 125 cells, and the one-shot tokens of the
  duties it pays: its 31 signals (duty `30-k` of the barrier cell of the device `k+1` places after
  it), and per offset `k` its phase-one send and the matching arrival, its phase-two send and the
  matching arrival.
-/
import proofs.«901102_g7700000000001103_dist_treered_v7x_i32_m256_n256_f32_1_alg».proof.Proof.K.Sched

noncomputable section

namespace Cert.Kernel.TR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All the protocol's cells, indexed -/

/-- A cell of a device: `none` its barrier cell, `some (a, k)` entry `k` of DMA family `a`. -/
abbrev Cl : Type := Dev nD × Option (Fin 4 × Fin 31)
abbrev csem : Option (Fin 4 × Fin 31) → SemLoc sig
  | none => .reg barS
  | some (a, k) => .dma (dsem a k)
abbrev kcell (x : Cl) : GSem nD τ sig := ((x.1 : Thread nD τ), csem x.2)

/-- Every cell's invariant under the names `K`, and that every cell has reached round 0. -/
def records (K : Cl → ℕ) : sProp 𝕄 :=
  iprop((bigSep Finset.univ fun x : Cl => cellInv ER (rd m ρ) (K x) (kcell x))
    ∗ bigSep Finset.univ fun x : Cl => reached ER (kcell x) 0)

instance records_persistent (K : Cl → ℕ) : BI.Persistent (records m ρ K) := by unfold records; infer_instance

/-- Device `c`'s positions: at the start of round 0 of each of its own cells. -/
def positions (c : Dev nD) : sProp 𝕄 :=
  iprop(atPos ER (barCell c) 0 ∅ 0
    ∗ bigSep Finset.univ fun a : Fin 4 => bigSep Finset.univ fun k : Fin 31 => atPos ER (dCell c a k) 0 ∅ 0)

/-- The tokens of the duties device `c` pays. -/
def payToks (c : Dev nD) : sProp 𝕄 :=
  iprop((bigSep Finset.univ fun k : Fin 31 => dutyTok ER (barCell (fwd c (k.val + 1))) 0 (⟨30 - k.val, by omega⟩ : Fin 31))
    ∗ (bigSep Finset.univ fun k : Fin 31 => iprop(dutyTok ER (dCell c 0 k) 0 (0 : Fin 31) ∗ dutyTok ER (dCell (fwd c (k.val + 1)) 1 k) 0 (0 : Fin 31)))
    ∗ (bigSep Finset.univ fun k : Fin 31 => iprop(dutyTok ER (dCell c 2 k) 0 (0 : Fin 31) ∗ dutyTok ER (dCell (fwd c (k.val + 1)) 3 k) 0 (0 : Fin 31))))

def ghost (K : Cl → ℕ) (c : Dev nD) : sProp 𝕄 := iprop(records m ρ K ∗ positions c ∗ payToks c)

/-- What device `c`'s body starts from: the ghost state at some names, the credit of what the others owe its cells
    (31 units on its barrier, one transfer's credit on each receive cell), and the level facts. -/
def start (c : Dev nD) : sProp 𝕄 :=
  iprop((∃ K, ghost m ρ K c) ∗ cred (tallyAt (barCell c) () 31)
    ∗ (bigSep Finset.univ fun k : Fin 31 => cred (tallyAt (dCell c 1 k) () N))
    ∗ (bigSep Finset.univ fun k : Fin 31 => cred (tallyAt (dCell c 3 k) () N))
    ∗ levAts L lv)

def Φ₀ (c : Dev nD) : sProp 𝕄 :=
  iprop(start m ρ c ∗ ∃ f : Buf (Elt F) ((c : Thread nD τ).loc cc0_scratch0), ((c : Thread nD τ).loc cc0_scratch0) ↦{fullShare} f)

/-- After the body: the landing buffer holding the 31 tiles, and the 124 own DMA cells closed at zero. -/
def Φ₁ (c : Dev nD) : sProp 𝕄 :=
  iprop((((c : Thread nD τ).loc cc0_scratch0) ↦{fullShare} P1fin m ρ c)
    ∗ bigSep Finset.univ fun a : Fin 4 => bigSep Finset.univ fun k : Fin 31 => semVal (dCell c a k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => Ofin m ρ
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (X m ρ c) ∗ stg c cc0_stg1_0 (Ofin m ρ))

end Cert.Kernel.TR

end
-- ==== Proof.K.Tables.lean ====
/-
  The schedule's tables: which semaphore is which cell, each cell's duties, amounts, expected units and
  payloads in round 0, what a device still owes after each payment, and that every wait is at a level
  below everything the waiter still owes.
-/
import proofs.«901102_g7700000000001103_dist_treered_v7x_i32_m256_n256_f32_1_alg».proof.Proof.K.Sched

noncomputable section

namespace Cert.Kernel.TR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which semaphore is which cell -/

/-- Entry `k` of 31 consecutive semaphores from `base` is semaphore `base + k`: the slice at offset `k` of
    size one, squeezed to rank zero, names the row-major position `k`. -/
private theorem semAt_consecutive_val (base : ℕ) (h : base + S31.numel ≤ sig.nDmaSem) (k : ℕ) (hk : k < 31) :
    (semAt (SemArray.consecutive base S31 h) k hk).val = base + k := by
  show base + (S31.rowMajor _).val = base + k
  rw [Shape.rowMajor_val_one, Rect.emb_apply]
  show base + (k + 1 * _) = base + k
  have key : ∀ (n : ℕ) (j : Fin n), n = 1 → k + 1 * j.val = k := by
    intro n j hn
    have := j.isLt
    omega
  exact congrArg (base + ·) (key _ _ rfl)

private theorem fam_eq (a : Fin 4) : ∃ h, fam a = SemArray.consecutive (2 + 31 * a.val) S31 h := by
  fin_cases a <;> exact ⟨_, rfl⟩

theorem dsem_val (a : Fin 4) (k : Fin 31) : (dsem a k).val = 2 + 31 * a.val + k.val := by
  obtain ⟨h, e⟩ := fam_eq a
  show (semAt (fam a) k.val k.isLt).val = 2 + 31 * a.val + k.val
  rw [e]
  exact semAt_consecutive_val _ h k.val k.isLt

theorem kindOf_bar : kindOf (.reg barS : SemLoc sig) = some none := by
  show (if (barS : Sem sig) = barS then (some none : Option (Option (Fin 4 × Fin 31))) else none) = some none
  exact if_pos rfl

/-- A DMA semaphore at position `2 + 31 a + k` of the pool is entry `k` of family `a`. -/
private theorem kindOf_dma_of (q : DmaSem sig) (a : Fin 4) (k : Fin 31) (hq : q.val = 2 + 31 * a.val + k.val) :
    kindOf (.dma q : SemLoc sig) = some (some (a, k)) := by
  have hk := k.isLt
  have h2 : 2 ≤ q.val := by omega
  simp only [kindOf, dif_pos h2]
  refine congrArg some (congrArg some (Prod.ext (Fin.ext ?_) (Fin.ext ?_)))
  · show (q.val - 2) / 31 = a.val; omega
  · show (q.val - 2) % 31 = k.val; omega

theorem kindOf_dma (a : Fin 4) (k : Fin 31) : kindOf (.dma (dsem a k) : SemLoc sig) = some (some (a, k)) :=
  kindOf_dma_of _ a k (dsem_val a k)

theorem dsem_injective : Function.Injective (fun ak : Fin 4 × Fin 31 => dsem ak.1 ak.2) := by
  rintro ⟨a, k⟩ ⟨a', k'⟩ h
  have hv : (dsem a k).val = (dsem a' k').val := congrArg Fin.val h
  rw [dsem_val, dsem_val] at hv
  have hk := k.isLt
  have hk' := k'.isLt
  exact Prod.ext (Fin.ext (by show a.val = a'.val; omega)) (Fin.ext (by show k.val = k'.val; omega))

/-- The pipeline's two staging semaphores are none of the protocol's. -/
theorem kindOf_stage (q : DmaSem sig) (hq : q.val < 2) : kindOf (.dma q : SemLoc sig) = none := by
  simp only [kindOf]
  exact dif_neg (by omega)

/-! ## Round 0 of each cell -/

theorem duties_bar (c : Dev nD) : (rd (F := F) m ρ).duties (barCell c) 0 = Finset.univ := by
  dsimp only [rd]
  rw [if_pos ⟨rfl, rfl⟩, kindOf_bar]

theorem duties_dma (c : Dev nD) (a : Fin 4) (k : Fin 31) : (rd (F := F) m ρ).duties (dCell c a k) 0 = {0} := by
  dsimp only [rd]
  rw [if_pos ⟨rfl, rfl⟩, kindOf_dma]

theorem duties_later (g : GSem nD τ sig) : ∀ r, 1 ≤ r → (rd (F := F) m ρ).duties g r = ∅ := by
  intro r hr
  dsimp only [rd]
  exact if_neg (fun h => by have := h.1; omega)

theorem amount_bar (c : Dev nD) (d : Fin 31) : (rd (F := F) m ρ).amount (barCell c) 0 d = 1 := by
  dsimp only [rd]
  rw [kindOf_bar]

theorem amount_dma (c : Dev nD) (a : Fin 4) (k : Fin 31) (d : Fin 31) : (rd (F := F) m ρ).amount (dCell c a k) 0 d = N := by
  dsimp only [rd]
  rw [kindOf_dma]

theorem expect_bar (c : Dev nD) : (rd (F := F) m ρ).expect (barCell c) 0 = 31 := by
  show ∑ d ∈ (rd (F := F) m ρ).duties (barCell c) 0, (rd (F := F) m ρ).amount (barCell c) 0 d = 31
  rw [duties_bar, Finset.sum_congr rfl (fun d _ => amount_bar m ρ c d), Finset.sum_const, Finset.card_univ, Fintype.card_fin,
    smul_eq_mul, mul_one]

theorem expect_dma (c : Dev nD) (a : Fin 4) (k : Fin 31) : (rd (F := F) m ρ).expect (dCell c a k) 0 = N := by
  show ∑ d ∈ (rd (F := F) m ρ).duties (dCell c a k) 0, (rd (F := F) m ρ).amount (dCell c a k) 0 d = N
  rw [duties_dma, Finset.sum_singleton, amount_dma]

theorem payload_bar (c : Dev nD) (j : Fin 31) : (rd (F := F) m ρ).payload (barCell c) 0 j = barPay c j := by
  dsimp only [rd]
  rw [kindOf_bar]

theorem payload_dma (c : Dev nD) (a : Fin 4) (k : Fin 31) (d : Fin 31) : (rd (F := F) m ρ).payload (dCell c a k) 0 d = dmaPay m ρ c a k := by
  dsimp only [rd]
  rw [kindOf_dma]

/-- The rest of the barrier cell's round, no duty taken: the 31 payloads. -/
theorem rest_bar (c : Dev nD) :
    bigSep ((rd (F := F) m ρ).duties (barCell c) 0 \ ∅) (fun d => (rd (F := F) m ρ).payload (barCell c) 0 d) = bigSep Finset.univ (fun j : Fin 31 => barPay (F := F) c j) := by
  rw [Finset.sdiff_empty, duties_bar]
  exact bigSep_congr fun j _ => payload_bar m ρ c j

theorem rest_dma (c : Dev nD) (a : Fin 4) (k : Fin 31) :
    bigSep ((rd (F := F) m ρ).duties (dCell c a k) 0 \ ∅) (fun d => (rd (F := F) m ρ).payload (dCell c a k) 0 d) = dmaPay m ρ c a k := by
  rw [Finset.sdiff_empty, duties_dma, bigSep_singleton, payload_dma]

/-! ## What is still owed -/

theorem owedFrom_succ (c : Dev nD) (n : ℕ) (hn : n < 93) : owedFrom c n = owedFrom c (n + 1) + tally c n := by
  unfold owedFrom
  have e : 93 - n = (93 - (n + 1)) + 1 := by omega
  rw [e, List.range'_succ, List.map_cons, List.sum_cons, add_comm]

theorem owedFrom_end (c : Dev nD) : owedFrom c 93 = 0 := rfl

theorem tally_sig (c : Dev nD) (k : Fin 31) : tally c k.val = tallyAt (barCell (fwd c (k.val + 1))) () 1 := by
  unfold tally
  rw [dif_pos k.isLt]

theorem tally_p1 (c : Dev nD) (k : Fin 31) : tally c (31 + k.val) = tallyAt (dCell (fwd c (k.val + 1)) 1 k) () N := by
  have hk := k.isLt
  unfold tally
  rw [dif_neg (by omega), dif_pos (by omega)]
  simp only [Nat.add_sub_cancel_left]

theorem tally_p2 (c : Dev nD) (k : Fin 31) : tally c (62 + k.val) = tallyAt (dCell (fwd c (k.val + 1)) 3 k) () N := by
  have hk := k.isLt
  unfold tally
  rw [dif_neg (by omega), dif_neg (by omega), dif_pos (by omega)]
  simp only [Nat.add_sub_cancel_left]

/-! ## Levels -/

theorem L_of_ne (g : GSem nD τ sig) (h : g.1.2 ≠ .tc) : L g = ∅ := if_neg h
theorem L_tc (c : Dev nD) (sm : SemLoc sig) : L ((c : Thread nD τ), sm) = {()} := if_pos rfl

private theorem lv_bar (d : Dev nD) (u : Unit) : lv (barCell d) u = 1 := by
  simp only [lv, kindOf_bar]

private theorem lv_dma (d : Dev nD) (a : Fin 4) (k : Fin 31) (u : Unit) :
    lv (dCell d a k) u = if a = 1 then 2 else if a = 3 then 3 else 0 := by
  simp only [lv, kindOf_dma]

private theorem lv_stage (d : Dev nD) (q : DmaSem sig) (hq : q.val < 2) (u : Unit) : lv ((d : Thread nD τ), .dma q) u = 0 := by
  simp only [lv, kindOf_stage q hq]

/-- A positive entry of a sum of tallies over a list is a positive entry of one summand. -/
private theorem list_sum_pos {l : List ℕ} {f : ℕ → CellTallies nD τ sig Unit} {g : GSem nD τ sig} {u : Unit}
    (h : 0 < ((l.map f).sum) g u) : ∃ x ∈ l, 0 < f x g u := by
  induction l with
  | nil => exact absurd h (Nat.lt_irrefl 0)
  | cons a l ih =>
    rw [List.map_cons, List.sum_cons] at h
    rcases Pipeline.add_pos_cases h with h | h
    · exact ⟨a, List.mem_cons_self, h⟩
    · obtain ⟨x, hx, hx'⟩ := ih h
      exact ⟨x, List.mem_cons_of_mem _ hx, hx'⟩

/-- The cell the `i`-th payment goes to: a barrier cell for the 31 signals, a phase-one receive cell for the next 31,
    a phase-two receive cell for the last 31. -/
private theorem tally_pos {c : Dev nD} {i : ℕ} {g : GSem nD τ sig} {u : Unit} (h : 0 < tally c i g u) :
    (i < 31 ∧ ∃ d : Dev nD, g = barCell d) ∨ (¬ i < 31 ∧ i < 62 ∧ ∃ (d : Dev nD) (k : Fin 31), g = dCell d 1 k)
      ∨ (¬ i < 62 ∧ ∃ (d : Dev nD) (k : Fin 31), g = dCell d 3 k) := by
  unfold tally at h
  by_cases h1 : i < 31
  · rw [dif_pos h1] at h
    exact Or.inl ⟨h1, _, (Pipeline.tallyAt_pos h).1⟩
  · rw [dif_neg h1] at h
    by_cases h2 : i < 62
    · rw [dif_pos h2] at h
      exact Or.inr (Or.inl ⟨h1, h2, _, _, (Pipeline.tallyAt_pos h).1⟩)
    · rw [dif_neg h2] at h
      by_cases h3 : i < 93
      · rw [dif_pos h3] at h
        exact Or.inr (Or.inr ⟨h2, _, _, (Pipeline.tallyAt_pos h).1⟩)
      · rw [dif_neg h3] at h
        exact absurd h (Nat.lt_irrefl 0)

/-- What is still owed after `n` payments goes to barrier cells only while signals remain (`n < 31`), to phase-one
    receive cells only while phase-one arrivals remain (`n < 62`), and else to phase-two receive cells. -/
private theorem owedFrom_pos {c : Dev nD} {n : ℕ} {g : GSem nD τ sig} {u : Unit} (h : 0 < owedFrom c n g u) :
    (n < 31 ∧ ∃ d : Dev nD, g = barCell d) ∨ (n < 62 ∧ ∃ (d : Dev nD) (k : Fin 31), g = dCell d 1 k)
      ∨ (∃ (d : Dev nD) (k : Fin 31), g = dCell d 3 k) := by
  unfold owedFrom at h
  obtain ⟨i, hi, hpos⟩ := list_sum_pos h
  rw [List.mem_range'_1] at hi
  rcases tally_pos hpos with ⟨h1, d, e⟩ | ⟨h1, h2, d, k, e⟩ | ⟨h2, d, k, e⟩
  · exact Or.inl ⟨by omega, d, e⟩
  · exact Or.inr (Or.inl ⟨by omega, d, k, e⟩)
  · exact Or.inr (Or.inr ⟨d, k, e⟩)

/-- At its barrier wait a device owes only arrivals on receive cells, all above the barrier cells. -/
theorem mayWait_bar (c : Dev nD) :
    (levAts L lv : sProp 𝕄) ⊢ MayWait (c : Thread nD τ) (.reg barS) () (owedFrom c 31) :=
  MayOwe.of_cut (L := L) (lev := lv) 1
    (fun p hp => by rw [Finset.mem_singleton.mp hp, L_tc]; exact Finset.mem_singleton_self _)
    (fun g u hg => by
      rcases owedFrom_pos hg with ⟨h, _⟩ | ⟨_, d, k, rfl⟩ | ⟨d, k, rfl⟩
      · exact absurd h (by decide)
      · rw [L_tc]; exact Finset.mem_singleton_self _
      · rw [L_tc]; exact Finset.mem_singleton_self _)
    (fun p hp => by
      rw [Finset.mem_singleton.mp hp]
      show lv (barCell c) () ≤ 1
      rw [lv_bar])
    (fun g u hg => by
      rcases owedFrom_pos hg with ⟨h, _⟩ | ⟨_, d, k, rfl⟩ | ⟨d, k, rfl⟩
      · exact absurd h (by decide)
      · rw [lv_dma]; decide
      · rw [lv_dma]; decide)

/-- At a phase-one receive wait it owes only phase-two arrivals. -/
theorem mayWait_p1 (c : Dev nD) (k : Fin 31) :
    (levAts L lv : sProp 𝕄) ⊢ MayWait (c : Thread nD τ) (.dma (dsem 1 k)) () (owedFrom c 62) :=
  MayOwe.of_cut (L := L) (lev := lv) 2
    (fun p hp => by rw [Finset.mem_singleton.mp hp, L_tc]; exact Finset.mem_singleton_self _)
    (fun g u hg => by
      rcases owedFrom_pos hg with ⟨h, _⟩ | ⟨h, _⟩ | ⟨d, k', rfl⟩
      · exact absurd h (by decide)
      · exact absurd h (by decide)
      · rw [L_tc]; exact Finset.mem_singleton_self _)
    (fun p hp => by
      rw [Finset.mem_singleton.mp hp]
      show lv (dCell c 1 k) () ≤ 2
      rw [lv_dma]; decide)
    (fun g u hg => by
      rcases owedFrom_pos hg with ⟨h, _⟩ | ⟨h, _⟩ | ⟨d, k', rfl⟩
      · exact absurd h (by decide)
      · exact absurd h (by decide)
      · rw [lv_dma]; decide)

/-- The pipeline's own staging waits sit below everything. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        have hg' : 0 < owedFrom c 0 g u := hg
        rcases owedFrom_pos hg' with ⟨_, d, rfl⟩ | ⟨_, d, k, rfl⟩ | ⟨d, k, rfl⟩ <;>
          (rw [L_tc]; exact Finset.mem_singleton_self _))
      (fun p hp => by
        rw [Finset.mem_singleton.mp hp]
        show lv ((c : Thread nD τ), .dma q) () ≤ 0
        rw [lv_stage c q hq])
      (fun g u hg => by
        have hg' : 0 < owedFrom c 0 g u := hg
        rcases owedFrom_pos hg' with ⟨_, d, rfl⟩ | ⟨_, d, k, rfl⟩ | ⟨d, k, rfl⟩
        · rw [lv_bar]; decide
        · rw [lv_dma]; decide
        · rw [lv_dma]; decide)
  · rw [MayWait_zero]; iintro -; iempintro

/-- info: 'Cert.Kernel.TR.mayWait_stage' depends on axioms: [propext, Classical.choice, Quot.sound] -/
#guard_msgs in #print axioms mayWait_stage

end Cert.Kernel.TR

end
-- ==== Proof.K.Tiles.lean ====
/-
  Tiles: the three buffers cut into the pieces the protocol hands around, and what a landing writes.

  The staging buffer of `x` is its own tile and the 31 tiles it sends; the result buffer is its own tile
  and the 31 tiles it receives; the landing buffer is its 31 slots. A transfer's landing writes, on the
  destination's elements, exactly what the schedule names there, whatever stood there before.
-/
import proofs.«901102_g7700000000001103_dist_treered_v7x_i32_m256_n256_f32_1_alg».proof.Proof.K.Sched

noncomputable section

namespace Cert.Kernel.TR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Around the ring -/

theorem fwd_ne (c : Dev nD) (k : Fin 31) : fwd c (k.val + 1) ≠ c := by
  intro h
  have hv := congrArg Fin.val h
  have hc : c.val < 32 := c.isLt
  have hk : k.val < 31 := k.isLt
  simp only [fwd] at hv
  omega
/-- The device `k+1` places after `c` finds `c` at `31-k` places after itself. -/
theorem fwd_fwd (c : Dev nD) (k : Fin 31) : fwd (fwd c (k.val + 1)) (30 - k.val + 1) = c := by
  have hc : c.val < 32 := c.isLt
  have hk : k.val < 31 := k.isLt
  apply Fin.ext
  simp only [fwd]
  omega
theorem bwd_fwd (c : Dev nD) (k : Fin 31) : bwd (fwd c (k.val + 1)) (k.val + 1) = c := by
  have hc : c.val < 32 := c.isLt
  have hk : k.val < 31 := k.isLt
  apply Fin.ext
  simp only [fwd, bwd]
  omega
theorem fwd_bwd (c : Dev nD) (k : Fin 31) : fwd (bwd c (k.val + 1)) (k.val + 1) = c := by
  have hc : c.val < 32 := c.isLt
  have hk : k.val < 31 := k.isLt
  apply Fin.ext
  simp only [fwd, bwd]
  omega
theorem bwd_eq_fwd (c : Dev nD) (k : Fin 31) : bwd c (k.val + 1) = fwd c (30 - k.val + 1) := by
  have hc : c.val < 32 := c.isLt
  have hk : k.val < 31 := k.isLt
  apply Fin.ext
  simp only [fwd, bwd]
  omega

/-! ## The own tiles, as the kernel's loads and store address them -/

/-- Device `c`'s own tile of its block of `x`, through the load's rectangle. -/
abbrev xOwnSet (c : Dev nD) : Finset (Idx ((c : Thread nD τ).loc cc0_stg0_0)) :=
  (xM.access (Rect.unit (s := S1x256x256) (k0_off2 c) S1x8x256.size (k0_off2_inb c))).set

theorem xOwn_load_sub (c : Dev nD) :
    xM.view.setOn (Rect.unit (s := S1x256x256) (k0_off2 c) S1x8x256.size (k0_off2_inb c)).toLoadRect.set ⊆ xOwnSet c := by
  exact (View.set_slice xM.view _).symm.subset
theorem oOwn_load_sub (c : Dev nD) :
    oM.view.setOn (Rect.unit (s := S256x256) (k0_off3 c) S8x256.size (k0_off3_inb c)).toLoadRect.set ⊆ (oSl c).view.set := by
  rw [Rect.unit_congr ((k0_off3_eq c).trans (k0_off4_eq c).symm) (k0_off3_inb c) (k0_off4_inb c)]
  exact (View.set_slice oM.view _).symm.subset
theorem oOwn_store_sub (c : Dev nD) :
    (oM.access (Rect.unit (s := S256x256) (k0_off3 c) S8x256.size (k0_off3_inb c))).setOn Finset.univ ⊆ (oSl c).view.set := by
  rw [Rect.unit_congr ((k0_off3_eq c).trans (k0_off4_eq c).symm) (k0_off3_inb c) (k0_off4_inb c)]
  exact Finset.Subset.refl _

/-! ## Which elements a tile holds: by the block of eight rows (or the slot) of the element -/

private theorem mem_xOwn (c : Dev nD) (i : S1x256x256.Idx) : i ∈ xOwnSet c ↔ (i 1).val / 8 = c.val := by
  have hc : c.val < 32 := c.isLt
  have h0 : (i 0).val < 1 := (i 0).isLt
  have h1 : (i 1).val < 256 := (i 1).isLt
  have h2 : (i 2).val < 256 := (i 2).isLt
  have hs : xOwnSet c = (Rect.unit (s := S1x256x256) (k0_off2 c) S1x8x256.size (k0_off2_inb c)).set :=
    View.set_slice_whole _ _
  rw [hs, Rect.mem_set_unit, k0_off2_eq]
  constructor
  · intro h
    have h' := h 1
    change 8 * c.val ≤ (i 1).val ∧ (i 1).val < 8 * c.val + 8 at h'
    omega
  · intro h a
    fin_cases a
    · show 0 ≤ (i 0).val ∧ (i 0).val < 0 + 1; omega
    · show 8 * c.val ≤ (i 1).val ∧ (i 1).val < 8 * c.val + 8; omega
    · show 0 ≤ (i 2).val ∧ (i 2).val < 0 + 256; omega

private theorem mem_xSl (c : Dev nD) (k : Fin 31) (i : S1x256x256.Idx) :
    i ∈ (xSl c k).view.set ↔ (i 1).val / 8 = (c.val + k.val + 1) % 32 := by
  have hc : c.val < 32 := c.isLt
  have hk : k.val < 31 := k.isLt
  have h0 : (i 0).val < 1 := (i 0).isLt
  have h1 : (i 1).val < 256 := (i 1).isLt
  have h2 : (i 2).val < 256 := (i 2).isLt
  have hs : (xSl c k).view.set
      = (Rect.unit (s := S1x256x256) (k0_off1 c (BitVec.ofNat 32 (1 + k.val))) S1x8x256.size (k0_off1_inb c k)).set :=
    (View.set_reshape _ _).trans (View.set_slice_whole _ _)
  rw [hs, Rect.mem_set_unit, k0_off1_eq]
  constructor
  · intro h
    have h' := h 1
    change 8 * ((c.val + k.val + 1) % 32) ≤ (i 1).val ∧ (i 1).val < 8 * ((c.val + k.val + 1) % 32) + 8 at h'
    omega
  · intro h a
    fin_cases a
    · show 0 ≤ (i 0).val ∧ (i 0).val < 0 + 1; omega
    · show 8 * ((c.val + k.val + 1) % 32) ≤ (i 1).val ∧ (i 1).val < 8 * ((c.val + k.val + 1) % 32) + 8; omega
    · show 0 ≤ (i 2).val ∧ (i 2).val < 0 + 256; omega

private theorem mem_oSl (d : Dev nD) (i : S256x256.Idx) : i ∈ (oSl d).view.set ↔ (i 0).val / 8 = d.val := by
  have hd : d.val < 32 := d.isLt
  have h0 : (i 0).val < 256 := (i 0).isLt
  have h1 : (i 1).val < 256 := (i 1).isLt
  have hs : (oSl d).view.set = (Rect.unit (s := S256x256) (k0_off4 d) S8x256.size (k0_off4_inb d)).set :=
    View.set_slice_whole _ _
  rw [hs, Rect.mem_set_unit, k0_off4_eq]
  constructor
  · intro h
    have h' := h 0
    change 8 * d.val ≤ (i 0).val ∧ (i 0).val < 8 * d.val + 8 at h'
    omega
  · intro h a
    fin_cases a
    · show 8 * d.val ≤ (i 0).val ∧ (i 0).val < 8 * d.val + 8; omega
    · show 0 ≤ (i 1).val ∧ (i 1).val < 0 + 256; omega

private theorem mem_pSl (k : ℕ) (hk : k < 31) (i : S31x8x256.Idx) : i ∈ (pSl k hk).view.set ↔ (i 0).val = k := by
  have h0 : (i 0).val < 31 := (i 0).isLt
  have h1 : (i 1).val < 8 := (i 1).isLt
  have h2 : (i 2).val < 256 := (i 2).isLt
  have hs : (pSl k hk).view.set = (Rect.unit (s := S31x8x256) ![k, 0, 0] S1x8x256.size (inbSlot k hk)).set :=
    (View.set_reshape _ _).trans (View.set_slice_whole _ _)
  rw [hs, Rect.mem_set_unit]
  constructor
  · intro h
    have h' := h 0
    change k ≤ (i 0).val ∧ (i 0).val < k + 1 at h'
    omega
  · intro h a
    fin_cases a
    · show k ≤ (i 0).val ∧ (i 0).val < k + 1; omega
    · show 0 ≤ (i 1).val ∧ (i 1).val < 0 + 8; omega
    · show 0 ≤ (i 2).val ∧ (i 2).val < 0 + 256; omega

/-- Tile `d` of device `c`'s result buffer, as a set of that buffer's elements. -/
private abbrev oTile (c d : Dev nD) : Finset (Idx ((c : Thread nD τ).loc cc0_stg1_0)) := (oSl d).view.set

/-- A buffer whose elements fall into classes, each element in exactly one, is the separating
    conjunction of its classes. -/
private theorem pointsTo_parts {ℓ : Loc nD τ sig} {T : Type} [Fintype T] [DecidableEq T] (K : T → Finset (Idx ℓ))
    (hcov : ∀ i, ∃ t, i ∈ K t) (hdis : ∀ t t' i, i ∈ K t → i ∈ K t' → t = t')
    (q : PosShare TreeShare) (f : Buf (Elt F) ℓ) :
    ((ℓ ↦{q} f) : sProp 𝕄) = bigSep Finset.univ fun t => ℓ ↦[K t]{q} f := by
  have hU : (Finset.univ : Finset (Idx ℓ)) = Finset.univ.biUnion K := by
    ext i
    simp only [Finset.mem_univ, Finset.mem_biUnion, true_and, true_iff]
    exact hcov i
  rw [hU]
  exact pointsTo_biUnion _ _ fun t _ t' _ hne => Finset.disjoint_left.mpr fun i hi hi' => hne (hdis t t' i hi hi')

private theorem biEntails_of_eq {P Q : sProp 𝕄} (h : P = Q) : P ⊣⊢ Q := ⟨Entails.of_eq h, Entails.of_eq h.symm⟩

private theorem bigSep_option {J : Type} [Fintype J] [DecidableEq J] (Φ : Option J → sProp 𝕄) :
    bigSep Finset.univ Φ = iprop(Φ none ∗ bigSep Finset.univ fun j => Φ (some j)) := by
  have h : (Finset.univ : Finset (Option J)) = insert none (Finset.univ.map Function.Embedding.some) := by
    ext o; cases o <;> simp
  rw [h, bigSep_insert (by simp), bigSep_map]
  rfl

/-! ## The buffers cut into tiles -/

/-- Tile `d` of device `c`'s result buffer at share `q` and contents `f`. -/
abbrev oPts (c d : Dev nD) (q : PosShare TreeShare) (f : Buf (Elt F) ((c : Thread nD τ).loc cc0_stg1_0)) : sProp 𝕄 := pts c (oSl d) q f

theorem xSplit (c : Dev nD) (f : Buf (Elt F) ((c : Thread nD τ).loc cc0_stg0_0)) :
    ((((c : Thread nD τ).loc cc0_stg0_0) ↦{fullShare} f) : sProp 𝕄)
      ⊣⊢ iprop((((c : Thread nD τ).loc cc0_stg0_0) ↦[xOwnSet c]{fullShare} f) ∗ bigSep Finset.univ fun k : Fin 31 => pts c (xSl c k) fullShare f) := by
  have hc : c.val < 32 := c.isLt
  refine biEntails_of_eq ?_
  rw [pointsTo_parts (ℓ := (c : Thread nD τ).loc cc0_stg0_0) (T := Option (Fin 31))
    (fun o => match o with | none => xOwnSet c | some k => (xSl c k).view.set) ?_ ?_ fullShare f, bigSep_option]
  · intro i
    have h1 : ((i : S1x256x256.Idx) 1).val < 256 := (i 1).isLt
    by_cases hd : ((i : S1x256x256.Idx) 1).val / 8 = c.val
    · exact ⟨none, (mem_xOwn c i).mpr hd⟩
    · refine ⟨some ⟨(((i : S1x256x256.Idx) 1).val / 8 + 31 - c.val) % 32, by omega⟩, (mem_xSl c _ i).mpr ?_⟩
      show _ = (c.val + ((((i : S1x256x256.Idx) 1).val / 8 + 31 - c.val) % 32) + 1) % 32
      omega
  · rintro (_ | k) (_ | k') i h h'
    · rfl
    · have e := (mem_xOwn c i).mp h; have e' := (mem_xSl c k' i).mp h'; have := k'.isLt; omega
    · have e := (mem_xSl c k i).mp h; have e' := (mem_xOwn c i).mp h'; have := k.isLt; omega
    · have e := (mem_xSl c k i).mp h; have e' := (mem_xSl c k' i).mp h'; have := k.isLt; have := k'.isLt
      exact congrArg some (Fin.ext (by omega))

theorem oSplit (c : Dev nD) (f : Buf (Elt F) ((c : Thread nD τ).loc cc0_stg1_0)) :
    ((((c : Thread nD τ).loc cc0_stg1_0) ↦{fullShare} f) : sProp 𝕄)
      ⊣⊢ iprop(pts c (oSl c) fullShare f ∗ bigSep Finset.univ fun k : Fin 31 => oPts c (fwd c (k.val + 1)) fullShare f) := by
  have hc : c.val < 32 := c.isLt
  let dv : Option (Fin 31) → Dev nD := fun o => match o with | none => c | some k => fwd c (k.val + 1)
  have hn : (dv none).val = c.val := rfl
  have hs : ∀ k : Fin 31, (dv (some k)).val = (c.val + (k.val + 1)) % 32 := fun _ => rfl
  have hparts := pointsTo_parts (F := F) (ℓ := (c : Thread nD τ).loc cc0_stg1_0) (T := Option (Fin 31))
    (fun o => oTile c (dv o))
    (by
      intro i
      have h0 : ((i : S256x256.Idx) 0).val < 256 := (i 0).isLt
      by_cases hd : ((i : S256x256.Idx) 0).val / 8 = c.val
      · exact ⟨none, (mem_oSl (dv none) i).mpr (hd.trans hn.symm)⟩
      · have hlt : (((i : S256x256.Idx) 0).val / 8 + 31 - c.val) % 32 < 31 := by omega
        refine ⟨some ⟨_, hlt⟩, (mem_oSl (dv (some ⟨_, hlt⟩)) i).mpr ?_⟩
        rw [hs]
        show _ = (c.val + ((((i : S256x256.Idx) 0).val / 8 + 31 - c.val) % 32 + 1)) % 32
        omega)
    (by
      rintro (_ | k) (_ | k') i h h'
      · rfl
      · have e := (mem_oSl (dv none) i).mp h; have e' := (mem_oSl (dv (some k')) i).mp h'
        rw [hn] at e; rw [hs] at e'; have := k'.isLt; omega
      · have e := (mem_oSl (dv (some k)) i).mp h; have e' := (mem_oSl (dv none) i).mp h'
        rw [hs] at e; rw [hn] at e'; have := k.isLt; omega
      · have e := (mem_oSl (dv (some k)) i).mp h; have e' := (mem_oSl (dv (some k')) i).mp h'
        rw [hs] at e e'; have := k.isLt; have := k'.isLt
        exact congrArg some (Fin.ext (by omega)))
    fullShare f
  refine biEntails_of_eq ?_
  rw [hparts, bigSep_option]

theorem pSplit (c : Dev nD) (f : Buf (Elt F) ((c : Thread nD τ).loc cc0_scratch0)) :
    ((((c : Thread nD τ).loc cc0_scratch0) ↦{fullShare} f) : sProp 𝕄)
      ⊣⊢ bigSep Finset.univ fun k : Fin 31 => pts c (pSl k.val k.isLt) fullShare f := by
  refine biEntails_of_eq ?_
  exact pointsTo_parts (ℓ := (c : Thread nD τ).loc cc0_scratch0) (T := Fin 31)
    (fun k => (pSl k.val k.isLt).view.set)
    (fun i => ⟨(i : S31x8x256.Idx) 0, (mem_pSl _ _ i).mpr rfl⟩)
    (fun k k' i h h' => Fin.ext (((mem_pSl _ _ i).mp h).symm.trans ((mem_pSl _ _ i).mp h')))
    fullShare f

/-! ## Shares of one tile -/

theorem rsh_split (c : Dev nD) (v : Memref sig .tc .vmem S8x256 .f32) (n : ℕ) (f : Buf (Elt F) (v.view.loc (c : Thread nD τ))) :
    (pts c v (rsh n) f : sProp 𝕄) ⊣⊢ iprop(pts c v (rsh n).left f ∗ pts c v (rsh (n + 1)) f) :=
  pointsTo_share (IsOp.posShare_halves (rsh n)).mem_op

/-! ## What lands -/

/-- A write through slot `j` at an element of slot `k`, the two being the same slot. -/
private theorem P1fin_slot (c' : Dev nD) (j k : Fin 31) (hj : j = k)
    (g : Buf (Elt F) ((c' : Thread nD τ).loc cc0_scratch0)) (y : S8x256.Idx) :
    ((pSl j.val j.isLt).view.write (Elt F) g
        ((xSl (bwd c' (j.val + 1)) ⟨j.val, j.isLt⟩).view.read (Elt F) (X m ρ (bwd c' (j.val + 1)))) Finset.univ)
      ((pSl k.val k.isLt).view.emb y)
    = cast (congrArg (Elt F) (pSl k.val k.isLt).view.elt_eq.symm)
        ((xSl (bwd c' (k.val + 1)) k).view.read (Elt F) (X m ρ (bwd c' (k.val + 1))) y) := by
  subst hj
  exact View.write_emb_of_mem _ _ (Finset.mem_univ y)

/-- The schedule's landing buffer at an element of slot `k`: the tile of the device `k+1` places before. -/
private theorem P1fin_at (c' : Dev nD) (k : Fin 31) (y : S8x256.Idx) :
    P1fin m ρ c' ((pSl k.val k.isLt).view.emb y)
      = cast (congrArg (Elt F) (pSl k.val k.isLt).view.elt_eq.symm)
          ((xSl (bwd c' (k.val + 1)) k).view.read (Elt F) (X m ρ (bwd c' (k.val + 1))) y) := by
  have hj : ((pSl k.val k.isLt).view.emb y : S31x8x256.Idx) 0 = k :=
    Fin.ext ((mem_pSl k.val k.isLt _).mp ((pSl k.val k.isLt).view.emb_mem_set y))
  exact P1fin_slot m ρ c' _ k hj _ y

/-- A store of device `d`'s summed tile at an element of tile `c`, the two being the same device. -/
private theorem Ofin_tile (d c : Dev nD) (h : d = c) (g : Buf (Elt F) ((d : Thread nD τ).loc cc0_stg1_0))
    (y : (Rect.unit (s := S256x256) (k0_off3 c) S8x256.size (k0_off3_inb c)).shape.Idx) :
    ((oM.access (Rect.unit (s := S256x256) (k0_off3 d) S8x256.size (k0_off3_inb d))).write (Elt F) g (acc m ρ d) Finset.univ)
      ((oM.access (Rect.unit (s := S256x256) (k0_off3 c) S8x256.size (k0_off3_inb c))).emb y)
    = cast (congrArg (Elt F) (oM.access (Rect.unit (s := S256x256) (k0_off3 c) S8x256.size (k0_off3_inb c))).elt_eq.symm)
        (acc m ρ c y) := by
  subst h
  exact View.write_emb_of_mem _ _ (Finset.mem_univ y)

/-- Phase one: `c`'s transfer at offset `k+1` leaves slot `k` of the destination at the schedule's contents. -/
theorem land1 (c : Dev nD) (k : Fin 31) (fd : Buf (Elt F) ((pSl k.val k.isLt).view.loc ((fwd c (k.val + 1)) : Thread nD τ))) :
    (pts (fwd c (k.val + 1)) (pSl k.val k.isLt) fullShare
        ((pSl k.val k.isLt).view.write (Elt F) fd ((xSl c k).view.read (Elt F) (X m ρ c)) Finset.univ) : sProp 𝕄)
      = pts (fwd c (k.val + 1)) (pSl k.val k.isLt) fullShare (P1fin m ρ (fwd c (k.val + 1))) := by
  apply pointsTo_congr
  intro i hi
  obtain ⟨y, -, rfl⟩ := Finset.mem_map.mp hi
  rw [View.write_emb_of_mem _ _ (Finset.mem_univ y)]
  refine Eq.trans ?_ (P1fin_at m ρ (fwd c (k.val + 1)) k y).symm
  rw [bwd_fwd]

/-- Phase two: `c`'s transfer of its summed tile leaves tile `c` of the destination at the final contents. -/
theorem land2 (c d : Dev nD) (fd : Buf (Elt F) ((oSl c).view.loc (d : Thread nD τ))) :
    (pts d (oSl c) fullShare ((oSl c).view.write (Elt F) fd ((oSl c).view.read (Elt F) (Ofin m ρ)) Finset.univ) : sProp 𝕄)
      = pts d (oSl c) fullShare (Ofin m ρ) := by
  apply pointsTo_congr
  intro i hi
  obtain ⟨y, -, rfl⟩ := Finset.mem_map.mp hi
  rw [View.write_emb_of_mem _ _ (Finset.mem_univ y), View.read_apply, cast_cast, cast_eq]

/-- The store of the summed tile leaves the own tile at the final contents. -/
theorem store_own (c : Dev nD) (f : Buf (Elt F) ((c : Thread nD τ).loc cc0_stg1_0)) :
    (((oM.access (Rect.unit (s := S256x256) (k0_off3 c) S8x256.size (k0_off3_inb c))).loc (c : Thread nD τ)
        ↦[(oSl c).view.set]{fullShare}
        ((oM.access (Rect.unit (s := S256x256) (k0_off3 c) S8x256.size (k0_off3_inb c))).write (Elt F) f (acc m ρ c) Finset.univ)) : sProp 𝕄)
      = pts c (oSl c) fullShare (Ofin m ρ) := by
  apply pointsTo_congr
  intro i hi
  have hd : (⟨((i : S256x256.Idx) 0).val / 8, row_dev i⟩ : Dev nD) = c := Fin.ext ((mem_oSl c i).mp hi)
  have hi' : i ∈ (oM.access (Rect.unit (s := S256x256) (k0_off3 c) S8x256.size (k0_off3_inb c))).set := by
    rw [Rect.unit_congr ((k0_off3_eq c).trans (k0_off4_eq c).symm) (k0_off3_inb c) (k0_off4_inb c)]
    exact hi
  obtain ⟨y, -, rfl⟩ := Finset.mem_map.mp hi'
  rw [View.write_emb_of_mem _ _ (Finset.mem_univ y)]
  exact (Ofin_tile m ρ _ c hd _ y).symm

/-- The load of the whole landing buffer reads its contents. -/
theorem read_p (f : (cc0_scratch0 : Ref sig .tc).ty.Contents (Elt F)) :
    pM.view.readAt (Elt F) (Rect.unit (s := S31x8x256) ![0, 0, 0] S31x8x256.size inb_S31x8x256_S31x8x256_0_0_0).toLoadRect f = f :=
  Memref.readAt_unit_zero (Elt F) cc0_scratch0 (by funext a; fin_cases a <;> rfl) inb_S31x8x256_S31x8x256_0_0_0 f

/-- info: 'Cert.Kernel.TR.read_p' depends on axioms: [propext, Classical.choice, Quot.sound] -/
#guard_msgs in #print axioms read_p

end Cert.Kernel.TR

end
-- ==== Proof.K.Steps.lean ====
/-
  One rule per kind of remote statement of the body, at a symbolic device and offset.

  Signal `k` (to the device `k+1` places on) pays duty `30-k` of that device's barrier cell with the two
  places of the signaller that device's transfers will write. The barrier wait takes the 31 payloads.
  Transfer `k` of phase one lends tile `fwd c (k+1)` of `x` and writes slot `k` on the device `k+1` places on;
  transfer `k` of phase two lends a share of the summed tile and writes tile `c` there. Each wait on a
  DMA cell is for the rest of its one-duty round.
-/
import proofs.«901102_g7700000000001103_dist_treered_v7x_i32_m256_n256_f32_1_alg».proof.Proof.K.Body
import proofs.«901102_g7700000000001103_dist_treered_v7x_i32_m256_n256_f32_1_alg».proof.Proof.K.Tables
import proofs.«901102_g7700000000001103_dist_treered_v7x_i32_m256_n256_f32_1_alg».proof.Proof.K.Tiles
import proofs.«901102_g7700000000001103_dist_treered_v7x_i32_m256_n256_f32_1_alg».proof.Proof.Attr

noncomputable section

namespace Cert.Kernel.TR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Lean in
/-- `forK k in [a:b] do tacs`: the tactic block once per numeral `k = a, …, b-1`, in order. -/
macro "forK " x:ident " in " "[" a:num ":" b:num "]" " do " t:tacticSeq : tactic => do
  let mut acc : Array (TSyntax `tactic) := #[]
  for i in [a.getNat : b.getNat] do
    let lit := Syntax.mkNumLit (toString i)
    let t' ← t.raw.replaceM fun s => pure (if s.isIdent && s.getId == x.getId then some lit.raw else none)
    acc := acc.push (← `(tactic| ($(⟨t'⟩))))
  `(tactic| ($[$acc]*))

open Lean Elab Command in
/-- The printed device chains in closed form: chain `n` (1..93) names the device `((n-1) % 31) + 1` places after `c`. -/
elab "gen_dev_eqs" : command => do
  for n in [1:94] do
    let o := (n - 1) % 31 + 1
    let nm := mkIdent (Name.mkSimple s!"dev{n}_eq")
    let kd := mkIdent (Name.mkSimple s!"k0_dev{n}")
    let kdlt := mkIdent (Name.mkSimple s!"k0_dev{n}_lt")
    let kdeq := mkIdent (Name.mkSimple s!"k0_dev{n}_eq")
    let olit := Syntax.mkNumLit (toString o)
    elabCommand (← `(theorem $nm (c : Dev nD) : (⟨$kd c, $kdlt c⟩ : Dev nD) = fwd c $olit := Fin.ext ($kdeq c)))
    elabCommand (← `(attribute [tr_dev] $nm))

gen_dev_eqs

/-! ## Out of the records -/

theorem inv_at (K : Cl → ℕ) (x : Cl) :
    (bigSep Finset.univ fun x : Cl => (cellInv ER (rd m ρ) (K x) (kcell x) : sProp 𝕄)) ⊢ cellInv ER (rd m ρ) (K x) (kcell x) :=
  bigSep_elim (Finset.mem_univ x)
theorem reached_at (x : Cl) :
    (bigSep Finset.univ fun x : Cl => (reached ER (kcell x) 0 : sProp 𝕄)) ⊢ reached ER (kcell x) 0 :=
  bigSep_elim (Finset.mem_univ x)

/-! ## The signals -/

/-- Signal `k` pays duty `30 - k`. -/
abbrev rv (k : Fin 31) : Fin 31 := ⟨30 - k.val, by omega⟩

/-- What signal `k` takes from the signaller: the duty's token and the two places the receiver's transfers will write. -/
def sigRes (c : Dev nD) (k : Fin 31) : sProp 𝕄 :=
  iprop(dutyTok ER (barCell (fwd c (k.val + 1))) 0 (rv k)
    ∗ (∃ f, pts c (pSl (rv k).val (rv k).isLt) fullShare f) ∗ (∃ f, oPts c (fwd c (k.val + 1)) fullShare f))

/-- The payload of the duty `c` pays on the barrier cell of the device `k+1` places on, spelt at `c`. -/
theorem barPay_at (c : Dev nD) (k : Fin 31) :
    (barPay (F := F) (fwd c (k.val + 1)) (rv k))
      = iprop((∃ f, pts c (pSl (rv k).val (rv k).isLt) fullShare f) ∗ (∃ f, oPts c (fwd c (k.val + 1)) fullShare f)
          ∗ reached ER (dCell c 1 (rv k)) 0 ∗ reached ER (dCell c 3 (rv k)) 0) := by
  have h : fwd (fwd c (k.val + 1)) ((rv k).val + 1) = c := fwd_fwd c k
  unfold barPay
  revert h
  generalize fwd (fwd c (k.val + 1)) ((rv k).val + 1) = d
  rintro rfl
  rfl

theorem step_sig (K : Cl → ℕ) (c : Dev nD) (k : Fin 31) (dst : Dev nD) (hdst : dst = fwd c (k.val + 1)) {k' : ℕ} (hk' : k' = 1)
    {W : Waits sig Unit} {α : Type} {Q : α → sProp 𝕄} {kont : PUnit → Prog (TpuEff nD τ sig (Elt F) Λ₀ .tc) α} :
    iprop(records m ρ K ∗ sigRes c k ∗ owes (c : Thread nD τ) (owedFrom c k.val) W)
      ⊢ iprop((owes (c : Thread nD τ) (owedFrom c (k.val + 1)) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal (dst : Thread nD τ) barS k') kont) Q) := by
  subst hdst; subst hk'
  unfold records sigRes
  iintro ⟨⟨#HI, #HR⟩, ⟨Htok, Hp, Ho⟩, HO⟩
  iapply (Rounds.wp_signal 𝒱₀ ER (rd m ρ) (c : Thread nD τ) none (dst := (fwd c (k.val + 1) : Thread nD τ)) (κ := K (fwd c (k.val + 1), none))
      (d := (rv k)) (by rw [duties_bar]; exact Finset.mem_univ _) (amount_bar m ρ _ _) () (owedFrom c (k.val + 1))
      ((owedFrom_succ c k.val (by omega)).trans (by rw [tally_sig]))) $$ [HO Htok Hp Ho]
  · isplitr; · iapply (inv_at m ρ K (fwd c (k.val + 1), none)); iexact HI
    isplitl [HO]; · iexact HO
    isplitl [Htok]; · iexact Htok
    isplitl [Hp Ho]
    · rw [payload_bar, barPay_at]
      isplitl [Hp]; · iexact Hp
      isplitl [Ho]; · iexact Ho
      isplitr; · iapply (reached_at (F := F) (c, some (1, (rv k)))); iexact HR
      iapply (reached_at (F := F) (c, some (3, (rv k)))); iexact HR
    · iapply (reached_at (F := F) (fwd c (k.val + 1), none)); iexact HR

/-! ## The waits -/

/-- The barrier wait, for the whole of its round: the 31 payloads come with it. -/
theorem step_barwait (K : Cl → ℕ) (c : Dev nD) {k' : ℕ} (hk' : k' = 31)
    {W : Waits sig Unit} {α : Type} {Q : α → sProp 𝕄} {kont : PUnit → Prog (TpuEff nD τ sig (Elt F) Λ₀ .tc) α} :
    iprop(records m ρ K ∗ cred (tallyAt (barCell c) () 31) ∗ owes (c : Thread nD τ) (owedFrom c 31) W ∗ levAts L lv ∗ atPos ER (barCell c) 0 ∅ 0)
      ⊢ iprop(((owes (c : Thread nD τ) (owedFrom c 31) (insert (SemLoc.reg barS, ()) W) ∗ atPos ER (barCell c) 1 ∅ 0
              ∗ bigSep Finset.univ (fun j : Fin 31 => barPay (F := F) c j))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS k') kont) Q) := by
  subst hk'
  unfold records
  iintro ⟨⟨#HI, #HR⟩, Hc, HO, #Hlev, Hat⟩ Hk
  iapply (Rounds.wp_wait_rest_token 𝒱₀ ER (rd m ρ) (c : Thread nD τ) none (κ := K (c, none))
      (wpE_semWait_eq 𝒱₀ (c : Thread nD τ) none Set.univ) (Set.mem_univ _) () (O := owedFrom c 31) (W := W) (R := 0) (m := 0) (T := ∅)
      (by rw [expect_bar])) $$ [Hc HO Hat]
  · isplitr; · iapply (inv_at m ρ K (c, none)); iexact HI
    isplitl [Hc]; · iexact Hc
    isplitl [HO]; · iexact HO
    isplitr; · iapply (mayWait_bar c); iexact Hlev
    iexact Hat
  iintro ⟨HO, Hat, -, Hpay⟩
  iapply Hk
  isplitl [HO]; · iexact HO
  isplitl [Hat]; · iexact Hat
  iapply (Entails.of_eq (rest_bar m ρ c)); iexact Hpay

/-- A wait on a DMA cell of the device's own, for the rest of its one-duty round: the duty's payload comes with it. -/
theorem step_dmawait (K : Cl → ℕ) (c : Dev nD) (a : Fin 4) (k : Fin 31) (O : CellTallies nD τ sig Unit)
    (hmw : (levAts L lv : sProp 𝕄) ⊢ MayWait (c : Thread nD τ) (.dma (dsem a k)) () O)
    {sem : DmaSem sig} (hsem : sem = dsem a k)
    {sp sp' : Space} {s s' : Shape} {e e' : EltTy} {src : Memref sig .tc sp' s' e'} {dst : Memref sig .tc sp s e}
    {hsrc : src.view.WordExact} {hdst : dst.view.WordExact} (hN : dst.view.dmaCredit = N)
    {W : Waits sig Unit} {α : Type} {Q : α → sProp 𝕄} {kont : PUnit → Prog (TpuEff nD τ sig (Elt F) Λ₀ .tc) α} :
    iprop(records m ρ K ∗ cred (tallyAt (dCell c a k) () N) ∗ owes (c : Thread nD τ) O W ∗ levAts L lv ∗ atPos ER (dCell c a k) 0 ∅ 0)
      ⊢ iprop(((owes (c : Thread nD τ) O (insert (SemLoc.dma (dsem a k), ()) W) ∗ atPos ER (dCell c a k) 1 ∅ 0 ∗ dmaPay m ρ c a k)
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 sem src dst hsrc hdst) kont) Q) := by
  subst hsem
  unfold records
  iintro ⟨⟨#HI, #HR⟩, Hc, HO, #Hlev, Hat⟩ Hk
  iapply (Rounds.wp_wait_rest_token 𝒱₀ ER (rd m ρ) (c : Thread nD τ) none (κ := K (c, some (a, k)))
      (wpE_waitDma2_eq 𝒱₀ (c : Thread nD τ) none Set.univ) (Set.mem_univ _) () (O := O) (W := W) (R := 0) (m := 0) (T := ∅)
      (by rw [Nat.zero_add, expect_dma, hN])) $$ [Hc HO Hat]
  · isplitr; · iapply (inv_at m ρ K (c, some (a, k))); iexact HI
    isplitl [Hc]; · rw [hN]; iexact Hc
    isplitl [HO]; · iexact HO
    isplitr; · iapply hmw; iexact Hlev
    iexact Hat
  iintro ⟨HO, Hat, -, Hpay⟩
  iapply Hk
  isplitl [HO]; · iexact HO
  isplitl [Hat]; · iexact Hat
  iapply (Entails.of_eq (rest_dma m ρ c a k)); iexact Hpay

/-! ## The transfers -/

/-- Transfer `k` of phase one. -/
theorem step_send1 (K : Cl → ℕ) (c : Dev nD) (k : Fin 31) (dst : Dev nD) (hdst : dst = fwd c (k.val + 1))
    {hsc : (pSl k.val k.isLt : Memref sig (Dev.tc dst : Thread nD τ).2.kind .vmem S8x256 .f32).view.ref.isScScratch = false}
    {hsrc : (xSl c k).view.WordExact} {hdstE : (pSl k.val k.isLt).view.WordExact}
    {hsem : DmaTarget.Typed .vmem (.dma (dsem 1 k)) (.remote (Dev.tc dst : Thread nD τ) (pSl k.val k.isLt) (.dma (dsem 0 k)) hsc)}
    (fd : Buf (Elt F) ((pSl k.val k.isLt).view.loc ((fwd c (k.val + 1)) : Thread nD τ)))
    {W : Waits sig Unit} {α : Type} {Q : α → sProp 𝕄} {kont : PUnit → Prog (TpuEff nD τ sig (Elt F) Λ₀ .tc) α} :
    iprop(records m ρ K ∗ pts c (xSl c k) fullShare (X m ρ c) ∗ pts (fwd c (k.val + 1)) (pSl k.val k.isLt) fullShare fd
        ∗ owes (c : Thread nD τ) (owedFrom c (31 + k.val)) W
        ∗ dutyTok ER (dCell c 0 k) 0 (0 : Fin 31) ∗ dutyTok ER (dCell (fwd c (k.val + 1)) 1 k) 0 (0 : Fin 31))
      ⊢ iprop(((cred (tallyAt (dCell c 0 k) () N) ∗ owes (c : Thread nD τ) (owedFrom c (31 + k.val + 1)) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (xSl c k) (.remote (Dev.tc dst : Thread nD τ) (pSl k.val k.isLt) (.dma (dsem 0 k)) hsc) (.dma (dsem 1 k)) hsrc hdstE hsem) kont) Q) := by
  subst hdst
  unfold records
  iintro ⟨⟨#HI, #HR⟩, Hsrc, Hdst, HO, Ht0, Ht1⟩
  iapply (Rounds.wp_send_pointsTo 𝒱₀ ER (rd m ρ) (c : Thread nD τ) none (κ₁ := K (c, some (0, k))) (κ₂ := K (fwd c (k.val + 1), some (1, k)))
      (r₁ := 0) (r₂ := 0) (d₁ := (0 : Fin 31)) (d₂ := (0 : Fin 31)) (fd := fd) (src := xSl c k) (dst := pSl k.val k.isLt) (q := fullShare) (fs := X m ρ c)
      (c' := (fwd c (k.val + 1) : Thread nD τ))
      (by rw [duties_dma]; exact Finset.mem_singleton_self _) (by rw [duties_dma]; exact Finset.mem_singleton_self _)
      () () N rfl (amount_dma m ρ c 0 k 0) (amount_dma m ρ (fwd c (k.val + 1)) 1 k 0) (owedFrom c (31 + k.val + 1))
      ((owedFrom_succ c (31 + k.val) (by omega)).trans (by rw [tally_p1])) (W := W)
      (by rw [payload_dma]; exact BI.Entails.refl _)
      (by rw [payload_dma]; exact Entails.of_eq (land1 m ρ c k fd))) $$ [Hsrc Hdst HO Ht0 Ht1]
  isplitr; · iapply (inv_at m ρ K (c, some (0, k))); iexact HI
  isplitr; · iapply (inv_at m ρ K (fwd c (k.val + 1), some (1, k))); iexact HI
  isplitl [Hsrc]; · iexact Hsrc
  isplitl [Hdst]; · iexact Hdst
  isplitl [HO]; · iexact HO
  isplitl [Ht0]; · iexact Ht0
  isplitr; · iapply (reached_at (F := F) (c, some (0, k))); iexact HR
  isplitl [Ht1]; · iexact Ht1
  iapply (reached_at (F := F) (fwd c (k.val + 1), some (1, k))); iexact HR

/-- The payload of the phase-two arrival `c` pays on the device `k+1` places on, spelt at `c`: tile `c` there. -/
theorem dmaPay3_at (c : Dev nD) (k : Fin 31) :
    dmaPay m ρ (fwd c (k.val + 1)) 3 k = pts (fwd c (k.val + 1)) (oSl c) fullShare (Ofin m ρ) := by
  have hb : bwd (fwd c (k.val + 1)) (k.val + 1) = c := bwd_fwd c k
  show pts (fwd c (k.val + 1)) (oSl (bwd (fwd c (k.val + 1)) (k.val + 1))) fullShare (Ofin m ρ) = _
  revert hb
  generalize bwd (fwd c (k.val + 1)) (k.val + 1) = d
  rintro rfl
  rfl

/-- Transfer `k` of phase two: it reads the summed tile at the `k`-th left half of its share. -/
theorem step_send2 (K : Cl → ℕ) (c : Dev nD) (k : Fin 31) (dst : Dev nD) (hdst : dst = fwd c (k.val + 1))
    {hsc : (oSl c : Memref sig (Dev.tc dst : Thread nD τ).2.kind .vmem S8x256 .f32).view.ref.isScScratch = false}
    {hsrc : (oSl c).view.WordExact} {hdstE : (oSl c).view.WordExact}
    {hsem : DmaTarget.Typed .vmem (.dma (dsem 3 k)) (.remote (Dev.tc dst : Thread nD τ) (oSl c) (.dma (dsem 2 k)) hsc)}
    (fd : Buf (Elt F) ((oSl c).view.loc ((fwd c (k.val + 1)) : Thread nD τ)))
    {W : Waits sig Unit} {α : Type} {Q : α → sProp 𝕄} {kont : PUnit → Prog (TpuEff nD τ sig (Elt F) Λ₀ .tc) α} :
    iprop(records m ρ K ∗ pts c (oSl c) (rsh k.val).left (Ofin m ρ) ∗ pts (fwd c (k.val + 1)) (oSl c) fullShare fd
        ∗ owes (c : Thread nD τ) (owedFrom c (62 + k.val)) W
        ∗ dutyTok ER (dCell c 2 k) 0 (0 : Fin 31) ∗ dutyTok ER (dCell (fwd c (k.val + 1)) 3 k) 0 (0 : Fin 31))
      ⊢ iprop(((cred (tallyAt (dCell c 2 k) () N) ∗ owes (c : Thread nD τ) (owedFrom c (62 + k.val + 1)) W)
            -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (oSl c) (.remote (Dev.tc dst : Thread nD τ) (oSl c) (.dma (dsem 2 k)) hsc) (.dma (dsem 3 k)) hsrc hdstE hsem) kont) Q) := by
  subst hdst
  unfold records
  iintro ⟨⟨#HI, #HR⟩, Hsrc, Hdst, HO, Ht0, Ht1⟩
  iapply (Rounds.wp_send_pointsTo 𝒱₀ ER (rd m ρ) (c : Thread nD τ) none (κ₁ := K (c, some (2, k))) (κ₂ := K (fwd c (k.val + 1), some (3, k)))
      (r₁ := 0) (r₂ := 0) (d₁ := (0 : Fin 31)) (d₂ := (0 : Fin 31)) (fd := fd) (src := oSl c) (dst := oSl c) (q := (rsh k.val).left) (fs := Ofin m ρ)
      (c' := (fwd c (k.val + 1) : Thread nD τ))
      (by rw [duties_dma]; exact Finset.mem_singleton_self _) (by rw [duties_dma]; exact Finset.mem_singleton_self _)
      () () N rfl (amount_dma m ρ c 2 k 0) (amount_dma m ρ (fwd c (k.val + 1)) 3 k 0) (owedFrom c (62 + k.val + 1))
      ((owedFrom_succ c (62 + k.val) (by omega)).trans (by rw [tally_p2])) (W := W)
      (by rw [payload_dma]; exact BI.Entails.refl _)
      (by rw [payload_dma, dmaPay3_at]; exact Entails.of_eq (land2 m ρ c (fwd c (k.val + 1)) fd))) $$ [Hsrc Hdst HO Ht0 Ht1]
  isplitr; · iapply (inv_at m ρ K (c, some (2, k))); iexact HI
  isplitr; · iapply (inv_at m ρ K (fwd c (k.val + 1), some (3, k))); iexact HI
  isplitl [Hsrc]; · iexact Hsrc
  isplitl [Hdst]; · iexact Hdst
  isplitl [HO]; · iexact HO
  isplitl [Ht0]; · iexact Ht0
  isplitr; · iapply (reached_at (F := F) (c, some (2, k))); iexact HR
  isplitl [Ht1]; · iexact Ht1
  iapply (reached_at (F := F) (fwd c (k.val + 1), some (3, k))); iexact HR

end Cert.Kernel.TR

end
-- ==== Proof.K.Rejoin.lean ====
/-
  The end of a device's body: each own DMA cell closed at zero, the 31 shares of the summed tile joined, and the
  result buffer whole again from its own tile and the 31 tiles received.
-/
import proofs.«901102_g7700000000001103_dist_treered_v7x_i32_m256_n256_f32_1_alg».proof.Proof.K.Body
import proofs.«901102_g7700000000001103_dist_treered_v7x_i32_m256_n256_f32_1_alg».proof.Proof.K.Tables
import proofs.«901102_g7700000000001103_dist_treered_v7x_i32_m256_n256_f32_1_alg».proof.Proof.K.Tiles

noncomputable section

namespace Cert.Kernel.TR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A DMA cell of the device's own, its one round consumed, closes: its counter is back at zero. -/
theorem close_dma (K : Cl → ℕ) (c : Dev nD) (a : Fin 4) (k : Fin 31) :
    iprop(records m ρ K ∗ atPos ER (dCell c a k) 1 ∅ 0) ⊢ (iprop(|={Set.univ}=> semVal (dCell c a k) 0) : sProp 𝕄) := by
  have hinv : (records m ρ K : sProp 𝕄) ⊢ cellInv ER (rd m ρ) (K (c, some (a, k))) (dCell c a k) := by
    have h1 : (bigSep Finset.univ (fun x : Cl => cellInv ER (rd m ρ) (K x) (kcell x)) : sProp 𝕄)
        ⊢ cellInv ER (rd m ρ) (K (c, some (a, k))) (dCell c a k) :=
      bigSep_elim (Finset.mem_univ ((c, some (a, k)) : Cl))
    unfold records
    iintro ⟨H, -⟩
    iapply h1
    iexact H
  iintro ⟨Hrec, Hat⟩
  iapply (Rounds.cell_close ER (rd m ρ) (Set.mem_univ (K (c, some (a, k)))) (fun h => h) (R := 1) (duties_later m ρ (dCell c a k)))
  isplitl [Hrec]
  · iapply hinv; iexact Hrec
  · iexact Hat

/-- The positions below `n`, as the values of `Fin n`. -/
private theorem univ_map_val (n : ℕ) : (Finset.univ : Finset (Fin n)).map Fin.valEmbedding = Finset.range n := by
  ext i
  rw [Finset.mem_map, Finset.mem_range]
  constructor
  · rintro ⟨j, -, rfl⟩; exact j.isLt
  · intro h; exact ⟨⟨i, h⟩, Finset.mem_univ _, rfl⟩

/-- What is left after `n` left halves, with those `n` halves, is the full share: each step gives the last half back. -/
private theorem shares_join_range (c : Dev nD) (v : Memref sig .tc .vmem S8x256 .f32) (f : Buf (Elt F) (v.view.loc (c : Thread nD τ))) (n : ℕ) :
    iprop(pts c v (rsh n) f ∗ bigSep (Finset.range n) fun k : ℕ => pts c v (rsh k).left f) ⊢ (pts c v fullShare f : sProp 𝕄) := by
  induction n with
  | zero =>
    iintro ⟨H, -⟩
    iexact H
  | succ n ih =>
    have hs : (bigSep (Finset.range (n + 1)) (fun k : ℕ => pts c v (rsh k).left f) : sProp 𝕄)
        = iprop(pts c v (rsh n).left f ∗ bigSep (Finset.range n) (fun k : ℕ => pts c v (rsh k).left f)) := by
      rw [Finset.range_add_one]
      exact bigSep_insert Finset.notMem_range_self
    rw [hs]
    iintro ⟨Hr, Hl, Hrest⟩
    iapply ih
    isplitl [Hr Hl]
    · iapply (rsh_split c v n f).2
      isplitl [Hl] <;> iassumption
    · iexact Hrest

/-- What is left of the share after 31 left halves, with those 31 halves, is the full share. -/
theorem shares_join (c : Dev nD) (v : Memref sig .tc .vmem S8x256 .f32) (f : Buf (Elt F) (v.view.loc (c : Thread nD τ))) :
    iprop(pts c v (rsh 31) f ∗ bigSep Finset.univ fun k : Fin 31 => pts c v (rsh k.val).left f) ⊢ (pts c v fullShare f : sProp 𝕄) := by
  have e : (bigSep Finset.univ (fun k : Fin 31 => pts c v (rsh k.val).left f) : sProp 𝕄)
      = bigSep (Finset.range 31) (fun k : ℕ => pts c v (rsh k).left f) := by
    rw [← univ_map_val 31, bigSep_map]
    rfl
  rw [e]
  exact shares_join_range c v f 31

/-- The result buffer from its own tile and the tiles of the devices 1..31 places BEFORE `c`, all at the final contents. -/
theorem oJoin (c : Dev nD) :
    iprop(pts c (oSl c) fullShare (Ofin m ρ) ∗ bigSep Finset.univ fun k : Fin 31 => pts c (oSl (bwd c (k.val + 1))) fullShare (Ofin m ρ))
      ⊢ ((((c : Thread nD τ).loc cc0_stg1_0) ↦{fullShare} Ofin m ρ) : sProp 𝕄) := by
  have e : (bigSep Finset.univ (fun k : Fin 31 => pts c (oSl (bwd c (k.val + 1))) fullShare (Ofin m ρ)) : sProp 𝕄)
      = bigSep Finset.univ (fun k : Fin 31 => oPts c (fwd c (k.val + 1)) fullShare (Ofin m ρ)) := by
    refine Eq.trans ?_ (bigSep_univ_equiv Fin.revPerm (fun k : Fin 31 => oPts c (fwd c (k.val + 1)) fullShare (Ofin m ρ))).symm
    refine bigSep_congr fun k _ => ?_
    show pts c (oSl (bwd c (k.val + 1))) fullShare (Ofin m ρ) = pts c (oSl (fwd c ((Fin.rev k).val + 1))) fullShare (Ofin m ρ)
    have hk := k.isLt
    have h30 : 31 - (k.val + 1) = 30 - k.val := by omega
    rw [bwd_eq_fwd, Fin.val_rev, h30]
  rw [e]
  exact (oSplit c (Ofin m ρ)).2

/-- info: 'Cert.Kernel.TR.oJoin' depends on axioms: [propext, Classical.choice, Quot.sound] -/
#guard_msgs in #print axioms oJoin

end Cert.Kernel.TR

end
-- ==== Proof.K.BodyProof.lean ====
/-
  The body of one device, stepped statement by statement from its own invariant.

  The order is the program's: 31 signals; the barrier wait, which brings the 31 pairs of places on the other
  devices; 31 transfers of tiles of `x`; 31 waits for the tiles of the others, after which the landing buffer
  is whole at its final contents; the sum and its store into the own tile of the result; 31 transfers of that
  tile, each reading it at a left half of what is left of its share; 31 waits for the others' tiles; the 62
  waits that bring the lent tiles and shares back. Then every own cell is closed and the three buffers are
  whole again.
-/
import proofs.«901102_g7700000000001103_dist_treered_v7x_i32_m256_n256_f32_1_alg».proof.Proof.K.Steps
import proofs.«901102_g7700000000001103_dist_treered_v7x_i32_m256_n256_f32_1_alg».proof.Proof.K.Rejoin

noncomputable section

namespace Cert.Kernel.TR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Products over the 31 offsets as chains, in the order the body consumes them -/

omit [FloatOps F] in
theorem chain31 (Φ : Fin 31 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ emp) := by
  rw [bigSep_univ_eq_bigSepL ([0, 1, 2, 3, 4, 5, 6, 7, 8, 9, 10, 11, 12, 13, 14, 15, 16, 17, 18, 19, 20, 21, 22, 23, 24, 25, 26, 27, 28, 29, 30] : List (Fin 31)) (by decide) (by decide)]
  simp only [bigSepL_cons]
  rfl

omit [FloatOps F] in
/-- The same, last offset first. -/
theorem chain31r (Φ : Fin 31 → sProp 𝕄) :
    bigSep Finset.univ Φ = iprop(Φ 30 ∗ Φ 29 ∗ Φ 28 ∗ Φ 27 ∗ Φ 26 ∗ Φ 25 ∗ Φ 24 ∗ Φ 23 ∗ Φ 22 ∗ Φ 21 ∗ Φ 20 ∗ Φ 19 ∗ Φ 18 ∗ Φ 17 ∗ Φ 16 ∗ Φ 15 ∗ Φ 14 ∗ Φ 13 ∗ Φ 12 ∗ Φ 11 ∗ Φ 10 ∗ Φ 9 ∗ Φ 8 ∗ Φ 7 ∗ Φ 6 ∗ Φ 5 ∗ Φ 4 ∗ Φ 3 ∗ Φ 2 ∗ Φ 1 ∗ Φ 0 ∗ emp) := by
  rw [bigSep_univ_eq_bigSepL ([30, 29, 28, 27, 26, 25, 24, 23, 22, 21, 20, 19, 18, 17, 16, 15, 14, 13, 12, 11, 10, 9, 8, 7, 6, 5, 4, 3, 2, 1, 0] : List (Fin 31)) (by decide) (by decide)]
  simp only [bigSepL_cons]
  rfl

/-- A returned value bound into a continuation is the continuation at it. -/
theorem prog_ret_bind {E : Type → Type} {α β : Type} (a : α) (k : α → Prog E β) : (Prog.ret a).bind k = k a := rfl

omit [FloatOps F] in
theorem fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The 31 payloads of the barrier round, sorted: the slots, the tiles, the two families of facts. -/
theorem barPays_split (c : Dev nD) :
    (bigSep Finset.univ (fun j : Fin 31 => barPay (F := F) c j))
      = iprop((bigSep Finset.univ fun j : Fin 31 => iprop(∃ f, pts (fwd c (j.val + 1)) (pSl j.val j.isLt) fullShare f))
          ∗ (bigSep Finset.univ fun j : Fin 31 => iprop(∃ f, pts (fwd c (j.val + 1)) (oSl c) fullShare f))
          ∗ (bigSep Finset.univ fun j : Fin 31 => reached ER (dCell (fwd c (j.val + 1)) 1 j) 0)
          ∗ (bigSep Finset.univ fun j : Fin 31 => reached ER (dCell (fwd c (j.val + 1)) 3 j) 0)) := by
  unfold barPay
  rw [bigSep_sep', bigSep_sep', bigSep_sep']

/-! ## The four kinds of DMA payloads, unfolded -/

theorem dmaPay0_eq (c : Dev nD) :
    (bigSep Finset.univ fun k : Fin 31 => dmaPay m ρ c 0 k) = bigSep Finset.univ fun k : Fin 31 => pts c (xSl c k) fullShare (X m ρ c) :=
  bigSep_congr fun _ _ => rfl
theorem dmaPay1_eq (c : Dev nD) :
    (bigSep Finset.univ fun k : Fin 31 => dmaPay m ρ c 1 k) = bigSep Finset.univ fun k : Fin 31 => pts c (pSl k.val k.isLt) fullShare (P1fin m ρ c) :=
  bigSep_congr fun _ _ => rfl
theorem dmaPay2_eq (c : Dev nD) :
    (bigSep Finset.univ fun k : Fin 31 => dmaPay m ρ c 2 k) = bigSep Finset.univ fun k : Fin 31 => pts c (oSl c) (rsh k.val).left (Ofin m ρ) :=
  bigSep_congr fun _ _ => rfl
theorem dmaPay3_eq (c : Dev nD) :
    (bigSep Finset.univ fun k : Fin 31 => dmaPay m ρ c 3 k) = bigSep Finset.univ fun k : Fin 31 => pts c (oSl (bwd c (k.val + 1))) fullShare (Ofin m ρ) :=
  bigSep_congr fun _ _ => rfl

omit [FloatOps F] in
/-- Once nothing is owed any wait is allowed. -/
theorem mayWait_end (c : Dev nD) (sm : SemLoc sig) :
    (levAts L lv : sProp 𝕄) ⊢ MayWait (c : Thread nD τ) sm () (owedFrom c 93) := by
  rw [owedFrom_end, MayWait_zero]; iintro -; iempintro

set_option maxHeartbeats 4000000 in
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m ρ c)
  unfold bodyPre Φ₀ start
  iintro ⟨⟨⟨⟨%K, Hg⟩, HcB, Hc1, Hc3, #Hlev⟩, ⟨%f0, Hp⟩⟩, Ho, ⟨%d0, %g0, %hg0, Hx⟩, ⟨%d1, %g1, %hg1, Hout⟩⟩
  have hx : g0 = X m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = owedFrom c 0 from rfl]
  unfold ghost positions payToks
  icases Hg with ⟨#Hrec, ⟨HaB, Hpos⟩, Htb, Ht1, Ht2⟩
  -- the three buffers cut into the pieces that travel
  ihave Hp := (pSplit c f0).1 $$ Hp
  ihave Hout := (oSplit c g1).1 $$ Hout
  icases Hout with ⟨Hoown, Hot⟩
  ihave Hx := (xSplit c (X m ρ c)).1 $$ Hx
  icases Hx with ⟨Hxown, Hxt⟩
  ihave Htb := (Entails.of_eq (chain31 _)) $$ Htb
  ihave Hps := (Entails.of_eq (chain31r _)) $$ Hp
  ihave Hot := (Entails.of_eq (chain31 _)) $$ Hot
  ihave Hxt := (Entails.of_eq (chain31 _)) $$ Hxt
  ihave Ht1 := (Entails.of_eq (chain31 _)) $$ Ht1
  ihave Ht2 := (Entails.of_eq (chain31 _)) $$ Ht2
  ihave Hc1 := (Entails.of_eq (chain31 _)) $$ Hc1
  ihave Hc3 := (Entails.of_eq (chain31 _)) $$ Hc3
  ihave Hpos := (Entails.of_eq (fin4 _)) $$ Hpos
  icases Hpos with ⟨Hp0, Hp1, Hp2, Hp3⟩
  ihave Hp0 := (Entails.of_eq (chain31 _)) $$ Hp0
  ihave Hp1 := (Entails.of_eq (chain31 _)) $$ Hp1
  ihave Hp2 := (Entails.of_eq (chain31 _)) $$ Hp2
  ihave Hp3 := (Entails.of_eq (chain31 _)) $$ Hp3
  sl_unfold [cc0_body]
  -- the 31 signals
  forK j in [0:31] do
    sl_exec_parts
    icases Htb with ⟨Ht, Htb⟩
    icases Hps with ⟨Hs, Hps⟩
    icases Hot with ⟨Hto, Hot⟩
    iapply (step_sig m ρ K c (j : Fin 31) _ (by simp only [tr_dev] <;> rfl) (by decide)) $$ [Ht Hs Hto HO]
    · isplitr; · iexact Hrec
      isplitl [Ht Hs Hto]
      · unfold sigRes
        isplitl [Ht]; · iexact Ht
        isplitl [Hs]; · iexists _; iexact Hs
        iexists _; iexact Hto
      iexact HO
    iintro HO
  -- the barrier wait
  sl_exec_parts
  iapply (step_barwait m ρ K c (by decide)) $$ [HcB HO HaB]
  · isplitr; · iexact Hrec
    isplitl [HcB]; · iexact HcB
    isplitl [HO]; · iexact HO
    isplitr; · iexact Hlev
    iexact HaB
  iintro ⟨HO, HaB, Hbp⟩
  ihave Hbp := (Entails.of_eq (barPays_split c)) $$ Hbp
  icases Hbp with ⟨Hdp, Hdo, -, -⟩
  ihave Hdp := (Entails.of_eq (chain31 _)) $$ Hdp
  ihave Hdo := (Entails.of_eq (chain31 _)) $$ Hdo
  -- phase one: the 31 transfers of tiles of x
  ihave Hcs0 : (emp : sProp 𝕄) $$ []; · iempintro
  forK j in [0:31] do
    sl_exec_parts
    icases Hdp with ⟨Hd, Hdp⟩
    icases Hd with ⟨%fd, Hd⟩
    icases Hxt with ⟨Hs, Hxt⟩
    icases Ht1 with ⟨Ht, Ht1⟩
    icases Ht with ⟨Hta, Htc⟩
    iapply (step_send1 m ρ K c (j : Fin 31) _ (by simp only [tr_dev] <;> rfl) fd) $$ [Hs Hd HO Hta Htc]
    · isplitr; · iexact Hrec
      isplitl [Hs]; · iexact Hs
      isplitl [Hd]; · iexact Hd
      isplitl [HO]; · iexact HO
      isplitl [Hta]; · iexact Hta
      iexact Htc
    iintro ⟨Hcr, HO⟩
    ihave Hcs0 : iprop(_ ∗ _) $$ [Hcr Hcs0]
    · isplitl [Hcr]; · iexact Hcr
      iexact Hcs0
  -- the 31 waits for the others' tiles: each cell's round consumed, the cell closed, the slot landed
  ihave Hsl : (emp : sProp 𝕄) $$ []; · iempintro
  ihave Hz1 : (emp : sProp 𝕄) $$ []; · iempintro
  forK j in [0:31] do
    sl_exec_parts
    icases Hc1 with ⟨Hc, Hc1⟩
    icases Hp1 with ⟨Ha, Hp1⟩
    iapply (step_dmawait m ρ K c 1 (j : Fin 31) (owedFrom c 62) (mayWait_p1 c _) (by rfl) (by rfl)) $$ [Hc HO Ha]
    · isplitr; · iexact Hrec
      isplitl [Hc]; · iexact Hc
      isplitl [HO]; · iexact HO
      isplitr; · iexact Hlev
      iexact Ha
    iintro ⟨HO, Ha, Hpay⟩
    imod (close_dma m ρ K c 1 (j : Fin 31)) $$ [Ha] with Hz
    · isplitr; · iexact Hrec
      iexact Ha
    ihave Hsl : iprop(_ ∗ _) $$ [Hpay Hsl]
    · isplitl [Hpay]; · iexact Hpay
      iexact Hsl
    ihave Hz1 : iprop(_ ∗ _) $$ [Hz Hz1]
    · isplitl [Hz]; · iexact Hz
      iexact Hz1
  -- the sum: own tile of x, the landing buffer, and the store into the own tile of the result
  -- (the two own tiles are kept together between the local statements, opened at each)
  ihave Hloc : iprop(_ ∗ _) $$ [Hxown Hoown]
  · isplitl [Hxown]; · iexact Hxown
    iexact Hoown
  try sl_exec_parts
  icases Hloc with ⟨Hxown, Hoown⟩
  iapply (wp_load 𝒱₀ (c : Thread nD τ) none Set.univ (m := xM) (xOwn_load_sub c)) $$ Hxown; iintro Hxown
  ihave Hloc : iprop(_ ∗ _) $$ [Hxown Hoown]
  · isplitl [Hxown]; · iexact Hxown
    iexact Hoown
  try sl_exec_parts
  -- the landing buffer whole again, at its final contents
  ihave Hsl := (Entails.of_eq (chain31r (fun k : Fin 31 => dmaPay m ρ c 1 k)).symm) $$ Hsl
  ihave Hsl := (Entails.of_eq (dmaPay1_eq m ρ c)) $$ Hsl
  ihave Hp := (pSplit c (P1fin m ρ c)).2 $$ Hsl
  iapply (wp_load 𝒱₀ (c : Thread nD τ) none Set.univ (m := pM) (Finset.subset_univ _)) $$ Hp; iintro Hp
  rw [read_p]
  try sl_exec_parts
  icases Hloc with ⟨Hxown, Hoown⟩
  iapply (wp_load 𝒱₀ (c : Thread nD τ) none Set.univ (m := oM) (oOwn_load_sub c)) $$ Hoown; iintro Hoown
  ihave Hloc : iprop(_ ∗ _) $$ [Hxown Hoown]
  · isplitl [Hxown]; · iexact Hxown
    iexact Hoown
  try sl_exec_parts
  icases Hloc with ⟨Hxown, Hoown⟩
  iapply (wp_store 𝒱₀ (c : Thread nD τ) none Set.univ (m := oM) (Mk := Finset.univ) (oOwn_store_sub c)) $$ Hoown; iintro Hoown
  rw [prog_ret_bind]
  have hst := store_own m ρ c g1
  unfold acc at hst
  ihave Hoown := (Entails.of_eq hst) $$ Hoown
  -- phase two: the 31 transfers of the summed tile, each at a left half of what is left of its share
  ihave Hcs2 : (emp : sProp 𝕄) $$ []; · iempintro
  forK j in [0:31] do
    sl_exec_parts
    icases Hdo with ⟨Hd, Hdo⟩
    icases Hd with ⟨%fd, Hd⟩
    ihave Hoown : (pts c (oSl c) (rsh j) (Ofin m ρ) : sProp 𝕄) $$ [Hoown]
    · iexact Hoown
    ihave Hsh := (rsh_split c (oSl c) j (Ofin m ρ)).1 $$ Hoown
    icases Hsh with ⟨Hs, Hoown⟩
    icases Ht2 with ⟨Ht, Ht2⟩
    icases Ht with ⟨Hta, Htc⟩
    iapply (step_send2 m ρ K c (j : Fin 31) _ (by simp only [tr_dev] <;> rfl) fd) $$ [Hs Hd HO Hta Htc]
    · isplitr; · iexact Hrec
      isplitl [Hs]; · iexact Hs
      isplitl [Hd]; · iexact Hd
      isplitl [HO]; · iexact HO
      isplitl [Hta]; · iexact Hta
      iexact Htc
    iintro ⟨Hcr, HO⟩
    ihave Hcs2 : iprop(_ ∗ _) $$ [Hcr Hcs2]
    · isplitl [Hcr]; · iexact Hcr
      iexact Hcs2
  -- the 31 waits for the others' summed tiles
  ihave Hrt : (emp : sProp 𝕄) $$ []; · iempintro
  ihave Hz3 : (emp : sProp 𝕄) $$ []; · iempintro
  forK j in [0:31] do
    sl_exec_parts
    icases Hc3 with ⟨Hc, Hc3⟩
    icases Hp3 with ⟨Ha, Hp3⟩
    iapply (step_dmawait m ρ K c 3 (j : Fin 31) (owedFrom c 93) (mayWait_end c _) (by rfl) (by rfl)) $$ [Hc HO Ha]
    · isplitr; · iexact Hrec
      isplitl [Hc]; · iexact Hc
      isplitl [HO]; · iexact HO
      isplitr; · iexact Hlev
      iexact Ha
    iintro ⟨HO, Ha, Hpay⟩
    imod (close_dma m ρ K c 3 (j : Fin 31)) $$ [Ha] with Hz
    · isplitr; · iexact Hrec
      iexact Ha
    ihave Hrt : iprop(_ ∗ _) $$ [Hpay Hrt]
    · isplitl [Hpay]; · iexact Hpay
      iexact Hrt
    ihave Hz3 : iprop(_ ∗ _) $$ [Hz Hz3]
    · isplitl [Hz]; · iexact Hz
      iexact Hz3
  -- the 31 waits that bring the lent tiles of x back
  ihave Hcs0 := (Entails.of_eq (chain31r (fun k : Fin 31 => cred (tallyAt (dCell c 0 k) () N))).symm) $$ Hcs0
  ihave Hcs0 := (Entails.of_eq (chain31 _)) $$ Hcs0
  ihave Hxr : (emp : sProp 𝕄) $$ []; · iempintro
  ihave Hz0 : (emp : sProp 𝕄) $$ []; · iempintro
  forK j in [0:31] do
    sl_exec_parts
    icases Hcs0 with ⟨Hc, Hcs0⟩
    icases Hp0 with ⟨Ha, Hp0⟩
    iapply (step_dmawait m ρ K c 0 (j : Fin 31) (owedFrom c 93) (mayWait_end c _) (by rfl) (by rfl)) $$ [Hc HO Ha]
    · isplitr; · iexact Hrec
      isplitl [Hc]; · iexact Hc
      isplitl [HO]; · iexact HO
      isplitr; · iexact Hlev
      iexact Ha
    iintro ⟨HO, Ha, Hpay⟩
    imod (close_dma m ρ K c 0 (j : Fin 31)) $$ [Ha] with Hz
    · isplitr; · iexact Hrec
      iexact Ha
    ihave Hxr : iprop(_ ∗ _) $$ [Hpay Hxr]
    · isplitl [Hpay]; · iexact Hpay
      iexact Hxr
    ihave Hz0 : iprop(_ ∗ _) $$ [Hz Hz0]
    · isplitl [Hz]; · iexact Hz
      iexact Hz0
  -- the 31 waits that bring the lent shares of the summed tile back
  ihave Hcs2 := (Entails.of_eq (chain31r (fun k : Fin 31 => cred (tallyAt (dCell c 2 k) () N))).symm) $$ Hcs2
  ihave Hcs2 := (Entails.of_eq (chain31 _)) $$ Hcs2
  ihave Hshr : (emp : sProp 𝕄) $$ []; · iempintro
  ihave Hz2 : (emp : sProp 𝕄) $$ []; · iempintro
  forK j in [0:31] do
    sl_exec_parts
    icases Hcs2 with ⟨Hc, Hcs2⟩
    icases Hp2 with ⟨Ha, Hp2⟩
    iapply (step_dmawait m ρ K c 2 (j : Fin 31) (owedFrom c 93) (mayWait_end c _) (by rfl) (by rfl)) $$ [Hc HO Ha]
    · isplitr; · iexact Hrec
      isplitl [Hc]; · iexact Hc
      isplitl [HO]; · iexact HO
      isplitr; · iexact Hlev
      iexact Ha
    iintro ⟨HO, Ha, Hpay⟩
    imod (close_dma m ρ K c 2 (j : Fin 31)) $$ [Ha] with Hz
    · isplitr; · iexact Hrec
      iexact Ha
    ihave Hshr : iprop(_ ∗ _) $$ [Hpay Hshr]
    · isplitl [Hpay]; · iexact Hpay
      iexact Hshr
    ihave Hz2 : iprop(_ ∗ _) $$ [Hz Hz2]
    · isplitl [Hz]; · iexact Hz
      iexact Hz2
  sl_exec_parts
  -- the staging buffer of x whole again
  ihave Hxr := (Entails.of_eq (chain31r (fun k : Fin 31 => dmaPay m ρ c 0 k)).symm) $$ Hxr
  ihave Hxr := (Entails.of_eq (dmaPay0_eq m ρ c)) $$ Hxr
  ihave Hx := (xSplit c (X m ρ c)).2 $$ [Hxown Hxr]
  · isplitl [Hxown]; · iexact Hxown
    iexact Hxr
  -- the summed tile back at the full share, then the result buffer whole from its 32 tiles
  ihave Hshr := (Entails.of_eq (chain31r (fun k : Fin 31 => dmaPay m ρ c 2 k)).symm) $$ Hshr
  ihave Hshr := (Entails.of_eq (dmaPay2_eq m ρ c)) $$ Hshr
  ihave Hoown : (pts c (oSl c) (rsh 31) (Ofin m ρ) : sProp 𝕄) $$ [Hoown]
  · iexact Hoown
  ihave Hoown := (shares_join c (oSl c) (Ofin m ρ)) $$ [Hoown Hshr]
  · isplitl [Hoown]; · iexact Hoown
    iexact Hshr
  ihave Hrt := (Entails.of_eq (chain31r (fun k : Fin 31 => dmaPay m ρ c 3 k)).symm) $$ Hrt
  ihave Hrt := (Entails.of_eq (dmaPay3_eq m ρ c)) $$ Hrt
  ihave Hout := (oJoin m ρ c) $$ [Hoown Hrt]
  · isplitl [Hoown]; · iexact Hoown
    iexact Hrt
  -- the 124 own cells, closed
  ihave Hz0 := (Entails.of_eq (chain31r (fun k : Fin 31 => (semVal (dCell c 0 k) 0 : sProp 𝕄))).symm) $$ Hz0
  ihave Hz1 := (Entails.of_eq (chain31r (fun k : Fin 31 => (semVal (dCell c 1 k) 0 : sProp 𝕄))).symm) $$ Hz1
  ihave Hz2 := (Entails.of_eq (chain31r (fun k : Fin 31 => (semVal (dCell c 2 k) 0 : sProp 𝕄))).symm) $$ Hz2
  ihave Hz3 := (Entails.of_eq (chain31r (fun k : Fin 31 => (semVal (dCell c 3 k) 0 : sProp 𝕄))).symm) $$ Hz3
  rw [owedFrom_end c]
  sl_step
  unfold bodyPost Φ₁ Dat.owesAt Pipeline.owesWithin
  rw [show (dats m ρ 0 c).owed t₀.succ = 0 from rfl]
  isplitl [Hp Hz0 Hz1 Hz2 Hz3]
  · isplitl [Hp]; · iexact Hp
    iapply (Entails.of_eq (fin4 _).symm)
    isplitl [Hz0]; · iexact Hz0
    isplitl [Hz1]; · iexact Hz1
    isplitl [Hz2]; · iexact Hz2
    iexact Hz3
  isplitl [HO]
  · iexists _
    isplitr
    on_goal 2 => iexact HO
    ipureintro; exact fun _ _ => Or.inl trivial
  isplitl [Hx]
  · iexists _; isplitr; · (ipureintro; rfl)
    iexact Hx
  iexists _; isplitr; · (ipureintro; rfl)
  iexact Hout

/-- info: 'Cert.Kernel.TR.body_obligation' depends on axioms: [propext, Classical.choice, Quot.sound] -/
#guard_msgs in #print axioms body_obligation

end Cert.Kernel.TR

end
-- ==== Proof.K.Launch.lean ====
/-
  The launch: from every device's body obligation to the run of the whole mesh.

  The protocol's ghost state is allocated for all 32 devices at once (the barrier semaphores are the
  runtime's, shared by the devices that signal them), the duty tokens are dealt to the devices that pay
  them, each device is credited what the others owe its cells, and the result array is read off the
  pipeline's write-back of the result window.
-/
import proofs.«901102_g7700000000001103_dist_treered_v7x_i32_m256_n256_f32_1_alg».proof.Proof.K.Body
import proofs.«901102_g7700000000001103_dist_treered_v7x_i32_m256_n256_f32_1_alg».proof.Proof.K.Tables

noncomputable section

namespace Cert.Kernel.TR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The 124 scoped semaphores the kernel names: entry `k` of DMA family `a`. -/
private abbrev osem : Fin 4 × Fin 31 → SemLoc sig := fun ak => .dma (dsem ak.1 ak.2)

private theorem ownSemFacts : Pipeline.OwnSemFacts cfg0.spec osem := by decide

private theorem share_eq (c : Dev nD) (w : Fin cfg0.W) : (dats m ρ 0 c).share w = fullShare := by unfold Dat.share; split <;> rfl

/-! ## The ring: going `o` places forward is a bijection of the devices, going `o` places back its inverse -/

private theorem ring_bwd_fwd (c : Dev nD) (o : ℕ) : bwd (fwd c o) o = c := by
  apply Fin.ext
  have hc : c.val < 32 := c.isLt
  show ((c.val + o) % 32 + (32 - o % 32)) % 32 = c.val
  omega

private theorem ring_fwd_bwd (c : Dev nD) (o : ℕ) : fwd (bwd c o) o = c := by
  apply Fin.ext
  have hc : c.val < 32 := c.isLt
  show ((c.val + (32 - o % 32)) % 32 + o) % 32 = c.val
  omega

/-- Going `o` places forward, as a permutation of the devices. -/
private def ringE (o : ℕ) : Dev nD ≃ Dev nD := ⟨fun c => fwd c o, fun c => bwd c o, fun c => ring_bwd_fwd c o, fun c => ring_fwd_bwd c o⟩

/-- The barrier's duty names read backwards: `k ↦ 30 - k`. -/
private def revE : Fin 31 ≃ Fin 31 :=
  ⟨fun k => ⟨30 - k.val, by omega⟩, fun k => ⟨30 - k.val, by omega⟩, fun k => Fin.ext (by have := k.isLt; show 30 - (30 - k.val) = k.val; omega),
    fun k => Fin.ext (by have := k.isLt; show 30 - (30 - k.val) = k.val; omega)⟩

/-! ## The protocol's cells and tokens -/

private theorem csem_injective : Function.Injective csem := by
  rintro (_ | ⟨a, k⟩) (_ | ⟨a', k'⟩) h
  · rfl
  · cases h
  · cases h
  · have h1 : dsem a k = dsem a' k' := by injection h
    have := dsem_injective (a₁ := (a, k)) (a₂ := (a', k')) h1
    rw [this]

private theorem kcell_injective : Function.Injective (kcell : Cl → GSem nD τ sig) := by
  rintro ⟨c, o⟩ ⟨c', o'⟩ h
  have h1 : c = c' := by have := congrArg (fun g : GSem nD τ sig => g.1.1) h; exact this
  subst h1
  have h2 : csem o = csem o' := congrArg Prod.snd h
  rw [csem_injective h2]

private def protoCells : Finset (GSem nD τ sig) := Finset.univ.map ⟨kcell, kcell_injective⟩

/-- A device's own cells' duty tokens as minted: the 31 duties of its barrier cell, the one duty of each DMA cell. -/
private abbrev tokOf (x : Dev nD × (Fin 31 ⊕ (Fin 4 × Fin 31))) : GSem nD τ sig × ℕ × Fin 31 := match x.2 with
  | .inl j => (barCell x.1, 0, j)
  | .inr ak => (dCell x.1 ak.1 ak.2, 0, 0)

private theorem tokOf_injective : Function.Injective tokOf := by
  rintro ⟨c, x⟩ ⟨c', x'⟩ h
  have h1 : c = c' := by
    have := congrArg (fun y : GSem nD τ sig × ℕ × Fin 31 => y.1.1.1) h
    rcases x with j | ak <;> rcases x' with j' | ak' <;> exact this
  subst h1
  rcases x with j | ak <;> rcases x' with j' | ak'
  · have : j = j' := congrArg (fun y : GSem nD τ sig × ℕ × Fin 31 => y.2.2) h
    rw [this]
  · exact absurd (congrArg (fun y : GSem nD τ sig × ℕ × Fin 31 => y.1.2) h) (fun h' => by cases h')
  · exact absurd (congrArg (fun y : GSem nD τ sig × ℕ × Fin 31 => y.1.2) h) (fun h' => by cases h')
  · have h2 : csem (some ak) = csem (some ak') := congrArg (fun y : GSem nD τ sig × ℕ × Fin 31 => y.1.2) h
    have := csem_injective h2
    injection this with this
    rw [this]

private def protoToks : Finset (GSem nD τ sig × ℕ × Fin 31) := Finset.univ.map ⟨tokOf, tokOf_injective⟩

/-- The launch element: the pipeline's staging cells and the protocol's. -/
private def u₀ : UU :=
  (initOf (Pipeline.cells cfgs cellOf_inj) (Pipeline.launchToks cfgs cellOf_inj), initOf protoCells protoToks)

/-! ## What the launch element deals each device -/

/-- The duty tokens of device `c`'s own cells. -/
private def toks (c : Dev nD) : sProp 𝕄 :=
  iprop((bigSep Finset.univ fun j : Fin 31 => dutyTok ER (barCell c) 0 j)
    ∗ bigSep Finset.univ fun ak : Fin 4 × Fin 31 => dutyTok ER (dCell c ak.1 ak.2) 0 (0 : Fin 31))

/-- What the launch element deals device `c`: the round state of each of its cells, its position at the start of
    each and that each has reached round 0, and its cells' duty tokens. -/
private def G (c : Dev nD) : sProp 𝕄 :=
  iprop((bigSep Finset.univ fun o : Option (Fin 4 × Fin 31) => roundState ER (rd m ρ) (kcell (c, o)) 0)
    ∗ (bigSep Finset.univ fun o : Option (Fin 4 × Fin 31) => iprop(atPos ER (kcell (c, o)) 0 ∅ 0 ∗ reached ER (kcell (c, o)) 0)) ∗ toks c)

/-- What the step over all devices makes of it. -/
private def G' (c : Dev nD) : sProp 𝕄 := iprop(∃ K, ghost m ρ K c)

/-- A `bigSep` over an optional index: the summand at `none`, and those at `some`. -/
private theorem bigSep_option {α : Type} [Fintype α] (Φ : Option α → sProp 𝕄) :
    bigSep Finset.univ Φ = iprop(Φ none ∗ bigSep Finset.univ fun a : α => Φ (some a)) := by
  rw [bigSep_univ_equiv (Equiv.optionEquivSumPUnit.{0, 0} α).symm Φ, bigSep_univ_sum, bigSep_univ_of_subsingleton PUnit.unit]
  show iprop((bigSep Finset.univ fun a : α => Φ (some a)) ∗ Φ none) = iprop(Φ none ∗ bigSep Finset.univ fun a : α => Φ (some a))
  refine BI.Entails.antisymm (show _ ⊢ (_ : sProp 𝕄) from ?_) (show _ ⊢ (_ : sProp 𝕄) from ?_)
  · iintro ⟨H1, H2⟩; isplitl [H2]; · iexact H2
    iexact H1
  · iintro ⟨H1, H2⟩; isplitl [H2]; · iexact H2
    iexact H1

private theorem fund_proto : BI.own (ER (initOf protoCells protoToks)) ⊢ (|==> bigSep Finset.univ (G m ρ) : sProp 𝕄) := by
  have hX (Φ : GSem nD τ sig → sProp 𝕄) : bigSep protoCells Φ = bigSep Finset.univ fun c : Dev nD => bigSep Finset.univ fun o : Option (Fin 4 × Fin 31) => Φ (kcell (c, o)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]
    exact bigSep_congr fun c _ => by unfold toks; rw [bigSep_univ_sum]; rfl
  iintro HX
  imod (Rounds.fund ER (rd m ρ) protoCells protoToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

/-- The kernel's own semaphores are its 124 DMA cells; -/
private theorem ownSems0_eq (c : Dev nD) : (Pipeline.ownSems0 (Ix := Unit) (Name := ℕ) (U := UU) (Lvl := ℕ) (Val := Elt F) (τ := τ) osem c : sProp 𝕄)
    = bigSep Finset.univ fun ak : Fin 4 × Fin 31 => semVal (dCell c ak.1 ak.2) 0 := rfl

/-- the barrier semaphore is the launch's one unscoped semaphore. -/
private theorem unscopedSems0_eq (c : Dev nD) : (unscopedSems0 c : sProp 𝕄) = semVal (barCell c) 0 := by
  unfold unscopedSems0; rw [bigSep_eq_bigSepL_of_eq [SemLoc.reg barS] (by decide) (by decide)]; rfl

private theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun o : Option (Fin 4 × Fin 31) => semVal (kcell (c, o)) 0 : sProp 𝕄) := by
  rw [ownSems0_eq, unscopedSems0_eq, bigSep_option]
  iintro ⟨HD, HB⟩
  isplitl [HB]; · iexact HB
  iexact HD

/-- Each of a device's cells gets its invariant, from its counter at zero and its round state. -/
private theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o : Option (Fin 4 × Fin 31) => iprop(∃ κ : ℕ, cellInv ER (rd m ρ) κ (kcell (c, o))))
          ∗ (bigSep Finset.univ fun o : Option (Fin 4 × Fin 31) => iprop(atPos ER (kcell (c, o)) 0 ∅ 0 ∗ reached ER (kcell (c, o)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun o : Option (Fin 4 × Fin 31) => semVal (kcell (c, o)) 0) ∗ bigSep Finset.univ fun o : Option (Fin 4 × Fin 31) => roundState ER (rd m ρ) (kcell (c, o)) 0)
      ⊢ (|={Set.univ}=> bigSep Finset.univ fun o : Option (Fin 4 × Fin 31) => iprop(∃ κ : ℕ, cellInv ER (rd m ρ) κ (kcell (c, o))) : sProp 𝕄) from by
        rw [← bigSep_sep']
        exact (bigSep_mono fun o _ => (Rounds.body_intro ER (rd m ρ) (kcell (c, o))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing each duty token to the device that pays it -/

private theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- Per-device, per-offset assertions dealt round the ring: what device `c` holds at offset `k` goes to the device
    `k+1` places before it. -/
private theorem around (Φ : Dev nD → Fin 31 → sProp 𝕄) :
    (bigSep Finset.univ fun c : Dev nD => bigSep Finset.univ fun k : Fin 31 => Φ c k)
      = bigSep Finset.univ fun c : Dev nD => bigSep Finset.univ fun k : Fin 31 => Φ (fwd c (k.val + 1)) k := by
  rw [bigSep_univ_comm (fun (c : Dev nD) (k : Fin 31) => Φ c k), bigSep_univ_comm (fun (c : Dev nD) (k : Fin 31) => Φ (fwd c (k.val + 1)) k)]
  exact bigSep_congr fun k _ => bigSep_univ_equiv (ringE (k.val + 1)) (fun c => Φ c k)

/-- A device's own tokens, family by family. -/
private theorem toks_eq (c : Dev nD) : (toks c : sProp 𝕄)
    = iprop((bigSep Finset.univ fun j : Fin 31 => dutyTok ER (barCell c) 0 j)
      ∗ (bigSep Finset.univ fun k : Fin 31 => dutyTok ER (dCell c 0 k) 0 (0 : Fin 31))
      ∗ (bigSep Finset.univ fun k : Fin 31 => dutyTok ER (dCell c 1 k) 0 (0 : Fin 31))
      ∗ (bigSep Finset.univ fun k : Fin 31 => dutyTok ER (dCell c 2 k) 0 (0 : Fin 31))
      ∗ (bigSep Finset.univ fun k : Fin 31 => dutyTok ER (dCell c 3 k) 0 (0 : Fin 31))) := by
  unfold toks; rw [bigSep_univ_prod, bigSep_fin4]

/-- The tokens dealt round the ring: duty `30-k` of a barrier cell to the device `k+1` places before its owner, the
    arrival tokens of the receive cells at offset `k` likewise; the send tokens stay. -/
private theorem toks_around : (bigSep Finset.univ fun c : Dev nD => (toks c : sProp 𝕄)) ⊢ bigSep Finset.univ fun c : Dev nD => payToks c := by
  have hA : (bigSep Finset.univ fun c : Dev nD => bigSep Finset.univ fun j : Fin 31 => (dutyTok ER (barCell c) 0 j : sProp 𝕄))
      = bigSep Finset.univ fun c : Dev nD => bigSep Finset.univ fun k : Fin 31 => dutyTok ER (barCell (fwd c (k.val + 1))) 0 (⟨30 - k.val, by omega⟩ : Fin 31) := by
    rw [← around (fun c k => (dutyTok ER (barCell c) 0 (⟨30 - k.val, by omega⟩ : Fin 31) : sProp 𝕄))]
    exact bigSep_congr fun c _ => bigSep_univ_equiv revE (fun j => (dutyTok ER (barCell c) 0 j : sProp 𝕄))
  have hD (a : Fin 4) : (bigSep Finset.univ fun c : Dev nD => bigSep Finset.univ fun k : Fin 31 => (dutyTok ER (dCell c a k) 0 (0 : Fin 31) : sProp 𝕄))
      = bigSep Finset.univ fun c : Dev nD => bigSep Finset.univ fun k : Fin 31 => dutyTok ER (dCell (fwd c (k.val + 1)) a k) 0 (0 : Fin 31) :=
    around (fun c k => (dutyTok ER (dCell c a k) 0 (0 : Fin 31) : sProp 𝕄))
  rw [bigSep_congr fun c _ => toks_eq c]
  unfold payToks
  simp only [bigSep_sep']
  rw [hA, hD 1, hD 3]
  iintro ⟨HA, H0, H1, H2, H3⟩
  isplitl [HA]; · iexact HA
  isplitl [H0 H1]
  · isplitl [H0] <;> iassumption
  isplitl [H2] <;> iassumption

/-- A device's positions, over its cells as indexed. -/
private theorem positions_eq (c : Dev nD) :
    (positions c : sProp 𝕄) = bigSep Finset.univ fun o : Option (Fin 4 × Fin 31) => atPos ER (kcell (c, o)) 0 ∅ 0 := by
  unfold positions; rw [bigSep_option, bigSep_univ_prod]
  first | done | rfl

/-- One device's ghost state from the records and what stays with it. -/
private theorem ghost_intro (K : Cl → ℕ) (c : Dev nD) : iprop(records m ρ K ∗ positions c ∗ payToks c) ⊢ G' m ρ c := by
  unfold G' ghost
  iintro H
  iexists K
  iexact H

private theorem regroup :
    (bigSep Finset.univ fun c : Dev nD => iprop((bigSep Finset.univ fun o : Option (Fin 4 × Fin 31) => iprop(∃ κ : ℕ, cellInv ER (rd m ρ) κ (kcell (c, o))))
          ∗ (bigSep Finset.univ fun o : Option (Fin 4 × Fin 31) => iprop(atPos ER (kcell (c, o)) 0 ∅ 0 ∗ reached ER (kcell (c, o)) 0)) ∗ toks c) : sProp 𝕄)
      ⊢ bigSep Finset.univ (G' m ρ) := by
  rw [bigSep_sep', bigSep_sep', ← bigSep_univ_prod (fun x : Cl => iprop(∃ κ : ℕ, cellInv ER (rd m ρ) κ (kcell x))),
    bigSep_congr (s := Finset.univ) (fun (c : Dev nD) _ => bigSep_sep' Finset.univ (fun o : Option (Fin 4 × Fin 31) => (atPos ER (kcell (c, o)) 0 ∅ 0 : sProp 𝕄)) (fun o => reached ER (kcell (c, o)) 0)),
    bigSep_sep', ← bigSep_univ_prod (fun x : Cl => (reached ER (kcell x) 0 : sProp 𝕄))]
  iintro ⟨HI, ⟨Hat, #HR⟩, Htok⟩
  ihave HK := (BI.bigSep_exists_pi Finset.univ (fun (x : Cl) (κ : ℕ) => (cellInv ER (rd m ρ) κ (kcell x) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => (positions c : sProp 𝕄)) payToks).symm)
    isplitl [Hat]
    · iapply (Entails.of_eq (bigSep_congr (s := Finset.univ) fun (c : Dev nD) _ => (positions_eq c).symm)); iexact Hat
    iexact Htk

/-- The step over all devices: own and unscoped semaphores of every device at once. -/
private theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What a device owes at launch, as a sum over its 93 payments. -/
private theorem O₀_sum (c : Dev nD) : O₀ c = ∑ n ∈ Finset.range 93, tally c n := by
  unfold O₀ owedFrom
  rw [Finset.sum_eq_multiset_sum, Finset.range_val]
  show _ = (Multiset.map (tally c) ↑(List.range 93)).sum
  rw [Multiset.map_coe, Multiset.sum_coe, List.range_eq_range']

/-- The same by kind: 31 signals, 31 phase-one arrivals, 31 phase-two arrivals, each at the device `k+1` places on. -/
private theorem O₀_eq (c : Dev nD) : O₀ c = (∑ k : Fin 31, tallyAt (barCell (fwd c (k.val + 1))) () 1)
    + ((∑ k : Fin 31, tallyAt (dCell (fwd c (k.val + 1)) 1 k) () N) + ∑ k : Fin 31, tallyAt (dCell (fwd c (k.val + 1)) 3 k) () N) := by
  rw [O₀_sum, show (93 : ℕ) = 31 + (31 + 31) from rfl, Finset.sum_range_add, Finset.sum_range_add, Finset.sum_range, Finset.sum_range, Finset.sum_range]
  refine congrArg₂ (· + ·) (Finset.sum_congr rfl fun k _ => tally_sig c k)
    (congrArg₂ (· + ·) (Finset.sum_congr rfl fun k _ => tally_p1 c k) (Finset.sum_congr rfl fun k _ => ?_))
  rw [show 31 + (31 + k.val) = 62 + k.val from by omega]; exact tally_p2 c k

/-- Equal credits on one cell add up. -/
private theorem cred_replicate (g : GSem nD τ sig) (a : ℕ) {α : Type} [DecidableEq α] (s : Finset α) (n : ℕ) (hn : n = s.card * a) :
    (bigSep s fun _ : α => (cred (tallyAt g () a) : sProp 𝕄)) ⊢ cred (tallyAt g () n) := by
  subst hn
  induction s using Finset.induction_on with
  | empty => rw [bigSep_empty, Finset.card_empty, Nat.zero_mul, tallyAt_zero, cred_zero]; exact .rfl
  | insert x s hx ih =>
    rw [bigSep_insert hx, Finset.card_insert_of_notMem hx, Nat.succ_mul, Nat.add_comm, ← tallyAt_add]
    exact (sep_mono_right ih).trans (cred_add _ _).2

/-- The launch deals device `c` 31 units on its barrier cell and one transfer's credit on each of its receive cells:
    each unit is owed by exactly one device, the one `k+1` places before `c`, at offset `k`. -/
private theorem launch_creds (c : Dev nD) :
    (Pipeline.launchCred O₀ c : sProp 𝕄) ⊢ iprop(cred (tallyAt (barCell c) () 31)
      ∗ (bigSep Finset.univ fun k : Fin 31 => cred (tallyAt (dCell c 1 k) () N))
      ∗ (bigSep Finset.univ fun k : Fin 31 => cred (tallyAt (dCell c 3 k) () N))) := by
  rw [show (O₀ : Dev nD → CellTallies nD τ sig Unit) = fun d => (∑ k : Fin 31, tallyAt (barCell (fwd d (k.val + 1))) () 1)
      + ((∑ k : Fin 31, tallyAt (dCell (fwd d (k.val + 1)) 1 k) () N) + ∑ k : Fin 31, tallyAt (dCell (fwd d (k.val + 1)) 3 k) () N) from funext O₀_eq,
    Pipeline.launchCred_add, Pipeline.launchCred_add, Pipeline.launchCred_sum, Pipeline.launchCred_sum, Pipeline.launchCred_sum]
  have hA : (bigSep Finset.univ fun k : Fin 31 => (Pipeline.launchCred (fun d => tallyAt (barCell (fwd d (k.val + 1))) () 1) c : sProp 𝕄))
      ⊢ cred (tallyAt (barCell c) () 31) :=
    (bigSep_mono fun (k : Fin 31) _ => Pipeline.launchCred_tallyAt (SemLoc.reg barS) (fun d => fwd d (k.val + 1)) (fun d => bwd d (k.val + 1))
      (fun d => ring_fwd_bwd d _) (fun d => ring_bwd_fwd d _) () 1 c).trans
      (cred_replicate (F := F) (barCell c) 1 (Finset.univ : Finset (Fin 31)) 31 (by rw [Finset.card_univ, Fintype.card_fin]))
  have hB (a : Fin 4) : (bigSep Finset.univ fun k : Fin 31 => (Pipeline.launchCred (fun d => tallyAt (dCell (fwd d (k.val + 1)) a k) () N) c : sProp 𝕄))
      ⊢ bigSep Finset.univ fun k : Fin 31 => cred (tallyAt (dCell c a k) () N) :=
    bigSep_mono fun (k : Fin 31) _ => Pipeline.launchCred_tallyAt (SemLoc.dma (dsem a k)) (fun d => fwd d (k.val + 1)) (fun d => bwd d (k.val + 1))
      (fun d => ring_fwd_bwd d _) (fun d => ring_bwd_fwd d _) () N c
  iintro ⟨HA, HB, HC⟩
  isplitl [HA]
  · iapply hA; iexact HA
  isplitl [HB]
  · iapply (hB 1); iexact HB
  · iapply (hB 3); iexact HC

/-! ## The launch theorem's side conditions -/

private theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (launch_creds (F := F) c) $$ Hcr
  icases Hc with ⟨H1, HN, HM⟩
  imodintro
  unfold start G'
  isplitl
  · isplitl [HG]; · iexact HG
    isplitl [H1]; · iexact H1
    isplitl [HN]; · iexact HN
    isplitl [HM]; · iexact HM
    iexact Hlev
  · iempintro

private theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

private theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq, bigSep_univ_prod]
  unfold Φ₁
  iintro ⟨Hr, Hz⟩
  isplitr; · iempintro
  isplitl [Hz]; · iexact Hz
  iexists (P1fin m ρ c); iexact Hr

private theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- The arrays after the region's last point, as the proof data computes them. -/
private def finalA (c : Dev nD) (w : Fin cfg0.W) : Buf (Elt F) ((cfg0.win w).arr.view.loc (c : Thread nD τ)) := (dats m ρ 0 c).arrAt w cfg0.N

private def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
private theorem run_QC (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_proto m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-! ## The arrays read off the proof data -/

/-- The block of `x` is an input window: never written back. -/
private theorem finalA_x (c : Dev nD) : finalA m ρ c (0 : Fin 2) = m ((c : Thread nD τ).loc main_arg0) :=
  (dats (F := F) m ρ 0 c).arrAt_in (0 : Fin 2) rfl _

/-- The result window is written back once, whole, from the staged contents `Ofin`. -/
private theorem finalA_out (c : Dev nD) : finalA m ρ c (1 : Fin 2) = Ofin m ρ := by
  unfold finalA
  have h := (dats (F := F) m ρ 0 c).arrAt_succ (1 : Fin 2) t₀
  rw [flush0_1 t₀, if_pos rfl] at h
  refine (show (dats (F := F) m ρ 0 c).arrAt (1 : Fin 2) cfg0.N = (dats (F := F) m ρ 0 c).arrAt (1 : Fin 2) (t₀.val + 1) from rfl).trans (h.trans ?_)
  have hread : ∀ f : Buf (Elt F) ((cfg0.win (1 : Fin 2)).arr.view.loc (c : Thread nD τ)), ((cfg0.win (1 : Fin 2)).blk t₀).view.read (Elt F) f = f := fun f =>
    Memref.read_access_unit_zero (Elt F) main_v1 (off := fun a => (cfg0.win (1 : Fin 2)).index t₀ a * (cfg0.win (1 : Fin 2)).size a)
      (funext fun a => Nat.zero_mul _) _ f
  exact (hread _).symm.trans (View.read_write_univ _ _)

/-- Every weakly fair execution of the 32 kernels terminates, nothing faults, every device's result array ends
    holding the final contents `Ofin` and its block of `x` is unchanged. -/
theorem run_main (hbody : ∀ c : Dev nD, BodyObligation (dats (F := F) m ρ 0 c) (defs₀ (F := F)) 𝒱₀ () Set.univ) :
    θ_run defs (onTc (τ := τ) (main (F := F))) (s₀ m ρ) (fun r => ∀ c : Dev nD,
      r.2.mem ((c.tc : Thread nD τ).loc main_v1) = Ofin m ρ
      ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩) (run_QC m ρ hbody)

/-- info: 'Cert.Kernel.TR.run_main' depends on axioms: [propext, Classical.choice, Quot.sound] -/
#guard_msgs in #print axioms run_main

end Cert.Kernel.TR

end
-- ==== Proof.lean ====
/-
  The claim: a sum over 32 devices, computed on the ring and on one device.

  Device `c` of the ring holds block `c` (256 rows of 256) of `x`; the rows are cut into 32 tiles of 8. In the first
  phase every device sends tile `j` of its block to device `j`, and each device adds the 31 tiles it receives to its
  own tile: it then holds tile `c` of the sum of the 32 blocks. In the second phase every device sends its summed tile
  to every other device, so that each ends holding the whole sum. The reference, on one device over the whole array,
  holds at each index zero plus the sum of the 32 blocks' entries. The run of the mesh (every fair execution ends,
  nothing faults, every result buffer ends at one named function of the arguments, the arguments are unchanged) is the
  launch of the 32 bodies, once for each float instance. The three frames are runs with the values dropped; the
  algebraic conjunct is the ideal instance's run joined to the reference's by the equality of the two sums, one sum
  over the 32 devices in two orders (addition of extended reals is commutative and associative).
-/
import proofs.«901102_g7700000000001103_dist_treered_v7x_i32_m256_n256_f32_1_alg».proof.Defs
import proofs.«901102_g7700000000001103_dist_treered_v7x_i32_m256_n256_f32_1_alg».proof.Proof.Gen.Kernel
import proofs.«901102_g7700000000001103_dist_treered_v7x_i32_m256_n256_f32_1_alg».proof.Proof.Gen.Kernel.Skeleton
import proofs.«901102_g7700000000001103_dist_treered_v7x_i32_m256_n256_f32_1_alg».proof.Proof.Gen.Kernel.Launch
import proofs.«901102_g7700000000001103_dist_treered_v7x_i32_m256_n256_f32_1_alg».proof.Proof.Gen.Kernel.Points
import proofs.«901102_g7700000000001103_dist_treered_v7x_i32_m256_n256_f32_1_alg».proof.Proof.Gen.Kernel.Frame
import proofs.«901102_g7700000000001103_dist_treered_v7x_i32_m256_n256_f32_1_alg».proof.Proof.Gen.KernelIdeal
import proofs.«901102_g7700000000001103_dist_treered_v7x_i32_m256_n256_f32_1_alg».proof.Proof.Gen.KernelIdeal.Skeleton
import proofs.«901102_g7700000000001103_dist_treered_v7x_i32_m256_n256_f32_1_alg».proof.Proof.Gen.KernelIdeal.Launch
import proofs.«901102_g7700000000001103_dist_treered_v7x_i32_m256_n256_f32_1_alg».proof.Proof.Gen.KernelIdeal.Points
import proofs.«901102_g7700000000001103_dist_treered_v7x_i32_m256_n256_f32_1_alg».proof.Proof.Gen.KernelIdeal.Frame
import proofs.«901102_g7700000000001103_dist_treered_v7x_i32_m256_n256_f32_1_alg».proof.Proof.Gen.ReferenceIdeal
import proofs.«901102_g7700000000001103_dist_treered_v7x_i32_m256_n256_f32_1_alg».proof.Proof.Gen.Pre_finite_inputs_Kernel
import proofs.«901102_g7700000000001103_dist_treered_v7x_i32_m256_n256_f32_1_alg».proof.Proof.Gen.Pre_finite_inputs_ReferenceIdeal
import proofs.«901102_g7700000000001103_dist_treered_v7x_i32_m256_n256_f32_1_alg».proof.Proof.Gen.ReferenceIdeal.Run
import proofs.«901102_g7700000000001103_dist_treered_v7x_i32_m256_n256_f32_1_alg».proof.Proof.Gen.ReferenceIdeal.Read
import proofs.«901102_g7700000000001103_dist_treered_v7x_i32_m256_n256_f32_1_alg».proof.Proof.BodyProof
import proofs.«901102_g7700000000001103_dist_treered_v7x_i32_m256_n256_f32_1_alg».proof.Proof.Launch
import proofs.«901102_g7700000000001103_dist_treered_v7x_i32_m256_n256_f32_1_alg».proof.Proof.Value
import proofs.«901102_g7700000000001103_dist_treered_v7x_i32_m256_n256_f32_1_alg».proof.Proof.K.BodyProof
import proofs.«901102_g7700000000001103_dist_treered_v7x_i32_m256_n256_f32_1_alg».proof.Proof.K.Launch
import Idealize.ShloMosaic.Adequacy
import Idealize.ShloMosaic.Init

noncomputable section

namespace Cert.Proof

open Idealize.ShloMosaic Idealize.ShloMosaic.TcCoe Idealize.SL.Sem

/-- The word-level kernel runs and leaves its arguments unchanged: its run with the result's value dropped. -/
theorem frame_Kernel : Cert.frame_Kernel (hKernel := Cert.Kernel.Gen.facts) (hPre_finite_inputs_Kernel := Cert.Pre_finite_inputs_Kernel.Gen.facts) :=
  fun m g _ => (θ_run Cert.Kernel.defs _ _).mono (fun _ h c => (h c).2)
    (Cert.Kernel.TR.run_main (F := Bits) m g (Cert.Kernel.TR.body_obligation m g))

/-- The same at the ideal instance. -/
theorem frame_KernelIdeal : Cert.frame_KernelIdeal (hKernelIdeal := Cert.KernelIdeal.Gen.facts) (hPre_finite_inputs_Kernel := Cert.Pre_finite_inputs_Kernel.Gen.facts) :=
  fun m g _ => (θ_run Cert.KernelIdeal.defs _ _).mono (fun _ h c => (h c).2)
    (Cert.KernelIdeal.TR.run_main (F := Ideal) m g (Cert.KernelIdeal.TR.body_obligation m g))

/-- The reference runs and leaves its argument unchanged: its run with the result's value dropped. -/
theorem frame_ReferenceIdeal : Cert.frame_ReferenceIdeal (hReferenceIdeal := Cert.ReferenceIdeal.Gen.facts) (hPre_finite_inputs_ReferenceIdeal := Cert.Pre_finite_inputs_ReferenceIdeal.Gen.facts) :=
  fun m g _ => (θ_run Cert.ReferenceIdeal.defs _ _).mono (fun _ h c => (h c).2) (Cert.ReferenceIdeal.Value.run (F := Ideal) m g)

/-- With every device's block of `x` its block of the reference's whole array, every device's result ends as the
    reference's: the sum of the 32 blocks. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) :=
  fun m g m' g' _ hblk =>
    ⟨Cert.ReferenceIdeal.Read.val_main_v0 (F := Ideal)
        (m' (((0 : Dev Cert.ReferenceIdeal.nD).tc : Thread Cert.ReferenceIdeal.nD Cert.ReferenceIdeal.τ).loc Cert.ReferenceIdeal.main_arg0)),
      (θ_run Cert.KernelIdeal.defs _ _).mono
        (fun _ h c => ⟨(h c).1.trans (Cert.KernelIdeal.TR.Ofin_eq_ref m g _ hblk), (h c).2⟩)
        (Cert.KernelIdeal.TR.run_main (F := Ideal) m g (Cert.KernelIdeal.TR.body_obligation m g)),
      (θ_run Cert.ReferenceIdeal.defs _ _).mono
        (fun _ h => ⟨(h 0).1.trans (Cert.ReferenceIdeal.Read.val_main_v0_eq _), (h 0).2⟩)
        (Cert.ReferenceIdeal.Value.run (F := Ideal) m' g')⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_Kernel, frame_KernelIdeal, frame_ReferenceIdeal, trivial, algebraic⟩

end Cert.Proof

end
